-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "inv_sqrt_h" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x128 : Shape := ⟨2, ![2048, 128]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  main_v18

def fn {F : FTy → Type} [FloatOps F] (main_arg0 : FVec F S8x2048x2048 .f32) (main_arg1 : FVec F S2048x128 .f32) (main_arg2 : FVec F S2048x128 .f32) (main_arg3 : FVec F S2048x128 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_v13 main_v16
-- ==== Kernel.lean ====
abbrev S8x2048x2048 : Shape := ⟨3, ![8, 2048, 2048]⟩
abbrev S2048x128 : Shape := ⟨2, ![2048, 128]⟩
abbrev S16384x2048 : Shape := ⟨2, ![16384, 2048]⟩
abbrev S2048x384 : Shape := ⟨2, ![2048, 384]⟩
abbrev S16384x384 : Shape := ⟨2, ![16384, 384]⟩
abbrev S1024x2048 : Shape := ⟨2, ![1024, 2048]⟩
abbrev S1024x384 : Shape := ⟨2, ![1024, 384]⟩
abbrev S8x2048x384 : Shape := ⟨3, ![8, 2048, 384]⟩
abbrev S8x2048x128 : Shape := ⟨3, ![8, 2048, 128]⟩
abbrev S1x1024x128 : Shape := ⟨3, ![1, 1024, 128]⟩
abbrev S1x512x128 : Shape := ⟨3, ![1, 512, 128]⟩
abbrev S1024x1 : Shape := ⟨2, ![1024, 1]⟩
abbrev S1024x128 : Shape := ⟨2, ![1024, 128]⟩
abbrev S512x128 : Shape := ⟨2, ![512, 128]⟩
abbrev S1024x512 : Shape := ⟨2, ![1024, 512]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S16384x2048, .f32⟩
  | .hbm, ⟨5, _⟩ => ⟨S2048x384, .f32⟩
  | .hbm, ⟨6, _⟩ => ⟨S16384x384, .bf16⟩
  | .hbm, ⟨7, _⟩ => ⟨S8x2048x384, .bf16⟩
  | .hbm, ⟨8, _⟩ => ⟨S8x2048x128, .f32⟩
  | .local _ .vmem, ⟨0, _⟩ => ⟨S1024x2048, .f32⟩
  | .local _ .vmem, ⟨1, _⟩ => ⟨S1024x2048, .f32⟩
  | .local _ .vmem, ⟨2, _⟩ => ⟨S2048x384, .f32⟩
  | .local _ .vmem, ⟨3, _⟩ => ⟨S1024x384, .bf16⟩
  | .local _ .vmem, ⟨4, _⟩ => ⟨S1024x384, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x1024x128, .f32⟩
  | .local _ .vmem, ⟨12, _⟩ => ⟨S1x1024x128, .f32⟩
  | .local _ .vmem, ⟨13, _⟩ => ⟨S1024x1, .f32⟩
  | .local _ .vmem, ⟨14, _⟩ => ⟨S1024x1, .f32⟩
  | .local _ .vmem, ⟨15, _⟩ => ⟨S1024x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 4], ![false, false, false]⟩

def k1_cond3 (i : grid1.Coords) : BitVec 1 :=
  let arg2 : BitVec 32 := BitVec.ofNat 32 (i 2).val
  let arg1 : BitVec 32 := BitVec.ofNat 32 (i 1).val
  let c2_i32 : BitVec 32 := 2#32
  let v3 : BitVec 32 := Scalar.muli arg1 c2_i32
  let c1_i32 : BitVec 32 := 1#32
  let v4 : BitVec 32 := Scalar.addi v3 c1_i32
  let v8 : BitVec 1 := Scalar.cmpi .eq arg2 v4
  let v9 : BitVec 32 := Scalar.extui v8
  let c0_i32_2 : BitVec 32 := 0#32
  let v10 : BitVec 1 := Scalar.cmpi .ne v9 c0_i32_2
  v10

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.addi v0 c1_i32
  let v2 : BitVec 32 := Scalar.minsi arg2 v1
  let c1_i32_0 : BitVec 32 := 1#32
  let c0_i32 : BitVec 32 := 0#32
  ![arg0.toNat, v2.toNat, c1_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c1_i32 : BitVec 32 := 1#32
  let v1 : BitVec 32 := Scalar.addi v0 c1_i32
  let v2 : BitVec 32 := Scalar.minsi arg2 v1
  let c2_i32_0 : BitVec 32 := 2#32
  let c0_i32 : BitVec 32 := 0#32
  ![arg0.toNat, v2.toNat, c2_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8x2048x2048_S16384x2048 : S8x2048x2048.ShapeCasts S16384x2048
  concatenates_S2048x128_S2048x128_S2048x128_S2048x384_d1 : Shape.Concatenates [S2048x128, S2048x128, S2048x128] S2048x384 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S1024x384_S1024x384_0_0 : ∀ a, (![0, 0] : Fin 2 → Nat) a + S1024x384.size a ≤ S1024x384.size a
  h_S1024x384 : 0 < S1024x384.numel
  packedbf16_S1024x384_S1024x384_0_0 : (Rect.unit (s := S1024x384) ![0, 0] S1024x384.size inb_S1024x384_S1024x384_0_0).PackedRows (EltTy.packing .bf16)
  shapeCasts_S16384x384_S8x2048x384 : S16384x384.ShapeCasts S8x2048x384
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x128 : S1024x1.Broadcasts S1024x128
  shapeCasts_S1024x128_S1x1024x128 : S1024x128.ShapeCasts S1x1024x128
  dot_S1024x2048_S2048x384_S1024x384_1_0_0_1_n_n_wf : DotDims.WF S1024x2048 S2048x384 S1024x384 [1] [0] [0] [1] [] []
  dot_S1024x128_S512x128_S1024x512_1_1_0_0_n_n_wf : DotDims.WF S1024x128 S512x128 S1024x512 [1] [1] [0] [0] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x384.size a ≤ S2048x384.size a
  hwx0_1 : ∀ i : grid0.Coords, EltTy.bits .f32 = 32 ∨ (Rect.block (s := S2048x384) S2048x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x384.size a ≤ S16384x384.size a
  hwx0_2 : ∀ i : grid0.Coords, EltTy.bits .bf16 = 32 ∨ (Rect.block (s := S16384x384) S1024x384.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x2048x384.size a
  hwx1_0 : ∀ i : grid1.Coords, EltTy.bits .bf16 = 32 ∨ (Rect.block (s := S8x2048x384) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S8x2048x384.size a
  hwx1_1 : ∀ i : grid1.Coords, EltTy.bits .bf16 = 32 ∨ (Rect.block (s := S8x2048x384) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S8x2048x384.size a
  hwx1_2 : ∀ i : grid1.Coords, EltTy.bits .bf16 = 32 ∨ (Rect.block (s := S8x2048x384) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x2048x128.size a
  hwx1_3 : ∀ i : grid1.Coords, EltTy.bits .f32 = 32 ∨ (Rect.block (s := S8x2048x128) S1x1024x128.size (cc1_transform_3 i) (hinb1_3 i)).WholeWords (EltTy.packing .f32)

variable [Facts₀]

def dot_S1024x2048_S2048x384_S1024x384_1_0_0_1_n_n : DotDims S1024x2048 S2048x384 S1024x384 where
  lhsContracting := [1]
  rhsContracting := [0]
  lhsNonContracting := [0]
  rhsNonContracting := [1]
  lhsBatch := []
  rhsBatch := []
  wf := dot_S1024x2048_S2048x384_S1024x384_1_0_0_1_n_n_wf
def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x2048 : Shape := ⟨3, ![8, 2048, 2048]⟩
abbrev S2048x128 : Shape := ⟨2, ![2048, 128]⟩
abbrev S8x2048x128 : Shape := ⟨3, ![8, 2048, 128]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S8x2048x128, .f32⟩
  | .hbm, ⟨5, _⟩ => ⟨S8x2048x128, .f32⟩
  | .hbm, ⟨6, _⟩ => ⟨S8x2048x128, .f32⟩
  | .hbm, ⟨7, _⟩ => ⟨S8x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S8x2048x2048, .i1⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x2048_S2048x128_S8x2048x128_2_0_01_1_n_n_wf : DotDims.WF S8x2048x2048 S2048x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x2048_S2048x128_S8x2048x128_2_0_01_1_n_n : DotDims S8x2048x2048 S2048x128 S8x2048x128 where
  lhsContracting := [2]
  rhsContracting := [0]
  lhsNonContracting := [0, 1]
  rhsNonContracting := [1]
  lhsBatch := []
  rhsBatch := []
  wf := dot_S8x2048x2048_S2048x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.Bits.Region0.lean ====
/-
  Region 0 of the program: the fused projection. One grid point multiplies a block of 1024 rows of the
  flattened activations (1024 x 2048) by the whole concatenated weight matrix (2048 x 384) and stores the
  1024 x 384 product into the output block; nothing is carried between points. Stated at any float
  instance and at a parameter `V`, the buffer contents the region is entered from: what the output's
  staging buffer holds after the body (`out0_2`), the body's triple, the pipeline's proof data and the
  body obligation at every point.
-/
import proofs.«423328_j88012469829751_3_alg».proof.Proof.Gen.Kernel.Launch
import proofs.«423328_j88012469829751_3_alg».proof.Proof.Gen.Kernel.Skeleton
import proofs.«423328_j88012469829751_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes. -/
abbrev r0_x : Rect S1024x2048 := Rect.unit (s := S1024x2048) ![0, 0] S1024x2048.size inb_S1024x2048_S1024x2048_0_0
abbrev r0_w : Rect S2048x384 := Rect.unit (s := S2048x384) ![0, 0] S2048x384.size inb_S2048x384_S2048x384_0_0
abbrev r0_o : Rect S1024x384 := Rect.unit (s := S1024x384) ![0, 0] S1024x384.size inb_S1024x384_S1024x384_0_0

/-- What the body leaves in the output's staging buffer: its one store, the product of the two loaded blocks. -/
def out0_2 (x0 : Vec F S1024x2048 .f32) (x1 : Vec F S2048x384 .f32) : Vec F S1024x384 .bf16 :=
  View.canon [⟨r0_o, k0_pay1 (View.ld x0 r0_x) (View.ld x1 r0_w)⟩]

/-- The one store fills the buffer. -/
theorem cover0_2 (p0 : Vec F S1024x384 .bf16) (y : S1024x384.Idx) :
    ∃ pc ∈ ([⟨r0_o, p0⟩] : List (View.Piece (Elt F) S1024x384 .bf16)), y ∈ pc.1.set :=
  View.cover_of_tiled [⟨r0_o, p0⟩] S1024x384.size (by rfl) y

set_option maxHeartbeats 1000000 in
/-- The body on whole staging buffers, the inputs' at contents `x0`, `x1` and the output's at anything, runs to
    the continuation with the inputs' unchanged and the output's at `out0_2 x0 x1`. -/
theorem sound_kernel0 (c : Dev nD) (E : Set ℕ) (i : grid0.Coords) (arg1 : Memref sig .tc .vmem S1024x2048 .f32) (harg1 : arg1.IsWhole)
    (arg2 : Memref sig .tc .vmem S2048x384 .f32) (harg2 : arg2.IsWhole) (arg3 : Memref sig .tc .vmem S1024x384 .bf16) (harg3 : arg3.IsWhole)
    (x0 : Vec F S1024x2048 .f32) (x1 : Vec F S2048x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_matmul_kernel i arg1 harg1 arg2 harg2 arg3 harg3) K := by
  simp only [cc0__qkv_matmul_kernel_eq_skeleton]; unfold cc0__qkv_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection's pipeline on core `c`: the arrays as the region finds them; after the
    body at point `t` each input's buffer at its block and the output's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Region1Defs.lean ====
/-
  Region 1 of the program, the attention proper: what its proof is stated over.

  The grid is (batch 8) x (query tile 2, of 1024 rows) x (key tile 4, of 512 keys); point `t` has key tile
  `t % 4` and query tile `(t / 4) % 2`. Three scratch buffers live across the key tiles of one query tile:
  the running row maximum, the running normaliser and the running weighted sum of values. A point
    * resets the three when its key tile is the first,
    * folds one more tile of keys into them when the tile is not wholly in the query tile's future
      (key tile ≤ 2 · query tile + 1),
    * and divides the weighted sum by the normaliser into the output block at the last such tile
      (key tile = 2 · query tile + 1).
  The output block is written back after the query tile's last point, whether or not that point stored it.
-/
import proofs.«423328_j88012469829751_3_alg».proof.Proof.Gen.Kernel.Launch
import proofs.«423328_j88012469829751_3_alg».proof.Proof.Gen.Kernel.Skeleton
import proofs.«423328_j88012469829751_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions, as the skeleton computes them from the grid coordinates -/

/-- "This is the query tile's first key tile." -/
abbrev cond1_1 (i : grid1.Coords) : Prop :=
  (Scalar.cmpi .ne (Scalar.extui (Scalar.cmpi .eq (BitVec.ofNat 32 (i 2).val) 0#32)) 0#32) = 1#1
theorem hcond1_1 : ∀ t : Fin cfg1.N, cond1_1 (grid1.coords t) ↔ t.val % 4 = 0 :=
  (by decide +kernel : ∀ t : Fin grid1.N, cond1_1 (grid1.coords t) ↔ t.val % 4 = 0)

/-- "This key tile is not wholly in the query tile's future." -/
abbrev cond1_2 (i : grid1.Coords) : Prop :=
  (Scalar.cmpi .ne (Scalar.extui (Scalar.cmpi .sle (BitVec.ofNat 32 (i 2).val) (Scalar.addi (Scalar.muli (BitVec.ofNat 32 (i 1).val) 2#32) 1#32))) 0#32) = 1#1
theorem hcond1_2 : ∀ t : Fin cfg1.N, cond1_2 (grid1.coords t) ↔ t.val % 4 ≤ 2 * (t.val / 4 % 2) + 1 :=
  (by decide +kernel : ∀ t : Fin grid1.N, cond1_2 (grid1.coords t) ↔ t.val % 4 ≤ 2 * (t.val / 4 % 2) + 1)

/-- "This is the last key tile the query tile needs." -/
abbrev cond1_3 (i : grid1.Coords) : Prop := k1_cond3 i = 1#1
theorem hcond1_3 : ∀ t : Fin cfg1.N, cond1_3 (grid1.coords t) ↔ t.val % 4 = 2 * (t.val / 4 % 2) + 1 :=
  (by decide +kernel : ∀ t : Fin grid1.N, cond1_3 (grid1.coords t) ↔ t.val % 4 = 2 * (t.val / 4 % 2) + 1)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the body does not finalise, the output window is idle; -/
theorem idleAt1_3 : ∀ t : Fin cfg1.N, ¬cond1_3 (grid1.coords t) → cfg1.idle 3 (grid1.coords t) = true := by decide +kernel
/-- where it does, live. -/
theorem liveAt1_3 : ∀ t : Fin cfg1.N, cond1_3 (grid1.coords t) → cfg1.idle 3 (grid1.coords t) = false := by decide +kernel

/-! ## The staging and scratch memrefs, spelled as the pipeline passes them -/

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The three scratch operands: the running maximum, the running normaliser, the running weighted sum. -/
abbrev scM : Memref sig .tc .vmem S1024x1 .f32 := Memref.whole cc1_scratch0
abbrev scL : Memref sig .tc .vmem S1024x1 .f32 := Memref.whole cc1_scratch1
abbrev scA : Memref sig .tc .vmem S1024x128 .f32 := Memref.whole cc1_scratch2

/-! ## One key tile folded in: the new scratch contents as functions of the blocks and the old contents -/

/-- The grid words the body computes the causal mask from. -/
abbrev qiW (i : grid1.Coords) : BitVec 32 := BitVec.ofNat 32 (i 1).val
abbrev kiW (i : grid1.Coords) : BitVec 32 := BitVec.ofNat 32 (i 2).val

/-- The running maximum after the tile: the old one against the tile's row maxima. -/
def stepM (a1 a2 : BitVec 32) (q : Vec F S1x1024x128 .bf16) (k : Vec F S1x512x128 .bf16) (mo : Vec F S1024x1 .f32) : Vec F S1024x1 .f32 :=
  k1_pay6 (k1_pay10 a1 a2 q k mo)
/-- The running normaliser after the tile: the old one rescaled to the new maximum, plus the tile's row sums. -/
def stepL (a1 a2 : BitVec 32) (q : Vec F S1x1024x128 .bf16) (k : Vec F S1x512x128 .bf16) (mo lo : Vec F S1024x1 .f32) : Vec F S1024x1 .f32 :=
  k1_pay4 (k1_pay13 a1 a2 q k mo mo lo)
/-- The running weighted sum after the tile: the old one rescaled, plus the tile's weights times its values. -/
def stepA (a1 a2 : BitVec 32) (q : Vec F S1x1024x128 .bf16) (k v : Vec F S1x512x128 .bf16) (mo : Vec F S1024x1 .f32) (ao : Vec F S1024x128 .f32) : Vec F S1024x128 .f32 :=
  k1_pay5 (k1_pay8 v) (k1_pay11 a1 a2 q k mo mo) (k1_pay12 a1 a2 q k mo) ao
/-- The output block: the weighted sum over the normaliser. -/
def finO (a : Vec F S1024x128 .f32) (l : Vec F S1024x1 .f32) : Vec F S1x1024x128 .f32 := k1_pay7 a l
/-- What a reset leaves: the maximum at minus infinity, the normaliser and the weighted sum at zero. -/
def m0 : Vec F S1024x1 .f32 := k1_pay1
def l0 : Vec F S1024x1 .f32 := k1_pay2
def a0 : Vec F S1024x128 .f32 := k1_pay3

end Cert.Kernel.Hand

end
-- ==== Proof.Bits.Region1Runs.lean ====
/-
  Region 1's body, run whole on any staging and scratch memrefs, in each of the four cases its three
  conditions leave at a grid point. The inputs' buffers come back as they were; a buffer the case does not
  store into comes back at the contents it was handed at; the scratch buffers come back at one more key
  tile folded in (after a reset, in the first case); in the finalising case the output block comes back at
  the weighted sum over the normaliser.
-/
import proofs.«423328_j88012469829751_3_alg».proof.Proof.Bits.Region1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

/-- The zero offsets of the whole-buffer rectangles, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A store through the whole-buffer rectangle, made last, covers the buffer whatever was stored before it. -/
private theorem cover1_s (p : Vec F S1024x1 .f32) (L : List (View.Piece (Elt F) S1024x1 .f32)) (y : S1024x1.Idx) :
    ∃ pc ∈ ((⟨Rect.unit (s := S1024x1) ![0, 0] S1024x1.size inb_S1024x1_S1024x1_0_0, p⟩ : View.Piece (Elt F) S1024x1 .f32) :: L), y ∈ pc.1.set :=
  ⟨_, List.mem_cons_self, View.mem_set_unit_zero hz2 inb_S1024x1_S1024x1_0_0 y⟩
private theorem cover1_a (p : Vec F S1024x128 .f32) (L : List (View.Piece (Elt F) S1024x128 .f32)) (y : S1024x128.Idx) :
    ∃ pc ∈ ((⟨Rect.unit (s := S1024x128) ![0, 0] S1024x128.size inb_S1024x128_S1024x128_0_0, p⟩ : View.Piece (Elt F) S1024x128 .f32) :: L), y ∈ pc.1.set :=
  ⟨_, List.mem_cons_self, View.mem_set_unit_zero hz2 inb_S1024x128_S1024x128_0_0 y⟩
private theorem cover1_o (p : Vec F S1x1024x128 .f32) (L : List (View.Piece (Elt F) S1x1024x128 .f32)) (y : S1x1024x128.Idx) :
    ∃ pc ∈ ((⟨Rect.unit (s := S1x1024x128) ![0, 0, 0] S1x1024x128.size inb_S1x1024x128_S1x1024x128_0_0_0, p⟩ : View.Piece (Elt F) S1x1024x128 .f32) :: L), y ∈ pc.1.set :=
  ⟨_, List.mem_cons_self, View.mem_set_unit_zero hz3 inb_S1x1024x128_S1x1024x128_0_0_0 y⟩

/-- FIRST key tile of a query tile: reset, then fold the tile in. The output block is not stored. -/
theorem run1_A (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i)
    (q : Vec F S1x1024x128 .bf16) (k v : Vec F S1x512x128 .bf16) (xo : Vec F S1x1024x128 .f32) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare xo
            ∗ owns (c : Thread nD τ) arg7 fullShare (stepM (qiW i) (kiW i) q k m0) ∗ owns (c : Thread nD τ) arg8 fullShare (stepL (qiW i) (kiW i) q k m0 l0)
            ∗ owns (c : Thread nD τ) arg9 fullShare (stepA (qiW i) (kiW i) q k v m0 a0)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3; subst hf4; subst hf5; subst hf6
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover1_s _ _), View.canon_cons_unit_zero hz2]
    sl_unfold_words
    unfold stepM m0
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  isplitl [H8]
  · iexists _; isplitr
    swap; · iexact H8
    ipureintro
    rw [View.read_writes_eq_canon _ _ _ (cover1_s _ _), View.canon_cons_unit_zero hz2]
    sl_unfold_words
    unfold stepL m0 l0
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  iexists _; isplitr
  swap; · iexact H9
  ipureintro
  rw [View.read_writes_eq_canon _ _ _ (cover1_a _ _), View.canon_cons_unit_zero hz2]
  sl_unfold_words
  unfold stepA m0 a0
  simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]

/-- A LATER key tile, not the last the query tile needs: fold it in. The output block is not stored. -/
theorem run1_B (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : cond1_2 i) (hc3 : ¬cond1_3 i)
    (q : Vec F S1x1024x128 .bf16) (k v : Vec F S1x512x128 .bf16) (xo : Vec F S1x1024x128 .f32)
    (mo lo : Vec F S1024x1 .f32) (ao : Vec F S1024x128 .f32) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xo
        ∗ owns (c : Thread nD τ) arg7 fullShare mo ∗ owns (c : Thread nD τ) arg8 fullShare lo ∗ owns (c : Thread nD τ) arg9 fullShare ao
        ∗ (iprop(owns (c : Thread nD τ) arg3 fullShare q ∗ owns (c : Thread nD τ) arg4 fullShare k ∗ owns (c : Thread nD τ) arg5 fullShare v ∗ owns (c : Thread nD τ) arg6 fullShare xo
            ∗ owns (c : Thread nD τ) arg7 fullShare (stepM (qiW i) (kiW i) q k mo) ∗ owns (c : Thread nD τ) arg8 fullShare (stepL (qiW i) (kiW i) q k mo lo)
            ∗ owns (c : Thread nD τ) arg9 fullShare (stepA (qiW i) (kiW i) q k v mo ao)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf3; subst hf4; subst hf5; subst hf6; subst hf7; subst hf8; subst hf9
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover1_s _ _), View.canon_unit_zero hz2]
    sl_unfold_words
    unfold stepM
    simp only [View.readAt_eq_ld, View.ld_unit_zero (S := S1x1024x128) hz3, View.ld_unit_zero (S := S1x512x128) hz3, View.ld_unit_zero (S := S1024x1) hz2, View.ld_unit_zero (S := S1024x128) hz2]
  isplitl [H8]
  · iexists _; isplitr
    swap; · iexact H8
    ipureintro
    rw [View.read_writes_eq_canon _ _ _ (cover1_s _ _), View.canon_unit_zero hz2]
    sl_unfold_words
    unfold stepL
    simp only [View.readAt_eq_ld, View.ld_unit_zero (S := S1x1024x128) hz3, View.ld_unit_zero (S := S1x512x128) hz3, View.ld_unit_zero (S := S1024x1) hz2, View.ld_unit_zero (S := S1024x128) hz2]
  iexists _; isplitr
  swap; · iexact H9
  ipureintro
  rw [View.read_writes_eq_canon _ _ _ (cover1_a _ _), View.canon_unit_zero hz2]
  sl_unfold_words
  unfold stepA
  simp only [View.readAt_eq_ld, View.ld_unit_zero (S := S1x1024x128) hz3, View.ld_unit_zero (S := S1x512x128) hz3, View.ld_unit_zero (S := S1024x1) hz2, View.ld_unit_zero (S := S1024x128) hz2]

/-- The LAST key tile the query tile needs: fold it in, then store the output block. -/
theorem run1_C (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : cond1_2 i) (hc3 : cond1_3 i)
    (q : Vec F S1x1024x128 .bf16) (k v : Vec F S1x512x128 .bf16)
    (mo lo : Vec F S1024x1 .f32) (ao : Vec F S1024x128 .f32) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare mo ∗ owns (c : Thread nD τ) arg8 fullShare lo ∗ owns (c : Thread nD τ) arg9 fullShare ao
        ∗ (iprop(owns (c : Thread nD τ) arg3 fullShare q ∗ owns (c : Thread nD τ) arg4 fullShare k ∗ owns (c : Thread nD τ) arg5 fullShare v
            ∗ owns (c : Thread nD τ) arg6 fullShare (finO (stepA (qiW i) (kiW i) q k v mo ao) (stepL (qiW i) (kiW i) q k mo lo))
            ∗ owns (c : Thread nD τ) arg7 fullShare (stepM (qiW i) (kiW i) q k mo) ∗ owns (c : Thread nD τ) arg8 fullShare (stepL (qiW i) (kiW i) q k mo lo)
            ∗ owns (c : Thread nD τ) arg9 fullShare (stepA (qiW i) (kiW i) q k v mo ao)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3; subst hf4; subst hf5; subst hf7; subst hf8; subst hf9
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover1_o _ _), View.canon_cons_unit_zero hz3]
    unfold finO stepA stepL
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  isplitl [H7]
  · iexists _; isplitr
    swap; · iexact H7
    ipureintro
    sl_unfold_words
    rw [View.read_writes_eq_canon _ _ _ (cover1_s _ _), View.canon_cons_unit_zero hz2]
    unfold stepM
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  isplitl [H8]
  · iexists _; isplitr
    swap; · iexact H8
    ipureintro
    sl_unfold_words
    rw [View.read_writes_eq_canon _ _ _ (cover1_s _ _), View.canon_cons_unit_zero hz2]
    unfold stepL
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  iexists _; isplitr
  swap; · iexact H9
  ipureintro
  sl_unfold_words
  rw [View.read_writes_eq_canon _ _ _ (cover1_a _ _), View.canon_cons_unit_zero hz2]
  unfold stepA
  simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]

/-- A key tile wholly in the query tile's future: the body does nothing. -/
theorem run1_D (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i)
    (q : Vec F S1x1024x128 .bf16) (k v : Vec F S1x512x128 .bf16) (xo : Vec F S1x1024x128 .f32)
    (mo lo : Vec F S1024x1 .f32) (ao : Vec F S1024x128 .f32) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xo
        ∗ owns (c : Thread nD τ) arg7 fullShare mo ∗ owns (c : Thread nD τ) arg8 fullShare lo ∗ owns (c : Thread nD τ) arg9 fullShare ao
        ∗ (iprop(owns (c : Thread nD τ) arg3 fullShare q ∗ owns (c : Thread nD τ) arg4 fullShare k ∗ owns (c : Thread nD τ) arg5 fullShare v ∗ owns (c : Thread nD τ) arg6 fullShare xo
            ∗ owns (c : Thread nD τ) arg7 fullShare mo ∗ owns (c : Thread nD τ) arg8 fullShare lo ∗ owns (c : Thread nD τ) arg9 fullShare ao) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf3; subst hf4; subst hf5; subst hf6; subst hf7; subst hf8; subst hf9
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists f9; isplitr; · ipureintro; rfl
  iexact H9

end Cert.Kernel.Hand

end
-- ==== Proof.Bits.Region1.lean ====
/-
  Region 1's proof data: what the output block and the three scratch buffers hold after every grid point,
  the invariant that carries the scratch from one point to the next, and the body obligation.

  The state after a point is (output block, running maximum, running normaliser, running weighted sum).
  A point whose key tile is wholly in the future leaves all four as it found them; any other point folds
  its key tile into the three scratch buffers — starting from the reset values when the tile is the
  query tile's first — and replaces the output block by weighted sum / normaliser when the tile is the last
  one the query tile needs. The output block is stored at that point only, but written back after the query
  tile's last point: in between it holds what was stored.
-/
import proofs.«423328_j88012469829751_3_alg».proof.Proof.Bits.Region1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000

variable (V : (c : Dev nD) → (b : Ref sig .tc) → Buf (Elt F) ((c : Thread nD τ).loc b))

/-- (output block, running maximum, running normaliser, running weighted sum). -/
abbrev St (F : FTy → Type) [FloatOps F] : Type :=
  Vec F S1x1024x128 .f32 × Vec F S1024x1 .f32 × Vec F S1024x1 .f32 × Vec F S1024x128 .f32

/-- Before the first point: the scratch at its reset values; the output block's component is a placeholder
    nothing consults (the first point of every query tile resets the scratch and does not read the block). -/
def st0 : St F := (finO a0 l0, m0, l0, a0)

/-- One point's effect on the state. `n` is the point's number (key tile `n % 4`, query tile `n / 4 % 2`),
    `a1`, `a2` the two grid words the body masks with, `q`, `k`, `v` the point's three input blocks. -/
def stepSt (n : ℕ) (a1 a2 : BitVec 32) (q : Vec F S1x1024x128 .bf16) (k v : Vec F S1x512x128 .bf16) (s : St F) : St F :=
  if n % 4 ≤ 2 * (n / 4 % 2) + 1 then
    let mo := if n % 4 = 0 then m0 else s.2.1
    let lo := if n % 4 = 0 then l0 else s.2.2.1
    let ao := if n % 4 = 0 then a0 else s.2.2.2
    (if n % 4 = 2 * (n / 4 % 2) + 1 then finO (stepA a1 a2 q k v mo ao) (stepL a1 a2 q k mo lo) else s.1,
      stepM a1 a2 q k mo, stepL a1 a2 q k mo lo, stepA a1 a2 q k v mo ao)
  else s

/-- The state after point `n`. -/
def outsAt1 (c : Dev nD) : (n : ℕ) → n < cfg1.N → St F
  | 0, hn => stepSt 0 (qiW (grid1.coords ⟨0, hn⟩)) (kiW (grid1.coords ⟨0, hn⟩)) (iblk1 V c 0 ⟨0, hn⟩) (iblk1 V c 1 ⟨0, hn⟩) (iblk1 V c 2 ⟨0, hn⟩) st0
  | n + 1, hn => stepSt (n + 1) (qiW (grid1.coords ⟨n + 1, hn⟩)) (kiW (grid1.coords ⟨n + 1, hn⟩)) (iblk1 V c 0 ⟨n + 1, hn⟩) (iblk1 V c 1 ⟨n + 1, hn⟩) (iblk1 V c 2 ⟨n + 1, hn⟩)
      (outsAt1 c n (Nat.lt_of_succ_lt hn))

/-- The state before point `n`. -/
def prevSt (c : Dev nD) (n : ℕ) (hn : n < cfg1.N) : St F :=
  if h : n = 0 then st0 else outsAt1 V c (n - 1) (by omega)

/-- The recurrence, at a point. -/
theorem outsAt1_eq (c : Dev nD) (t : Fin cfg1.N) :
    outsAt1 V c t.val t.isLt = stepSt t.val (qiW (grid1.coords t)) (kiW (grid1.coords t)) (iblk1 V c 0 t) (iblk1 V c 1 t) (iblk1 V c 2 t) (prevSt V c t.val t.isLt) := by
  obtain ⟨n, hn⟩ := t
  cases n with
  | zero => rfl
  | succ n => rfl

/-- The core's scoped buffers that belong to the projection's pipeline, at anything: they ride through this region untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before point `n`: before the first point every scoped buffer at anything; afterwards
    the three scratch buffers at what the point before left in them. -/
def PhiS1 (c : Dev nD) : (n : ℕ) → n ≤ cfg1.N → sProp 𝕄
  | 0, _ => Pipeline.ΦA spec1 c
  | n + 1, hn => iprop(Rest1 (F := F) c ∗ owns (c : Thread nD τ) scM fullShare (outsAt1 V c n hn).2.1
      ∗ owns (c : Thread nD τ) scL fullShare (outsAt1 V c n hn).2.2.1 ∗ owns (c : Thread nD τ) scA fullShare (outsAt1 V c n hn).2.2.2
      ∗ (∃ r, prngReg c r))

/-- The proof data of the attention's pipeline on core `c`. The three input windows read ONE array (the fused
    projections), so its share is dealt among them: a half, a quarter, a quarter. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-! ## The output window between its store and its write-back -/

/-- The output window is never fetched. -/
theorem fetch1_3 : ∀ t : Fin cfg1.N, (cfg1.win 3).fetch t = false :=
  (by decide +kernel : ∀ t : Fin grid1.N, win1_3.fetch t = false)

/-- It is written back at the query tile's last point only. -/
theorem noFlush1_3 (t : Fin cfg1.N) (h : t.val % 4 ≠ 3) : (cfg1.win 3).flush t = false :=
  Bool.eq_false_iff.mpr fun hf => h ((flush1_3 t).mp hf)

/-- The output window is not cut: what the body leaves in its buffer is kept whole. -/
theorem kept1_3 (c : Dev nD) (t : Fin cfg1.N) (d) : (dat1 V c).kept 3 t d = (dat1 V c).after 3 t := by
  unfold Dat.kept
  rw [Pipeline.fill_of_clip_none 3 _ (fun _ => rfl) d ((dat1 V c).after 3 t), Window.fill_cut]

/-- After a point that neither stores the output block nor is followed by its write-back, the buffer holds
    what it held before that point. -/
theorem before1_3_idle (c : Dev nD) (t : Fin cfg1.N) (ht : t.val ≠ 0) (hp : t.val - 1 < cfg1.N)
    (hfl : (t.val - 1) % 4 ≠ 3) (hc : ¬(t.val - 1) % 4 = 2 * ((t.val - 1) / 4 % 2) + 1) (d) :
    (dat1 V c).before 3 t d = (dat1 V c).before 3 ⟨t.val - 1, hp⟩ d := by
  rw [(dat1 V c).before_of_pos 3 t ht (fetch1_3 t) d, noFlush1_3 ⟨t.val - 1, hp⟩ hfl, if_neg Bool.false_ne_true]
  unfold Dat.left
  rw [idleAt1_3 ⟨t.val - 1, hp⟩ (fun h => hc ((hcond1_3 ⟨t.val - 1, hp⟩).mp h))]

/-- After a point that stores the output block and is not followed by its write-back, the buffer holds the
    block stored. -/
theorem before1_3_live (c : Dev nD) (t : Fin cfg1.N) (ht : t.val ≠ 0) (hp : t.val - 1 < cfg1.N)
    (hfl : (t.val - 1) % 4 ≠ 3) (hc : (t.val - 1) % 4 = 2 * ((t.val - 1) / 4 % 2) + 1) (d) :
    (dat1 V c).before 3 t d = (dat1 V c).after 3 ⟨t.val - 1, hp⟩ := by
  rw [(dat1 V c).before_of_pos 3 t ht (fetch1_3 t) d, noFlush1_3 ⟨t.val - 1, hp⟩ hfl, if_neg Bool.false_ne_true]
  unfold Dat.left
  rw [liveAt1_3 ⟨t.val - 1, hp⟩ ((hcond1_3 ⟨t.val - 1, hp⟩).mpr hc)]
  exact kept1_3 V c _ d

/-- Before a point that is not the first, the state is what the point before left. -/
theorem prevSt_pos (c : Dev nD) (n : ℕ) (hn : n < cfg1.N) (h : n ≠ 0) (hp : n - 1 < cfg1.N) :
    prevSt V c n hn = outsAt1 V c (n - 1) hp := by
  unfold prevSt; rw [dif_neg h]

/-- A point whose key tile is wholly in the query tile's future leaves the state as it found it. -/
theorem outsAt1_D (c : Dev nD) (t : Fin cfg1.N) (h : ¬t.val % 4 ≤ 2 * (t.val / 4 % 2) + 1) :
    outsAt1 V c t.val t.isLt = prevSt V c t.val t.isLt := by
  rw [outsAt1_eq]; unfold stepSt; rw [if_neg h]

/-- THE WRITE-BACK OF A BLOCK STORED EARLIER. At the last point of a query tile whose last needed key tile
    came two points before (query tile 0: key tile 1 stores, key tiles 2 and 3 do nothing), the output's
    buffer still holds the block stored, which is what the state names there: neither point in between
    stores into the buffer, writes it back, or changes the state. -/
theorem before1_3_flushD (c : Dev nD) (t : Fin cfg1.N) (h8 : t.val % 8 = 3) (d) :
    (dat1 V c).before 3 t d = (dat1 V c).after 3 t := by
  have hN : t.val < 64 := lt_of_lt_of_eq t.isLt (show cfg1.N = 64 from N_1)
  have hN' : cfg1.N = 64 := N_1
  have hp1 : t.val - 1 < cfg1.N := by omega
  have hp2 : t.val - 1 - 1 < cfg1.N := by omega
  rw [before1_3_idle V c t (by omega) hp1 (by omega) (by omega) d]
  rw [before1_3_live V c ⟨t.val - 1, hp1⟩ (by show t.val - 1 ≠ 0; omega) hp2 (by show (t.val - 1 - 1) % 4 ≠ 3; omega)
    (by show (t.val - 1 - 1) % 4 = 2 * ((t.val - 1 - 1) / 4 % 2) + 1; omega) d]
  rw [after1_3, after1_3]
  rw [outsAt1_D V c t (by omega), prevSt_pos V c t.val t.isLt (by omega) hp1]
  rw [outsAt1_D V c ⟨t.val - 1, hp1⟩ (by show ¬(t.val - 1) % 4 ≤ 2 * ((t.val - 1) / 4 % 2) + 1; omega),
    prevSt_pos V c (t.val - 1) hp1 (by omega) hp2]

/-! ## What the input windows' buffers hold, and what the body owes of them -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- An input window is live at every point: the body hands its buffer back at its block. -/
theorem leaves1_0 (c : Dev nD) (t : Fin cfg1.N) :
    (dat1 V c).leavesExact 0 t = owns (c : Thread nD τ) (ms1_0 t) fullShare (iblk1 V c 0 t) := by
  rw [← after1_0 V c t]
theorem leaves1_1 (c : Dev nD) (t : Fin cfg1.N) :
    (dat1 V c).leavesExact 1 t = owns (c : Thread nD τ) (ms1_1 t) fullShare (iblk1 V c 1 t) := by
  rw [← after1_1 V c t]
theorem leaves1_2 (c : Dev nD) (t : Fin cfg1.N) :
    (dat1 V c).leavesExact 2 t = owns (c : Thread nD τ) (ms1_2 t) fullShare (iblk1 V c 2 t) := by
  rw [← after1_2 V c t]

/-! ## The invariant, opened -/

/-- What the launch hands the region, buffer by buffer: the projection's five staging buffers, the three
    scratch buffers and the generator register, each at anything. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM fullShare d) ∗ (∃ d, owns (c : Thread nD τ) scL fullShare d) ∗ (∃ d, owns (c : Thread nD τ) scA fullShare d))
        ∗ (∃ r, prngReg c r)) := by
  unfold Pipeline.ΦA; rw [scopedRest1_eq]; simp only [scM, scL, scA, owns_whole]; try rfl

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(Rest1 (F := F) c ∗ owns (c : Thread nD τ) scM fullShare (outsAt1 V c n hn).2.1
      ∗ owns (c : Thread nD τ) scL fullShare (outsAt1 V c n hn).2.2.1 ∗ owns (c : Thread nD τ) scA fullShare (outsAt1 V c n hn).2.2.2
      ∗ (∃ r, prngReg c r)) := rfl

/-- Before a point that is not the first: the scratch at what the point before left. -/
theorem PhiS1_pos (c : Dev nD) (n : ℕ) (h : n ≤ cfg1.N) (hz : n ≠ 0) (hp : n - 1 < cfg1.N) :
    PhiS1 V c n h = iprop(Rest1 (F := F) c ∗ owns (c : Thread nD τ) scM fullShare (outsAt1 V c (n - 1) hp).2.1
      ∗ owns (c : Thread nD τ) scL fullShare (outsAt1 V c (n - 1) hp).2.2.1 ∗ owns (c : Thread nD τ) scA fullShare (outsAt1 V c (n - 1) hp).2.2.2
      ∗ (∃ r, prngReg c r)) := by
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- Before any point the invariant holds every scoped buffer at something: the names of the scratch
    contents forgotten. -/
theorem PhiS1_any (c : Dev nD) (n : ℕ) (h : n ≤ cfg1.N) :
    PhiS1 V c n h ⊢ iprop(Rest1 (F := F) c ∗ (∃ d, owns (c : Thread nD τ) scM fullShare d) ∗ (∃ d, owns (c : Thread nD τ) scL fullShare d)
      ∗ (∃ d, owns (c : Thread nD τ) scA fullShare d) ∗ (∃ r, prngReg c r)) := by
  cases n with
  | zero =>
    rw [PhiS1_zero V c 0 h rfl, PhiA1_eq]; unfold Rest1
    iintro ⟨⟨H1, H2, H3, H4, H5, HM, HL, HA⟩, Hg⟩
    isplitl [H1 H2 H3 H4 H5]
    · isplitl [H1]; · iexact H1
      isplitl [H2]; · iexact H2
      isplitl [H3]; · iexact H3
      isplitl [H4]; · iexact H4
      iexact H5
    isplitl [HM]; · iexact HM
    isplitl [HL]; · iexact HL
    isplitl [HA]; · iexact HA
    iexact Hg
  | succ n =>
    rw [PhiS1_succ]
    iintro ⟨HR, HM, HL, HA, Hg⟩
    isplitl [HR]; · iexact HR
    isplitl [HM]; · iexists _; iexact HM
    isplitl [HL]; · iexists _; iexact HL
    isplitl [HA]; · iexists _; iexact HA
    iexact Hg

/-- Every scoped buffer at something is what the launch hands the region. -/
theorem PhiA1_of_any (c : Dev nD) :
    iprop(Rest1 (F := F) c ∗ (∃ d, owns (c : Thread nD τ) scM fullShare d) ∗ (∃ d, owns (c : Thread nD τ) scL fullShare d)
      ∗ (∃ d, owns (c : Thread nD τ) scA fullShare d) ∗ (∃ r, prngReg c r)) ⊢ (Pipeline.ΦA spec1 c : sProp 𝕄) := by
  rw [PhiA1_eq]; unfold Rest1
  iintro ⟨⟨H1, H2, H3, H4, H5⟩, HM, HL, HA, Hg⟩
  isplitr [Hg]
  · isplitl [H1]; · iexact H1
    isplitl [H2]; · iexact H2
    isplitl [H3]; · iexact H3
    isplitl [H4]; · iexact H4
    isplitl [H5]; · iexact H5
    isplitl [HM]; · iexact HM
    isplitl [HL]; · iexact HL
    iexact HA
  iexact Hg

/-! ## The state after a point, case by case -/

/-- The query tile's first key tile: the scratch reset and the tile folded in; the output block as found. -/
theorem outsAt1_A (c : Dev nD) (t : Fin cfg1.N) (h1 : t.val % 4 = 0) :
    outsAt1 V c t.val t.isLt = ((prevSt V c t.val t.isLt).1,
      stepM (qiW (grid1.coords t)) (kiW (grid1.coords t)) (iblk1 V c 0 t) (iblk1 V c 1 t) m0,
      stepL (qiW (grid1.coords t)) (kiW (grid1.coords t)) (iblk1 V c 0 t) (iblk1 V c 1 t) m0 l0,
      stepA (qiW (grid1.coords t)) (kiW (grid1.coords t)) (iblk1 V c 0 t) (iblk1 V c 1 t) (iblk1 V c 2 t) m0 a0) := by
  rw [outsAt1_eq V c t]; unfold stepSt
  simp only [if_pos h1, if_pos (show t.val % 4 ≤ 2 * (t.val / 4 % 2) + 1 by omega),
    if_neg (show ¬t.val % 4 = 2 * (t.val / 4 % 2) + 1 by omega)]

/-- A later key tile, not the last the query tile needs: the tile folded in; the output block as found. -/
theorem outsAt1_B (c : Dev nD) (t : Fin cfg1.N) (h1 : ¬t.val % 4 = 0) (h2 : t.val % 4 ≤ 2 * (t.val / 4 % 2) + 1)
    (h3 : ¬t.val % 4 = 2 * (t.val / 4 % 2) + 1) :
    outsAt1 V c t.val t.isLt = ((prevSt V c t.val t.isLt).1,
      stepM (qiW (grid1.coords t)) (kiW (grid1.coords t)) (iblk1 V c 0 t) (iblk1 V c 1 t) (prevSt V c t.val t.isLt).2.1,
      stepL (qiW (grid1.coords t)) (kiW (grid1.coords t)) (iblk1 V c 0 t) (iblk1 V c 1 t) (prevSt V c t.val t.isLt).2.1 (prevSt V c t.val t.isLt).2.2.1,
      stepA (qiW (grid1.coords t)) (kiW (grid1.coords t)) (iblk1 V c 0 t) (iblk1 V c 1 t) (iblk1 V c 2 t) (prevSt V c t.val t.isLt).2.1 (prevSt V c t.val t.isLt).2.2.2) := by
  rw [outsAt1_eq V c t]; unfold stepSt
  simp only [if_neg h1, if_pos h2, if_neg h3]

/-- The last key tile the query tile needs: the tile folded in, and the output block the weighted sum over
    the normaliser. -/
theorem outsAt1_C (c : Dev nD) (t : Fin cfg1.N) (h1 : ¬t.val % 4 = 0) (h3 : t.val % 4 = 2 * (t.val / 4 % 2) + 1) :
    outsAt1 V c t.val t.isLt = (
      finO (stepA (qiW (grid1.coords t)) (kiW (grid1.coords t)) (iblk1 V c 0 t) (iblk1 V c 1 t) (iblk1 V c 2 t) (prevSt V c t.val t.isLt).2.1 (prevSt V c t.val t.isLt).2.2.2)
        (stepL (qiW (grid1.coords t)) (kiW (grid1.coords t)) (iblk1 V c 0 t) (iblk1 V c 1 t) (prevSt V c t.val t.isLt).2.1 (prevSt V c t.val t.isLt).2.2.1),
      stepM (qiW (grid1.coords t)) (kiW (grid1.coords t)) (iblk1 V c 0 t) (iblk1 V c 1 t) (prevSt V c t.val t.isLt).2.1,
      stepL (qiW (grid1.coords t)) (kiW (grid1.coords t)) (iblk1 V c 0 t) (iblk1 V c 1 t) (prevSt V c t.val t.isLt).2.1 (prevSt V c t.val t.isLt).2.2.1,
      stepA (qiW (grid1.coords t)) (kiW (grid1.coords t)) (iblk1 V c 0 t) (iblk1 V c 1 t) (iblk1 V c 2 t) (prevSt V c t.val t.isLt).2.1 (prevSt V c t.val t.isLt).2.2.2) := by
  rw [outsAt1_eq V c t]; unfold stepSt
  simp only [if_neg h1, if_pos (show t.val % 4 ≤ 2 * (t.val / 4 % 2) + 1 by omega), if_pos h3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point. The inputs' buffers hold their blocks; the point's number says which of the four
    cases it is in. The invariant hands the body the scratch at what the point before left (at anything before
    a query tile's first key tile, which resets it) and takes it back at this point's contents. The output's
    buffer is stored at the last key tile the query tile needs and handed back as found elsewhere — except at
    the query tile's last point when that is a later, idle one: there the block is written back, and what the
    buffer was found holding is the block stored two points before, which is what the state still names. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [leaves1_0, leaves1_1, leaves1_2]
  have hN : t.val < 64 := lt_of_lt_of_eq t.isLt (show cfg1.N = 64 from N_1)
  have hN' : cfg1.N = 64 := N_1
  by_cases hA : t.val % 4 = 0
  · -- the query tile's first key tile
    have hc1 : cond1_1 (grid1.coords t) := (hcond1_1 t).mpr hA
    have hc2 : cond1_2 (grid1.coords t) := (hcond1_2 t).mpr (by omega)
    have hc3 : ¬cond1_3 (grid1.coords t) := fun h => absurd ((hcond1_3 t).mp h) (by omega)
    rw [Dat.leavesExact_idle (dat1 V c) 3 t (idleAt1_3 t hc3) (noFlush1_3 t (by omega))]
    rw [outsAt1_A V c t hA]; dsimp only
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    icases HΦ' with ⟨HR, HM, HL, HA, Hg⟩
    iapply (run1_A c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, HM, HL, HA⟩
    isplitl [HR HM HL HA Hg]
    · isplitl [HR]; · iexact HR
      isplitl [HM]; · iexact HM
      isplitl [HL]; · iexact HL
      isplitl [HA]; · iexact HA
      iexact Hg
    isplitl [Ho]; · iexact Ho
    isplitl [H0]; · iexact H0
    isplitl [H1]; · iexact H1
    isplitl [H2]; · iexact H2
    iexists d3; iexact H3
  · have hz : t.val ≠ 0 := fun h => hA (by rw [h])
    have hp : t.val - 1 < cfg1.N := by omega
    have hc1 : ¬cond1_1 (grid1.coords t) := fun h => hA ((hcond1_1 t).mp h)
    rw [PhiS1_pos V c t.val (Nat.le_of_lt t.isLt) hz hp]
    by_cases hD : t.val % 4 ≤ 2 * (t.val / 4 % 2) + 1
    · have hc2 : cond1_2 (grid1.coords t) := (hcond1_2 t).mpr hD
      by_cases hC : t.val % 4 = 2 * (t.val / 4 % 2) + 1
      · -- the last key tile the query tile needs
        have hc3 : cond1_3 (grid1.coords t) := (hcond1_3 t).mpr hC
        rw [show (dat1 V c).leavesExact 3 t = owns (c : Thread nD τ) (ms1_3 t) fullShare ((dat1 V c).after 3 t) from by
          unfold Dat.leavesExact; rw [liveAt1_3 t hc3], after1_3]
        rw [outsAt1_C V c t hA hC, prevSt_pos V c t.val t.isLt hz hp]; dsimp only
        iintro ⟨⟨HR, HM, HL, HA, Hg⟩, Ho, ⟨%d0, H0⟩, ⟨%d1, H1⟩, ⟨%d2, H2⟩, ⟨%d3, H3⟩⟩
        iapply (run1_C c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t)
          (outsAt1 V c (t.val - 1) hp).2.1 (outsAt1 V c (t.val - 1) hp).2.2.1 (outsAt1 V c (t.val - 1) hp).2.2.2 _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, H3, HM, HL, HA⟩
        isplitl [HR HM HL HA Hg]
        · isplitl [HR]; · iexact HR
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexact H3
      · -- a later key tile, not the last needed
        have hc3 : ¬cond1_3 (grid1.coords t) := fun h => hC ((hcond1_3 t).mp h)
        rw [Dat.leavesExact_idle (dat1 V c) 3 t (idleAt1_3 t hc3) (noFlush1_3 t (by omega))]
        rw [outsAt1_B V c t hA hD hC, prevSt_pos V c t.val t.isLt hz hp]; dsimp only
        iintro ⟨⟨HR, HM, HL, HA, Hg⟩, Ho, ⟨%d0, H0⟩, ⟨%d1, H1⟩, ⟨%d2, H2⟩, ⟨%d3, H3⟩⟩
        iapply (run1_B c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t) ((dat1 V c).before 3 t d3)
          (outsAt1 V c (t.val - 1) hp).2.1 (outsAt1 V c (t.val - 1) hp).2.2.1 (outsAt1 V c (t.val - 1) hp).2.2.2 _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HR HM HL HA Hg]
        · isplitl [HR]; · iexact HR
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexists d3; iexact H3
    · -- a key tile wholly in the query tile's future: nothing is done
      have hc2 : ¬cond1_2 (grid1.coords t) := fun h => hD ((hcond1_2 t).mp h)
      have hc3 : ¬cond1_3 (grid1.coords t) := fun h => absurd ((hcond1_3 t).mp h) (by omega)
      rw [outsAt1_D V c t hD, prevSt_pos V c t.val t.isLt hz hp]
      by_cases hF : t.val % 4 = 3
      · -- the query tile's last point: the block stored two points before is written back
        rw [show (dat1 V c).leavesExact 3 t = owns (c : Thread nD τ) (ms1_3 t) fullShare ((dat1 V c).after 3 t) from by
          unfold Dat.leavesExact; rw [idleAt1_3 t hc3, (flush1_3 t).mpr hF]]
        simp only [before1_3_flushD V c t (show t.val % 8 = 3 by omega)]
        iintro ⟨⟨HR, HM, HL, HA, Hg⟩, Ho, ⟨%d0, H0⟩, ⟨%d1, H1⟩, ⟨%d2, H2⟩, ⟨%d3, H3⟩⟩
        iapply (run1_D c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t) ((dat1 V c).after 3 t)
          (outsAt1 V c (t.val - 1) hp).2.1 (outsAt1 V c (t.val - 1) hp).2.2.1 (outsAt1 V c (t.val - 1) hp).2.2.2 _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HR HM HL HA Hg]
        · isplitl [HR]; · iexact HR
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexact H3
      · rw [Dat.leavesExact_idle (dat1 V c) 3 t (idleAt1_3 t hc3) (noFlush1_3 t hF)]
        iintro ⟨⟨HR, HM, HL, HA, Hg⟩, Ho, ⟨%d0, H0⟩, ⟨%d1, H1⟩, ⟨%d2, H2⟩, ⟨%d3, H3⟩⟩
        iapply (run1_D c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t) ((dat1 V c).before 3 t d3)
          (outsAt1 V c (t.val - 1) hp).2.1 (outsAt1 V c (t.val - 1) hp).2.2.1 (outsAt1 V c (t.val - 1) hp).2.2.2 _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HR HM HL HA Hg]
        · isplitl [HR]; · iexact HR
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything. -/
theorem hout1 (c : Dev nD) : (dat1 V c).Φ (Fin.last cfg1.N) ⊢ Pipeline.ΦA spec1 c :=
  (PhiS1_any V c (Fin.last cfg1.N).val (Nat.le_of_lt_succ (Fin.last cfg1.N).isLt)).trans (PhiA1_of_any c)

end Cert.Kernel.Hand

end
-- ==== Proof.Bits.Vals.lean ====
/-
  The buffer contents at @main's segment boundaries, from the launch memory `m`.

  @main is: two host operations (the activations reshaped to [16384, 2048]; the three weight matrices
  concatenated to [2048, 384]), the projection region, one host operation (its [16384, 384] result reshaped to
  [8, 2048, 384]), the attention region. `ent0` is what the projection region is entered from, `qkvOut` what it
  leaves in its result array, `ent1` what the attention region is entered from, `attnOut` what it leaves in
  the program's result.
-/
import proofs.«423328_j88012469829751_3_alg».proof.Proof.Bits.Region0
import proofs.«423328_j88012469829751_3_alg».proof.Proof.Bits.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers after the first host stretch. -/
abbrev val1 (c : Dev nD) : Valuation τ sig (Elt F) := StableHlo.after hostOps0 (fun b => m (c, b))
/-- The same read at a TensorCore reference: what the projection region is entered from. -/
abbrev ent0 (c : Dev nD) (b : Ref sig .tc) : Buf (Elt F) ((c : Thread nD τ).loc b) := val1 m c b

/-- What the projection region leaves in its result array: its write-backs folded over the entry contents. -/
def qkvOut (c : Dev nD) : Buf (Elt F) ((c : Thread nD τ).loc main_v2) := (dat0 (ent0 m) c).arrAt 2 cfg0.N

/-- After the projection region: the result array at `qkvOut`, every other buffer as entered. -/
abbrev val2 (c : Dev nD) : Valuation τ sig (Elt F) := Function.update (val1 m c) main_v2 (qkvOut m c)
/-- After the second host stretch. -/
abbrev val3 (c : Dev nD) : Valuation τ sig (Elt F) := StableHlo.after hostOps1 (val2 m c)
/-- What the attention region is entered from. -/
abbrev ent1 (c : Dev nD) (b : Ref sig .tc) : Buf (Elt F) ((c : Thread nD τ).loc b) := val3 m c b

/-- What the attention region leaves in the program's result. -/
def attnOut (c : Dev nD) : Buf (Elt F) ((c : Thread nD τ).loc main_v4) := (dat1 (ent1 m) c).arrAt 3 cfg1.N

/-- After the attention region. -/
abbrev val4 (c : Dev nD) : Valuation τ sig (Elt F) := Function.update (val3 m c) main_v4 (attnOut m c)

end Cert.Kernel.Hand

end
-- ==== Proof.Bits.SegDefs.lean ====
/-
  What the two regions' segment records and the launch are stated over: every pipeline's proof data at its
  region's entry contents, the thread state that rides beside the buffers, and the contents the regions
  leave, read off the last valuation, with the generated boundary valuations identified with this
  certificate's.
-/
import proofs.«423328_j88012469829751_3_alg».proof.Proof.Bits.Vals
import proofs.«423328_j88012469829751_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c

abbrev 𝒱₀ : Variants := Variants.none
/-- No core owes another anything: no level is assigned. -/
abbrev Lv0 : GSem nD τ sig → Finset Unit := fun _ => ∅
abbrev lv0 : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-- The contents the regions leave, as the conditional frame's unknowns. -/
abbrev outsOf : Gen.Outs (F := F) := fun _ r c => val4 m c r

theorem outs_v2 (c : Dev nD) : outsOf m 2 main_v2 c = qkvOut m c := by
  show val4 m c main_v2 = _
  rw [show val4 m c main_v2 = val3 m c main_v2 from Function.update_of_ne (StableHlo.devRef_ne_of_ne (by decide) : (Proc.devRef .tc main_v2 : DevRef τ sig) ≠ Proc.devRef .tc main_v4) _ _]
  rw [show val3 m c main_v2 = val2 m c main_v2 from StableHlo.after_of_writes_sub hostOps1 _ Gen.hostOps1_writes (by decide)]
  exact Function.update_self _ _ _

theorem outs_v4 (c : Dev nD) : outsOf m 4 main_v4 c = attnOut m c := Function.update_self _ _ _

theorem V2_eq (c : Dev nD) : Gen.V2 m (outsOf m) c = val2 m c := by
  show Function.update (Gen.V1 m c) main_v2 (outsOf m 2 main_v2 c) = _
  rw [outs_v2]
theorem V3_eq (c : Dev nD) : Gen.V3 m (outsOf m) c = val3 m c := by
  show StableHlo.after hostOps1 (Gen.V2 m (outsOf m) c) = _
  rw [V2_eq]
theorem V4_eq (c : Dev nD) : Gen.V4 m (outsOf m) c = val4 m c := by
  show Function.update (Gen.V3 m (outsOf m) c) main_v4 (outsOf m 4 main_v4 c) = _
  rw [V3_eq, outs_v4]

end Cert.Kernel.Hand

end
-- ==== Proof.Bits.Seg0.lean ====
/-
  Region 0, the fused projection, as a segment of the program.

  The region is entered with every unscoped buffer of the core held at the contents the first host stretch
  leaves (`val1`), beside the generator register at some state and nothing owed. Its three windows sit on three
  distinct whole arrays: the flattened activations and the concatenated weights, which it only reads, and the
  product array, which its write-backs fill. At the entry the three arrays are split out of the unscoped
  buffers at the proof data's entry contents, the other buffers bypass the region; the generator register
  passes through the pipeline's invariant and comes back. At the exit the arrays are put back: the two inputs
  hold what they held, the product array holds the write-backs folded over its entry contents (`qkvOut`),
  and that is the valuation `val2`, which differs from `val1` at the product array only.
-/
import proofs.«423328_j88012469829751_3_alg».proof.Proof.Bits.SegDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the region leaves -/

/-- The valuation after the region, read at a TensorCore reference. -/
abbrev ext0 (c : Dev nD) (b : Ref sig .tc) : Buf (Elt F) ((c : Thread nD τ).loc b) := val2 m c b

/-- A reference other than the product array holds after the region what it held before. -/
theorem ext0_of_ne (c : Dev nD) (b : Ref sig .tc) (hb : b ≠ main_v2) : ext0 m c b = ent0 m c b :=
  Function.update_of_ne (StableHlo.devRef_ne_of_ne hb : (Proc.devRef .tc b : DevRef τ sig) ≠ Proc.devRef .tc main_v2) _ _

/-- The product array holds the write-backs folded over its entry contents. -/
theorem ext0_v2 (c : Dev nD) : ext0 m c main_v2 = qkvOut m c := Function.update_self _ _ _

/-- At the exit each window's array holds what the valuation after the region says: an input array is never
    written, so it holds its entry contents, which the valuation keeps off the product array; the product
    array's final contents are the valuation's by definition. -/
theorem hF0 (c : Dev nD) : ∀ w : Fin cfg0.W, (dat0 (ent0 m) c).arrAt w cfg0.N = ext0 m c (Pipeline.arrRef spec0 w)
  | ⟨0, _⟩ => (((dat0 (ent0 m) c).arrAt_in 0 rfl _).trans (A_eq0 (ent0 m) c 0)).trans (ext0_of_ne m c _ (by decide)).symm
  | ⟨1, _⟩ => (((dat0 (ent0 m) c).arrAt_in 1 rfl _).trans (A_eq0 (ent0 m) c 1)).trans (ext0_of_ne m c _ (by decide)).symm
  | ⟨2, _⟩ => (ext0_v2 m c).symm

/-- Off the three windows' arrays the valuation after the region is the one before it. -/
theorem hrest0 (c : Dev nD) : ∀ b, b ∉ Finset.univ.image (Pipeline.arrRef spec0) → ext0 m c b = ent0 m c b :=
  fun b hb => ext0_of_ne m c b fun e => hb (Finset.mem_image.mpr ⟨2, Finset.mem_univ _, e.symm⟩)

/-! ## The region as a segment -/

-- a library lemma stated over the pinned configuration of pipeline 0 meets the printed configuration only when
-- unification may unfold plain definitions in a metavariable's type
set_option backward.isDefEq.respectTransparency.types false in
/-- Region 0 over the thread state: entered from every unscoped buffer at `val1`, left at `val2`; beside them the
    generator register at some state and nothing owed. The kernel has no semaphore of its own. -/
def reg0 : Pipeline.RegionSeg (pcfgs (F := F)) Gen.adm (pdats m) () defs₀ 𝒱₀ Lv0 lv0 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Lv0 lv0 0 fun _ _ => rfl
  pre c := iprop(StableHlo.held (c : Thread nD τ) (Pipeline.ucRefs τ sig) (val1 m c) ∗ Rst c)
  post c := iprop(StableHlo.held (c : Thread nD τ) (Pipeline.ucRefs τ sig) (val2 m c) ∗ Rst c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    -- the three arrays out of the unscoped buffers at the entry contents; the register to the invariant; the
    -- other unscoped buffers around the region; the tallies at the first point are the zero tallies
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the invariant at the first point is the class invariant: the scoped buffers no window stages and the register
    rw [show (pdats m 0 c).Φ 0 = Pipeline.ΦA spec0 c from rfl]; unfold Pipeline.ΦA
    iintro ⟨Hp, -, Hr⟩
    isplitl [Hr]; · iexact Hr
    iexact Hp
  hout c := by
    -- and it is the same at the last point
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    -- the arrays at their final contents and the bypassed buffers are the unscoped buffers at the valuation after
    -- the region; the tallies at the last point are the zero tallies
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from the thread state the first host stretch leaves. -/
theorem reg0_pre (c : Dev nD) :
    iprop(StableHlo.held (c : Thread nD τ) (Pipeline.ucRefs τ sig) (val1 m c) ∗ Rst c) ⊢ (reg0 m).pre c := .rfl

/-- The region leaves the thread state the second host stretch is entered from. -/
theorem reg0_post (c : Dev nD) :
    (reg0 m).post c ⊢ iprop(StableHlo.held (c : Thread nD τ) (Pipeline.ucRefs τ sig) (val2 m c) ∗ Rst c) := .rfl

end Cert.Kernel.Hand

end
-- ==== Proof.Bits.Seg1.lean ====
/-
  Region 1 of the program, the attention, as a segment of @main.

  Its three input windows read ONE array, the fused projections reshaped to [8, 2048, 384], at different blocks;
  the fourth window writes the program's result. So the region's arrays are not the buffers behind them one to
  one: at the entry the fused projections' buffer, held whole at the full share, is dealt among the three input
  windows — a half, and the other half halved again — and at the exit the three shares, each still at the
  contents the region was entered from (an input window's array is never written), are joined back to the
  whole buffer. The result's buffer is the output window's alone and comes back at what the write-backs left in
  it. Every other unscoped buffer bypasses the region.
-/
import proofs.«423328_j88012469829751_3_alg».proof.Proof.Bits.SegDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Region 1's arrays window by window: the fused projections' array dealt among the three input windows (a half,
    a quarter, a quarter), the result's array whole. -/
theorem arrays1_eq (V : (c : Dev nD) → (b : Ref sig .tc) → Buf (Elt F) ((c : Thread nD τ).loc b)) (c : Dev nD)
    (Fw : (w : Fin cfg1.W) → Buf (Elt F) ((cfg1.win w).arr.view.loc (c.tc : Thread nD τ))) :
    ((dat1 V c).arrays Fw : sProp 𝕄)
      = iprop((((c : Thread nD τ).loc main_v3) ↦{fullShare.left} Fw 0) ∗ (((c : Thread nD τ).loc main_v3) ↦{fullShare.right.left} Fw 1)
          ∗ (((c : Thread nD τ).loc main_v3) ↦{fullShare.right.right} Fw 2) ∗ (((c : Thread nD τ).loc main_v4) ↦{fullShare} Fw 3)) := by
  unfold Pipeline.Dat.arrays
  rw [Gen.bigSep_W1, (arr_whole1 0).set_eq_univ, (arr_whole1 3).set_eq_univ]
  rfl

/-- The distinct buffers behind region 1's arrays: the fused projections' and the result's. -/
theorem arrBufs1_eq (c : Dev nD) (V : (b : Ref sig .tc) → Buf (Elt F) ((c : Thread nD τ).loc b)) :
    (Pipeline.arrBufs spec1 c V : sProp 𝕄) = iprop((((c : Thread nD τ).loc main_v3) ↦{fullShare} V main_v3) ∗ (((c : Thread nD τ).loc main_v4) ↦{fullShare} V main_v4)) := by
  unfold Pipeline.arrBufs
  rw [show Finset.image (Pipeline.arrRef spec1) Finset.univ = {main_v3, main_v4} from by decide, bigSep_insert (by decide), bigSep_singleton]
  rfl

/-- An input window's array is never written: after the last point it holds what the region was entered from. -/
theorem arrAtN_0 (V : (c : Dev nD) → (b : Ref sig .tc) → Buf (Elt F) ((c : Thread nD τ).loc b)) (c : Dev nD) (n : ℕ) :
    (dat1 V c).arrAt 0 n = V c main_v3 := ((dat1 V c).arrAt_in 0 rfl n).trans (A_eq1 V c 0)
theorem arrAtN_1 (V : (c : Dev nD) → (b : Ref sig .tc) → Buf (Elt F) ((c : Thread nD τ).loc b)) (c : Dev nD) (n : ℕ) :
    (dat1 V c).arrAt 1 n = V c main_v3 := ((dat1 V c).arrAt_in 1 rfl n).trans (A_eq1 V c 1)
theorem arrAtN_2 (V : (c : Dev nD) → (b : Ref sig .tc) → Buf (Elt F) ((c : Thread nD τ).loc b)) (c : Dev nD) (n : ℕ) :
    (dat1 V c).arrAt 2 n = V c main_v3 := ((dat1 V c).arrAt_in 2 rfl n).trans (A_eq1 V c 2)

/-! ## Entry and exit: the unscoped buffers against the region's arrays -/

/-- ENTRY. The core's unscoped buffers at the contents the region is entered from are the region's arrays at the proof
    data's entry contents and the unscoped rest: the fused projections' array, whole at the full share, is halved and
    its right half halved again for the three input windows; the result's array is the output window's. -/
theorem entry1 (c : Dev nD) :
    (StableHlo.held (c : Thread nD τ) (Pipeline.ucRefs τ sig) (val3 m c) : sProp 𝕄)
      ⊢ iprop((pdats m 1 c).arrays ((pdats m 1 c).arrAt · 0) ∗ Pipeline.unscopedRest spec1 c (ent1 m c)) := by
  rw [← Pipeline.unscopedBufs_held (Ix := Unit) (Name := ℕ) (U := UR sig nD τ) (Lvl := ℕ) c (val3 m c)]
  show (unscopedBufs c (ent1 m c) : sProp 𝕄)
    ⊢ iprop((dat1 (ent1 m) c).arrays ((dat1 (ent1 m) c).arrAt · 0) ∗ Pipeline.unscopedRest spec1 c (ent1 m c))
  rw [Pipeline.unscopedBufs_split₀ cfgs 1 winFacts₀1.arr_unscoped c, arrays1_eq]
  refine sep_mono ?_ .rfl
  rw [show (Pipeline.arrBufs (cfgs 1).spec c (ent1 m c) : sProp 𝕄) = Pipeline.arrBufs spec1 c (ent1 m c) from rfl, arrBufs1_eq,
    arrAtN_0, arrAtN_1, arrAtN_2]
  iintro ⟨H3, H4⟩
  ihave H := (pointsTo_share (PosShare.mem_left_op_right fullShare)).1 $$ H3
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H4

/-- EXIT. The three input windows' shares of the fused projections' array, each still at the entry contents, join to
    the array whole; with the result's array at what the write-backs left and the unscoped rest as entered, these
    are the core's unscoped buffers at the contents after the region, which differ from those before it at the
    result's array only. -/
theorem exit1 (c : Dev nD) :
    iprop((pdats m 1 c).arrays ((pdats m 1 c).arrAt · cfg1.N) ∗ Pipeline.unscopedRest spec1 c (ent1 m c))
      ⊢ (StableHlo.held (c : Thread nD τ) (Pipeline.ucRefs τ sig) (val4 m c) : sProp 𝕄) := by
  rw [← Pipeline.unscopedBufs_held (Ix := Unit) (Name := ℕ) (U := UR sig nD τ) (Lvl := ℕ) c (val4 m c)]
  show iprop((dat1 (ent1 m) c).arrays ((dat1 (ent1 m) c).arrAt · cfg1.N) ∗ Pipeline.unscopedRest spec1 c (ent1 m c))
    ⊢ (unscopedBufs c (fun b => val4 m c b) : sProp 𝕄)
  rw [Pipeline.unscopedBufs_split₀ cfgs 1 winFacts₀1.arr_unscoped c, arrays1_eq]
  refine sep_mono ?_ (Entails.of_eq ?_)
  · rw [show (Pipeline.arrBufs (cfgs 1).spec c (fun b => val4 m c b) : sProp 𝕄) = Pipeline.arrBufs spec1 c (fun b => val4 m c b) from rfl,
      arrBufs1_eq, arrAtN_0, arrAtN_1, arrAtN_2,
      show val4 m c main_v3 = ent1 m c main_v3 from
        Function.update_of_ne (StableHlo.devRef_ne_of_ne (by decide) : (Proc.devRef .tc main_v3 : DevRef τ sig) ≠ Proc.devRef .tc main_v4) _ _,
      show val4 m c main_v4 = (dat1 (ent1 m) c).arrAt 3 cfg1.N from Function.update_self _ _ _]
    iintro ⟨Hl, Hrl, Hrr, H4⟩
    isplitr [H4]
    · ihave Hr := (pointsTo_share (PosShare.mem_left_op_right fullShare.right)).2 $$ [Hrl Hrr]
      · isplitl [Hrl] <;> iassumption
      iapply (pointsTo_share (PosShare.mem_left_op_right fullShare)).2
      isplitl [Hl] <;> iassumption
    iexact H4
  · show Pipeline.unscopedRest spec1 c (ent1 m c) = Pipeline.unscopedRest spec1 c (fun b => val4 m c b)
    unfold Pipeline.unscopedRest
    exact bigSep_congr fun b hb => by
      have hne : b ≠ main_v4 := fun h => (Finset.mem_sdiff.mp hb).2 (by rw [h]; decide)
      show _ = (((c : Thread nD τ).loc b) ↦{fullShare} val4 m c b)
      rw [show val4 m c b = ent1 m c b from
        Function.update_of_ne (StableHlo.devRef_ne_of_ne hne : (Proc.devRef .tc b : DevRef τ sig) ≠ Proc.devRef .tc main_v4) _ _]

/-! ## The region as a segment -/

-- a library lemma stated over the pinned configuration unifies with this program's only when unification may unfold
-- plain definitions in a metavariable's type
set_option backward.isDefEq.respectTransparency.types false in
/-- REGION 1 over the thread state: entered from every unscoped buffer at the contents after the second host
    stretch, left at those contents with the result's array at what the write-backs leave. The generator register goes
    into the invariant and comes back; nothing is owed; the kernel has no semaphore of its own. -/
def reg1 : Pipeline.RegionSeg (pcfgs (F := F)) Gen.adm (pdats m) () defs₀ 𝒱₀ Lv0 lv0 1 where
  win := winFacts₀1
  block_pos := block_pos1
  stage_whole := stage_whole1
  K := PEmpty
  osem k := k.elim
  ho := Pipeline.OwnSemFacts.none _
  hbody c := (body_obligation1 (ent1 m) c).loose
  hwaits := Pipeline.hwaits_of_owed_zero _ _ _ _ Lv0 lv0 1 fun _ _ => rfl
  pre c := iprop(StableHlo.held (c : Thread nD τ) (Pipeline.ucRefs τ sig) (val3 m c) ∗ Rst c)
  post c := iprop(StableHlo.held (c : Thread nD τ) (Pipeline.ucRefs τ sig) (val4 m c) ∗ Rst c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    iintro ⟨⟨Hub, Hp, HO⟩, -, -⟩
    ihave H := entry1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (ent1 m) c).Φ 0
    refine .trans ?_ (hin1 (ent1 m) c)
    unfold Pipeline.ΦA
    iintro ⟨Hp, -, Hr⟩
    isplitl [Hr]; · iexact Hr
    iexact Hp
  hout c := by
    rw [Pipeline.ownSems0_none]
    show (dat1 (ent1 m) c).Φ (Fin.last cfg1.N) ⊢ _
    refine (hout1 (ent1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-- The record is entered from the thread state after the second host stretch, -/
theorem reg1_pre (c : Dev nD) :
    iprop(StableHlo.held (c : Thread nD τ) (Pipeline.ucRefs τ sig) (val3 m c) ∗ Rst c) ⊢ (reg1 m).pre c := .rfl
/-- and left at the program's last. -/
theorem reg1_post (c : Dev nD) :
    (reg1 m).post c ⊢ iprop(StableHlo.held (c : Thread nD τ) (Pipeline.ucRefs τ sig) (val4 m c) ∗ Rst c) := .rfl

end Cert.Kernel.Hand

end
-- ==== Proof.Bits.Frame.lean ====
/-
  The frame claim of the program, at any float instance: from any memory with zero counters every weakly fair
  execution of @main terminates, nothing faulting, and every argument array ends as launched. It is the
  program's conditional frame at the two regions' segment records: no level is assigned, nothing is owed, the
  generator register and the core's (empty) dues ride beside the buffers from segment to segment.
-/
import proofs.«423328_j88012469829751_3_alg».proof.Proof.Bits.Seg0
import proofs.«423328_j88012469829751_3_alg».proof.Proof.Bits.Seg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ Lv0 lv0 (fun _ _ => rfl) ρ (outsOf m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (Pipeline.initEach Lv0 lv0 fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => reg0_pre m c) (fun c => (reg0_post m c).trans (by rw [V2_eq]))
    (reg1 m) (fun c => by rw [V3_eq]; exact reg1_pre m c) (fun c => (reg1_post m c).trans (by rw [V4_eq]))

end Cert.Kernel.Hand

end
-- ==== Proof.Region0.lean ====
/-
  Region 0 of the program: the fused projection. One grid point multiplies a block of 1024 rows of the
  flattened activations (1024 x 2048) by the whole concatenated weight matrix (2048 x 384) and stores the
  1024 x 384 product into the output block; nothing is carried between points. Stated at any float
  instance and at a parameter `V`, the buffer contents the region is entered from: what the output's
  staging buffer holds after the body (`out0_2`), the body's triple, the pipeline's proof data and the
  body obligation at every point.
-/
import proofs.«423328_j88012469829751_3_alg».proof.Proof.Gen.KernelIdeal.Launch
import proofs.«423328_j88012469829751_3_alg».proof.Proof.Gen.KernelIdeal.Skeleton
import proofs.«423328_j88012469829751_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes. -/
abbrev r0_x : Rect S1024x2048 := Rect.unit (s := S1024x2048) ![0, 0] S1024x2048.size inb_S1024x2048_S1024x2048_0_0
abbrev r0_w : Rect S2048x384 := Rect.unit (s := S2048x384) ![0, 0] S2048x384.size inb_S2048x384_S2048x384_0_0
abbrev r0_o : Rect S1024x384 := Rect.unit (s := S1024x384) ![0, 0] S1024x384.size inb_S1024x384_S1024x384_0_0

/-- What the body leaves in the output's staging buffer: its one store, the product of the two loaded blocks. -/
def out0_2 (x0 : Vec F S1024x2048 .f32) (x1 : Vec F S2048x384 .f32) : Vec F S1024x384 .bf16 :=
  View.canon [⟨r0_o, k0_pay1 (View.ld x0 r0_x) (View.ld x1 r0_w)⟩]

/-- The one store fills the buffer. -/
theorem cover0_2 (p0 : Vec F S1024x384 .bf16) (y : S1024x384.Idx) :
    ∃ pc ∈ ([⟨r0_o, p0⟩] : List (View.Piece (Elt F) S1024x384 .bf16)), y ∈ pc.1.set :=
  View.cover_of_tiled [⟨r0_o, p0⟩] S1024x384.size (by rfl) y

set_option maxHeartbeats 1000000 in
/-- The body on whole staging buffers, the inputs' at contents `x0`, `x1` and the output's at anything, runs to
    the continuation with the inputs' unchanged and the output's at `out0_2 x0 x1`. -/
theorem sound_kernel0 (c : Dev nD) (E : Set ℕ) (i : grid0.Coords) (arg1 : Memref sig .tc .vmem S1024x2048 .f32) (harg1 : arg1.IsWhole)
    (arg2 : Memref sig .tc .vmem S2048x384 .f32) (harg2 : arg2.IsWhole) (arg3 : Memref sig .tc .vmem S1024x384 .bf16) (harg3 : arg3.IsWhole)
    (x0 : Vec F S1024x2048 .f32) (x1 : Vec F S2048x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_matmul_kernel i arg1 harg1 arg2 harg2 arg3 harg3) K := by
  simp only [cc0__qkv_matmul_kernel_eq_skeleton]; unfold cc0__qkv_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection's pipeline on core `c`: the arrays as the region finds them; after the
    body at point `t` each input's buffer at its block and the output's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1Defs.lean ====
/-
  Region 1 of the program, the attention proper: what its proof is stated over.

  The grid is (batch 8) x (query tile 2, of 1024 rows) x (key tile 4, of 512 keys); point `t` has key tile
  `t % 4` and query tile `(t / 4) % 2`. Three scratch buffers live across the key tiles of one query tile:
  the running row maximum, the running normaliser and the running weighted sum of values. A point
    * resets the three when its key tile is the first,
    * folds one more tile of keys into them when the tile is not wholly in the query tile's future
      (key tile ≤ 2 · query tile + 1),
    * and divides the weighted sum by the normaliser into the output block at the last such tile
      (key tile = 2 · query tile + 1).
  The output block is written back after the query tile's last point, whether or not that point stored it.
-/
import proofs.«423328_j88012469829751_3_alg».proof.Proof.Gen.KernelIdeal.Launch
import proofs.«423328_j88012469829751_3_alg».proof.Proof.Gen.KernelIdeal.Skeleton
import proofs.«423328_j88012469829751_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions, as the skeleton computes them from the grid coordinates -/

/-- "This is the query tile's first key tile." -/
abbrev cond1_1 (i : grid1.Coords) : Prop :=
  (Scalar.cmpi .ne (Scalar.extui (Scalar.cmpi .eq (BitVec.ofNat 32 (i 2).val) 0#32)) 0#32) = 1#1
theorem hcond1_1 : ∀ t : Fin cfg1.N, cond1_1 (grid1.coords t) ↔ t.val % 4 = 0 :=
  (by decide +kernel : ∀ t : Fin grid1.N, cond1_1 (grid1.coords t) ↔ t.val % 4 = 0)

/-- "This key tile is not wholly in the query tile's future." -/
abbrev cond1_2 (i : grid1.Coords) : Prop :=
  (Scalar.cmpi .ne (Scalar.extui (Scalar.cmpi .sle (BitVec.ofNat 32 (i 2).val) (Scalar.addi (Scalar.muli (BitVec.ofNat 32 (i 1).val) 2#32) 1#32))) 0#32) = 1#1
theorem hcond1_2 : ∀ t : Fin cfg1.N, cond1_2 (grid1.coords t) ↔ t.val % 4 ≤ 2 * (t.val / 4 % 2) + 1 :=
  (by decide +kernel : ∀ t : Fin grid1.N, cond1_2 (grid1.coords t) ↔ t.val % 4 ≤ 2 * (t.val / 4 % 2) + 1)

/-- "This is the last key tile the query tile needs." -/
abbrev cond1_3 (i : grid1.Coords) : Prop := k1_cond3 i = 1#1
theorem hcond1_3 : ∀ t : Fin cfg1.N, cond1_3 (grid1.coords t) ↔ t.val % 4 = 2 * (t.val / 4 % 2) + 1 :=
  (by decide +kernel : ∀ t : Fin grid1.N, cond1_3 (grid1.coords t) ↔ t.val % 4 = 2 * (t.val / 4 % 2) + 1)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the body does not finalise, the output window is idle; -/
theorem idleAt1_3 : ∀ t : Fin cfg1.N, ¬cond1_3 (grid1.coords t) → cfg1.idle 3 (grid1.coords t) = true := by decide +kernel
/-- where it does, live. -/
theorem liveAt1_3 : ∀ t : Fin cfg1.N, cond1_3 (grid1.coords t) → cfg1.idle 3 (grid1.coords t) = false := by decide +kernel

/-! ## The staging and scratch memrefs, spelled as the pipeline passes them -/

abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- The three scratch operands: the running maximum, the running normaliser, the running weighted sum. -/
abbrev scM : Memref sig .tc .vmem S1024x1 .f32 := Memref.whole cc1_scratch0
abbrev scL : Memref sig .tc .vmem S1024x1 .f32 := Memref.whole cc1_scratch1
abbrev scA : Memref sig .tc .vmem S1024x128 .f32 := Memref.whole cc1_scratch2

/-! ## One key tile folded in: the new scratch contents as functions of the blocks and the old contents -/

/-- The grid words the body computes the causal mask from. -/
abbrev qiW (i : grid1.Coords) : BitVec 32 := BitVec.ofNat 32 (i 1).val
abbrev kiW (i : grid1.Coords) : BitVec 32 := BitVec.ofNat 32 (i 2).val

/-- The running maximum after the tile: the old one against the tile's row maxima. -/
def stepM (a1 a2 : BitVec 32) (q : Vec F S1x1024x128 .bf16) (k : Vec F S1x512x128 .bf16) (mo : Vec F S1024x1 .f32) : Vec F S1024x1 .f32 :=
  k1_pay6 (k1_pay10 a1 a2 q k mo)
/-- The running normaliser after the tile: the old one rescaled to the new maximum, plus the tile's row sums. -/
def stepL (a1 a2 : BitVec 32) (q : Vec F S1x1024x128 .bf16) (k : Vec F S1x512x128 .bf16) (mo lo : Vec F S1024x1 .f32) : Vec F S1024x1 .f32 :=
  k1_pay4 (k1_pay13 a1 a2 q k mo mo lo)
/-- The running weighted sum after the tile: the old one rescaled, plus the tile's weights times its values. -/
def stepA (a1 a2 : BitVec 32) (q : Vec F S1x1024x128 .bf16) (k v : Vec F S1x512x128 .bf16) (mo : Vec F S1024x1 .f32) (ao : Vec F S1024x128 .f32) : Vec F S1024x128 .f32 :=
  k1_pay5 (k1_pay8 v) (k1_pay11 a1 a2 q k mo mo) (k1_pay12 a1 a2 q k mo) ao
/-- The output block: the weighted sum over the normaliser. -/
def finO (a : Vec F S1024x128 .f32) (l : Vec F S1024x1 .f32) : Vec F S1x1024x128 .f32 := k1_pay7 a l
/-- What a reset leaves: the maximum at minus infinity, the normaliser and the weighted sum at zero. -/
def m0 : Vec F S1024x1 .f32 := k1_pay1
def l0 : Vec F S1024x1 .f32 := k1_pay2
def a0 : Vec F S1024x128 .f32 := k1_pay3

end Cert.KernelIdeal.Hand

end
-- ==== Proof.Region1Runs.lean ====
/-
  Region 1's body, run whole on any staging and scratch memrefs, in each of the four cases its three
  conditions leave at a grid point. The inputs' buffers come back as they were; a buffer the case does not
  store into comes back at the contents it was handed at; the scratch buffers come back at one more key
  tile folded in (after a reset, in the first case); in the finalising case the output block comes back at
  the weighted sum over the normaliser.
-/
import proofs.«423328_j88012469829751_3_alg».proof.Proof.Region1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

/-- The zero offsets of the whole-buffer rectangles, as constant functions. -/
private theorem hz2 : (![0, 0] : Fin 2 → Nat) = fun _ => 0 := funext fun a => by fin_cases a <;> rfl
private theorem hz3 : (![0, 0, 0] : Fin 3 → Nat) = fun _ => 0 := funext fun a => by fin_cases a <;> rfl

/-- A store through the whole-buffer rectangle, made last, covers the buffer whatever was stored before it. -/
private theorem cover1_s (p : Vec F S1024x1 .f32) (L : List (View.Piece (Elt F) S1024x1 .f32)) (y : S1024x1.Idx) :
    ∃ pc ∈ ((⟨Rect.unit (s := S1024x1) ![0, 0] S1024x1.size inb_S1024x1_S1024x1_0_0, p⟩ : View.Piece (Elt F) S1024x1 .f32) :: L), y ∈ pc.1.set :=
  ⟨_, List.mem_cons_self, View.mem_set_unit_zero hz2 inb_S1024x1_S1024x1_0_0 y⟩
private theorem cover1_a (p : Vec F S1024x128 .f32) (L : List (View.Piece (Elt F) S1024x128 .f32)) (y : S1024x128.Idx) :
    ∃ pc ∈ ((⟨Rect.unit (s := S1024x128) ![0, 0] S1024x128.size inb_S1024x128_S1024x128_0_0, p⟩ : View.Piece (Elt F) S1024x128 .f32) :: L), y ∈ pc.1.set :=
  ⟨_, List.mem_cons_self, View.mem_set_unit_zero hz2 inb_S1024x128_S1024x128_0_0 y⟩
private theorem cover1_o (p : Vec F S1x1024x128 .f32) (L : List (View.Piece (Elt F) S1x1024x128 .f32)) (y : S1x1024x128.Idx) :
    ∃ pc ∈ ((⟨Rect.unit (s := S1x1024x128) ![0, 0, 0] S1x1024x128.size inb_S1x1024x128_S1x1024x128_0_0_0, p⟩ : View.Piece (Elt F) S1x1024x128 .f32) :: L), y ∈ pc.1.set :=
  ⟨_, List.mem_cons_self, View.mem_set_unit_zero hz3 inb_S1x1024x128_S1x1024x128_0_0_0 y⟩

/-- FIRST key tile of a query tile: reset, then fold the tile in. The output block is not stored. -/
theorem run1_A (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : cond1_1 i) (hc2 : cond1_2 i) (hc3 : ¬cond1_3 i)
    (q : Vec F S1x1024x128 .bf16) (k v : Vec F S1x512x128 .bf16) (xo : Vec F S1x1024x128 .f32) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare xo
            ∗ owns (c : Thread nD τ) arg7 fullShare (stepM (qiW i) (kiW i) q k m0) ∗ owns (c : Thread nD τ) arg8 fullShare (stepL (qiW i) (kiW i) q k m0 l0)
            ∗ owns (c : Thread nD τ) arg9 fullShare (stepA (qiW i) (kiW i) q k v m0 a0)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3; subst hf4; subst hf5; subst hf6
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover1_s _ _), View.canon_cons_unit_zero hz2]
    sl_unfold_words
    unfold stepM m0
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  isplitl [H8]
  · iexists _; isplitr
    swap; · iexact H8
    ipureintro
    rw [View.read_writes_eq_canon _ _ _ (cover1_s _ _), View.canon_cons_unit_zero hz2]
    sl_unfold_words
    unfold stepL m0 l0
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  iexists _; isplitr
  swap; · iexact H9
  ipureintro
  rw [View.read_writes_eq_canon _ _ _ (cover1_a _ _), View.canon_cons_unit_zero hz2]
  sl_unfold_words
  unfold stepA m0 a0
  simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]

/-- A LATER key tile, not the last the query tile needs: fold it in. The output block is not stored. -/
theorem run1_B (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : cond1_2 i) (hc3 : ¬cond1_3 i)
    (q : Vec F S1x1024x128 .bf16) (k v : Vec F S1x512x128 .bf16) (xo : Vec F S1x1024x128 .f32)
    (mo lo : Vec F S1024x1 .f32) (ao : Vec F S1024x128 .f32) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xo
        ∗ owns (c : Thread nD τ) arg7 fullShare mo ∗ owns (c : Thread nD τ) arg8 fullShare lo ∗ owns (c : Thread nD τ) arg9 fullShare ao
        ∗ (iprop(owns (c : Thread nD τ) arg3 fullShare q ∗ owns (c : Thread nD τ) arg4 fullShare k ∗ owns (c : Thread nD τ) arg5 fullShare v ∗ owns (c : Thread nD τ) arg6 fullShare xo
            ∗ owns (c : Thread nD τ) arg7 fullShare (stepM (qiW i) (kiW i) q k mo) ∗ owns (c : Thread nD τ) arg8 fullShare (stepL (qiW i) (kiW i) q k mo lo)
            ∗ owns (c : Thread nD τ) arg9 fullShare (stepA (qiW i) (kiW i) q k v mo ao)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf3; subst hf4; subst hf5; subst hf6; subst hf7; subst hf8; subst hf9
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (cover1_s _ _), View.canon_unit_zero hz2]
    sl_unfold_words
    unfold stepM
    simp only [View.readAt_eq_ld, View.ld_unit_zero (S := S1x1024x128) hz3, View.ld_unit_zero (S := S1x512x128) hz3, View.ld_unit_zero (S := S1024x1) hz2, View.ld_unit_zero (S := S1024x128) hz2]
  isplitl [H8]
  · iexists _; isplitr
    swap; · iexact H8
    ipureintro
    rw [View.read_writes_eq_canon _ _ _ (cover1_s _ _), View.canon_unit_zero hz2]
    sl_unfold_words
    unfold stepL
    simp only [View.readAt_eq_ld, View.ld_unit_zero (S := S1x1024x128) hz3, View.ld_unit_zero (S := S1x512x128) hz3, View.ld_unit_zero (S := S1024x1) hz2, View.ld_unit_zero (S := S1024x128) hz2]
  iexists _; isplitr
  swap; · iexact H9
  ipureintro
  rw [View.read_writes_eq_canon _ _ _ (cover1_a _ _), View.canon_unit_zero hz2]
  sl_unfold_words
  unfold stepA
  simp only [View.readAt_eq_ld, View.ld_unit_zero (S := S1x1024x128) hz3, View.ld_unit_zero (S := S1x512x128) hz3, View.ld_unit_zero (S := S1024x1) hz2, View.ld_unit_zero (S := S1024x128) hz2]

/-- The LAST key tile the query tile needs: fold it in, then store the output block. -/
theorem run1_C (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : cond1_2 i) (hc3 : cond1_3 i)
    (q : Vec F S1x1024x128 .bf16) (k v : Vec F S1x512x128 .bf16)
    (mo lo : Vec F S1024x1 .f32) (ao : Vec F S1024x128 .f32) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare mo ∗ owns (c : Thread nD τ) arg8 fullShare lo ∗ owns (c : Thread nD τ) arg9 fullShare ao
        ∗ (iprop(owns (c : Thread nD τ) arg3 fullShare q ∗ owns (c : Thread nD τ) arg4 fullShare k ∗ owns (c : Thread nD τ) arg5 fullShare v
            ∗ owns (c : Thread nD τ) arg6 fullShare (finO (stepA (qiW i) (kiW i) q k v mo ao) (stepL (qiW i) (kiW i) q k mo lo))
            ∗ owns (c : Thread nD τ) arg7 fullShare (stepM (qiW i) (kiW i) q k mo) ∗ owns (c : Thread nD τ) arg8 fullShare (stepL (qiW i) (kiW i) q k mo lo)
            ∗ owns (c : Thread nD τ) arg9 fullShare (stepA (qiW i) (kiW i) q k v mo ao)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3; subst hf4; subst hf5; subst hf7; subst hf8; subst hf9
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    rw [View.read_writes_eq_canon _ _ _ (cover1_o _ _), View.canon_cons_unit_zero hz3]
    unfold finO stepA stepL
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  isplitl [H7]
  · iexists _; isplitr
    swap; · iexact H7
    ipureintro
    sl_unfold_words
    rw [View.read_writes_eq_canon _ _ _ (cover1_s _ _), View.canon_cons_unit_zero hz2]
    unfold stepM
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  isplitl [H8]
  · iexists _; isplitr
    swap; · iexact H8
    ipureintro
    sl_unfold_words
    rw [View.read_writes_eq_canon _ _ _ (cover1_s _ _), View.canon_cons_unit_zero hz2]
    unfold stepL
    simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]
  iexists _; isplitr
  swap; · iexact H9
  ipureintro
  sl_unfold_words
  rw [View.read_writes_eq_canon _ _ _ (cover1_a _ _), View.canon_cons_unit_zero hz2]
  unfold stepA
  simp only [View.readAt_eq_ld, View.ld_unit_zero (S := S1x1024x128) hz3, View.ld_unit_zero (S := S1x512x128) hz3, View.ld_unit_zero (S := S1024x1) hz2, View.ld_unit_zero (S := S1024x128) hz2, View.readCov_unit_zero (S := S1024x1) _ hz2, View.readCov_unit_zero (S := S1024x128) _ hz2]

/-- A key tile wholly in the query tile's future: the body does nothing. -/
theorem run1_D (c : Dev nD) (E : Set ℕ) (i : grid1.Coords)
    (arg3 : Memref sig .tc .vmem S1x1024x128 .bf16) (harg3 : arg3.IsWhole) (arg4 : Memref sig .tc .vmem S1x512x128 .bf16) (harg4 : arg4.IsWhole)
    (arg5 : Memref sig .tc .vmem S1x512x128 .bf16) (harg5 : arg5.IsWhole) (arg6 : Memref sig .tc .vmem S1x1024x128 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x128 .f32) (harg9 : arg9.IsWhole)
    (hc1 : ¬cond1_1 i) (hc2 : ¬cond1_2 i) (hc3 : ¬cond1_3 i)
    (q : Vec F S1x1024x128 .bf16) (k v : Vec F S1x512x128 .bf16) (xo : Vec F S1x1024x128 .f32)
    (mo lo : Vec F S1024x1 .f32) (ao : Vec F S1024x128 .f32) (K : PUnit → sProp 𝕄) :
    iprop(owns (c : Thread nD τ) arg3 fullShare q ∗ owns (c : Thread nD τ) arg4 fullShare k ∗ owns (c : Thread nD τ) arg5 fullShare v ∗ owns (c : Thread nD τ) arg6 fullShare xo
        ∗ owns (c : Thread nD τ) arg7 fullShare mo ∗ owns (c : Thread nD τ) arg8 fullShare lo ∗ owns (c : Thread nD τ) arg9 fullShare ao
        ∗ (iprop(owns (c : Thread nD τ) arg3 fullShare q ∗ owns (c : Thread nD τ) arg4 fullShare k ∗ owns (c : Thread nD τ) arg5 fullShare v ∗ owns (c : Thread nD τ) arg6 fullShare xo
            ∗ owns (c : Thread nD τ) arg7 fullShare mo ∗ owns (c : Thread nD τ) arg8 fullShare lo ∗ owns (c : Thread nD τ) arg9 fullShare ao) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf3; subst hf4; subst hf5; subst hf6; subst hf7; subst hf8; subst hf9
  sl_exec (disch := first | exact hc1 | exact hc2 | exact hc3)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists f9; isplitr; · ipureintro; rfl
  iexact H9

end Cert.KernelIdeal.Hand

end
-- ==== Proof.Region1.lean ====
/-
  Region 1's proof data: what the output block and the three scratch buffers hold after every grid point,
  the invariant that carries the scratch from one point to the next, and the body obligation.

  The state after a point is (output block, running maximum, running normaliser, running weighted sum).
  A point whose key tile is wholly in the future leaves all four as it found them; any other point folds
  its key tile into the three scratch buffers — starting from the reset values when the tile is the
  query tile's first — and replaces the output block by weighted sum / normaliser when the tile is the last
  one the query tile needs. The output block is stored at that point only, but written back after the query
  tile's last point: in between it holds what was stored.
-/
import proofs.«423328_j88012469829751_3_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000

variable (V : (c : Dev nD) → (b : Ref sig .tc) → Buf (Elt F) ((c : Thread nD τ).loc b))

/-- (output block, running maximum, running normaliser, running weighted sum). -/
abbrev St (F : FTy → Type) [FloatOps F] : Type :=
  Vec F S1x1024x128 .f32 × Vec F S1024x1 .f32 × Vec F S1024x1 .f32 × Vec F S1024x128 .f32

/-- Before the first point: the scratch at its reset values; the output block's component is a placeholder
    nothing consults (the first point of every query tile resets the scratch and does not read the block). -/
def st0 : St F := (finO a0 l0, m0, l0, a0)

/-- One point's effect on the state. `n` is the point's number (key tile `n % 4`, query tile `n / 4 % 2`),
    `a1`, `a2` the two grid words the body masks with, `q`, `k`, `v` the point's three input blocks. -/
def stepSt (n : ℕ) (a1 a2 : BitVec 32) (q : Vec F S1x1024x128 .bf16) (k v : Vec F S1x512x128 .bf16) (s : St F) : St F :=
  if n % 4 ≤ 2 * (n / 4 % 2) + 1 then
    let mo := if n % 4 = 0 then m0 else s.2.1
    let lo := if n % 4 = 0 then l0 else s.2.2.1
    let ao := if n % 4 = 0 then a0 else s.2.2.2
    (if n % 4 = 2 * (n / 4 % 2) + 1 then finO (stepA a1 a2 q k v mo ao) (stepL a1 a2 q k mo lo) else s.1,
      stepM a1 a2 q k mo, stepL a1 a2 q k mo lo, stepA a1 a2 q k v mo ao)
  else s

/-- The state after point `n`. -/
def outsAt1 (c : Dev nD) : (n : ℕ) → n < cfg1.N → St F
  | 0, hn => stepSt 0 (qiW (grid1.coords ⟨0, hn⟩)) (kiW (grid1.coords ⟨0, hn⟩)) (iblk1 V c 0 ⟨0, hn⟩) (iblk1 V c 1 ⟨0, hn⟩) (iblk1 V c 2 ⟨0, hn⟩) st0
  | n + 1, hn => stepSt (n + 1) (qiW (grid1.coords ⟨n + 1, hn⟩)) (kiW (grid1.coords ⟨n + 1, hn⟩)) (iblk1 V c 0 ⟨n + 1, hn⟩) (iblk1 V c 1 ⟨n + 1, hn⟩) (iblk1 V c 2 ⟨n + 1, hn⟩)
      (outsAt1 c n (Nat.lt_of_succ_lt hn))

/-- The state before point `n`. -/
def prevSt (c : Dev nD) (n : ℕ) (hn : n < cfg1.N) : St F :=
  if h : n = 0 then st0 else outsAt1 V c (n - 1) (by omega)

/-- The recurrence, at a point. -/
theorem outsAt1_eq (c : Dev nD) (t : Fin cfg1.N) :
    outsAt1 V c t.val t.isLt = stepSt t.val (qiW (grid1.coords t)) (kiW (grid1.coords t)) (iblk1 V c 0 t) (iblk1 V c 1 t) (iblk1 V c 2 t) (prevSt V c t.val t.isLt) := by
  obtain ⟨n, hn⟩ := t
  cases n with
  | zero => rfl
  | succ n => rfl

/-- The core's scoped buffers that belong to the projection's pipeline, at anything: they ride through this region untouched. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before point `n`: before the first point every scoped buffer at anything; afterwards
    the three scratch buffers at what the point before left in them. -/
def PhiS1 (c : Dev nD) : (n : ℕ) → n ≤ cfg1.N → sProp 𝕄
  | 0, _ => Pipeline.ΦA spec1 c
  | n + 1, hn => iprop(Rest1 (F := F) c ∗ owns (c : Thread nD τ) scM fullShare (outsAt1 V c n hn).2.1
      ∗ owns (c : Thread nD τ) scL fullShare (outsAt1 V c n hn).2.2.1 ∗ owns (c : Thread nD τ) scA fullShare (outsAt1 V c n hn).2.2.2
      ∗ (∃ r, prngReg c r))

/-- The proof data of the attention's pipeline on core `c`. The three input windows read ONE array (the fused
    projections), so its share is dealt among them: a half, a quarter, a quarter. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-! ## The output window between its store and its write-back -/

/-- The output window is never fetched. -/
theorem fetch1_3 : ∀ t : Fin cfg1.N, (cfg1.win 3).fetch t = false :=
  (by decide +kernel : ∀ t : Fin grid1.N, win1_3.fetch t = false)

/-- It is written back at the query tile's last point only. -/
theorem noFlush1_3 (t : Fin cfg1.N) (h : t.val % 4 ≠ 3) : (cfg1.win 3).flush t = false :=
  Bool.eq_false_iff.mpr fun hf => h ((flush1_3 t).mp hf)

/-- The output window is not cut: what the body leaves in its buffer is kept whole. -/
theorem kept1_3 (c : Dev nD) (t : Fin cfg1.N) (d) : (dat1 V c).kept 3 t d = (dat1 V c).after 3 t := by
  unfold Dat.kept
  rw [Pipeline.fill_of_clip_none 3 _ (fun _ => rfl) d ((dat1 V c).after 3 t), Window.fill_cut]

/-- After a point that neither stores the output block nor is followed by its write-back, the buffer holds
    what it held before that point. -/
theorem before1_3_idle (c : Dev nD) (t : Fin cfg1.N) (ht : t.val ≠ 0) (hp : t.val - 1 < cfg1.N)
    (hfl : (t.val - 1) % 4 ≠ 3) (hc : ¬(t.val - 1) % 4 = 2 * ((t.val - 1) / 4 % 2) + 1) (d) :
    (dat1 V c).before 3 t d = (dat1 V c).before 3 ⟨t.val - 1, hp⟩ d := by
  rw [(dat1 V c).before_of_pos 3 t ht (fetch1_3 t) d, noFlush1_3 ⟨t.val - 1, hp⟩ hfl, if_neg Bool.false_ne_true]
  unfold Dat.left
  rw [idleAt1_3 ⟨t.val - 1, hp⟩ (fun h => hc ((hcond1_3 ⟨t.val - 1, hp⟩).mp h))]

/-- After a point that stores the output block and is not followed by its write-back, the buffer holds the
    block stored. -/
theorem before1_3_live (c : Dev nD) (t : Fin cfg1.N) (ht : t.val ≠ 0) (hp : t.val - 1 < cfg1.N)
    (hfl : (t.val - 1) % 4 ≠ 3) (hc : (t.val - 1) % 4 = 2 * ((t.val - 1) / 4 % 2) + 1) (d) :
    (dat1 V c).before 3 t d = (dat1 V c).after 3 ⟨t.val - 1, hp⟩ := by
  rw [(dat1 V c).before_of_pos 3 t ht (fetch1_3 t) d, noFlush1_3 ⟨t.val - 1, hp⟩ hfl, if_neg Bool.false_ne_true]
  unfold Dat.left
  rw [liveAt1_3 ⟨t.val - 1, hp⟩ ((hcond1_3 ⟨t.val - 1, hp⟩).mpr hc)]
  exact kept1_3 V c _ d

/-- Before a point that is not the first, the state is what the point before left. -/
theorem prevSt_pos (c : Dev nD) (n : ℕ) (hn : n < cfg1.N) (h : n ≠ 0) (hp : n - 1 < cfg1.N) :
    prevSt V c n hn = outsAt1 V c (n - 1) hp := by
  unfold prevSt; rw [dif_neg h]

/-- A point whose key tile is wholly in the query tile's future leaves the state as it found it. -/
theorem outsAt1_D (c : Dev nD) (t : Fin cfg1.N) (h : ¬t.val % 4 ≤ 2 * (t.val / 4 % 2) + 1) :
    outsAt1 V c t.val t.isLt = prevSt V c t.val t.isLt := by
  rw [outsAt1_eq]; unfold stepSt; rw [if_neg h]

/-- THE WRITE-BACK OF A BLOCK STORED EARLIER. At the last point of a query tile whose last needed key tile
    came two points before (query tile 0: key tile 1 stores, key tiles 2 and 3 do nothing), the output's
    buffer still holds the block stored, which is what the state names there: neither point in between
    stores into the buffer, writes it back, or changes the state. -/
theorem before1_3_flushD (c : Dev nD) (t : Fin cfg1.N) (h8 : t.val % 8 = 3) (d) :
    (dat1 V c).before 3 t d = (dat1 V c).after 3 t := by
  have hN : t.val < 64 := lt_of_lt_of_eq t.isLt (show cfg1.N = 64 from N_1)
  have hN' : cfg1.N = 64 := N_1
  have hp1 : t.val - 1 < cfg1.N := by omega
  have hp2 : t.val - 1 - 1 < cfg1.N := by omega
  rw [before1_3_idle V c t (by omega) hp1 (by omega) (by omega) d]
  rw [before1_3_live V c ⟨t.val - 1, hp1⟩ (by show t.val - 1 ≠ 0; omega) hp2 (by show (t.val - 1 - 1) % 4 ≠ 3; omega)
    (by show (t.val - 1 - 1) % 4 = 2 * ((t.val - 1 - 1) / 4 % 2) + 1; omega) d]
  rw [after1_3, after1_3]
  rw [outsAt1_D V c t (by omega), prevSt_pos V c t.val t.isLt (by omega) hp1]
  rw [outsAt1_D V c ⟨t.val - 1, hp1⟩ (by show ¬(t.val - 1) % 4 ≤ 2 * ((t.val - 1) / 4 % 2) + 1; omega),
    prevSt_pos V c (t.val - 1) hp1 (by omega) hp2]

/-! ## What the input windows' buffers hold, and what the body owes of them -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- An input window is live at every point: the body hands its buffer back at its block. -/
theorem leaves1_0 (c : Dev nD) (t : Fin cfg1.N) :
    (dat1 V c).leavesExact 0 t = owns (c : Thread nD τ) (ms1_0 t) fullShare (iblk1 V c 0 t) := by
  rw [← after1_0 V c t]
theorem leaves1_1 (c : Dev nD) (t : Fin cfg1.N) :
    (dat1 V c).leavesExact 1 t = owns (c : Thread nD τ) (ms1_1 t) fullShare (iblk1 V c 1 t) := by
  rw [← after1_1 V c t]
theorem leaves1_2 (c : Dev nD) (t : Fin cfg1.N) :
    (dat1 V c).leavesExact 2 t = owns (c : Thread nD τ) (ms1_2 t) fullShare (iblk1 V c 2 t) := by
  rw [← after1_2 V c t]

/-! ## The invariant, opened -/

/-- What the launch hands the region, buffer by buffer: the projection's five staging buffers, the three
    scratch buffers and the generator register, each at anything. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)
          ∗ (∃ d, owns (c : Thread nD τ) scM fullShare d) ∗ (∃ d, owns (c : Thread nD τ) scL fullShare d) ∗ (∃ d, owns (c : Thread nD τ) scA fullShare d))
        ∗ (∃ r, prngReg c r)) := by
  unfold Pipeline.ΦA; rw [scopedRest1_eq]; simp only [scM, scL, scA, owns_whole]; try rfl

theorem PhiS1_zero (c : Dev nD) (n : ℕ) (h : n ≤ cfg1.N) (hz : n = 0) : PhiS1 V c n h = Pipeline.ΦA spec1 c := by
  subst hz; rfl

/-- After point `n`: the scratch at that point's contents. -/
theorem PhiS1_succ (c : Dev nD) (n : ℕ) (hn : n < cfg1.N) :
    PhiS1 V c (n + 1) hn = iprop(Rest1 (F := F) c ∗ owns (c : Thread nD τ) scM fullShare (outsAt1 V c n hn).2.1
      ∗ owns (c : Thread nD τ) scL fullShare (outsAt1 V c n hn).2.2.1 ∗ owns (c : Thread nD τ) scA fullShare (outsAt1 V c n hn).2.2.2
      ∗ (∃ r, prngReg c r)) := rfl

/-- Before a point that is not the first: the scratch at what the point before left. -/
theorem PhiS1_pos (c : Dev nD) (n : ℕ) (h : n ≤ cfg1.N) (hz : n ≠ 0) (hp : n - 1 < cfg1.N) :
    PhiS1 V c n h = iprop(Rest1 (F := F) c ∗ owns (c : Thread nD τ) scM fullShare (outsAt1 V c (n - 1) hp).2.1
      ∗ owns (c : Thread nD τ) scL fullShare (outsAt1 V c (n - 1) hp).2.2.1 ∗ owns (c : Thread nD τ) scA fullShare (outsAt1 V c (n - 1) hp).2.2.2
      ∗ (∃ r, prngReg c r)) := by
  cases n with
  | zero => exact absurd rfl hz
  | succ n => rfl

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- Before any point the invariant holds every scoped buffer at something: the names of the scratch
    contents forgotten. -/
theorem PhiS1_any (c : Dev nD) (n : ℕ) (h : n ≤ cfg1.N) :
    PhiS1 V c n h ⊢ iprop(Rest1 (F := F) c ∗ (∃ d, owns (c : Thread nD τ) scM fullShare d) ∗ (∃ d, owns (c : Thread nD τ) scL fullShare d)
      ∗ (∃ d, owns (c : Thread nD τ) scA fullShare d) ∗ (∃ r, prngReg c r)) := by
  cases n with
  | zero =>
    rw [PhiS1_zero V c 0 h rfl, PhiA1_eq]; unfold Rest1
    iintro ⟨⟨H1, H2, H3, H4, H5, HM, HL, HA⟩, Hg⟩
    isplitl [H1 H2 H3 H4 H5]
    · isplitl [H1]; · iexact H1
      isplitl [H2]; · iexact H2
      isplitl [H3]; · iexact H3
      isplitl [H4]; · iexact H4
      iexact H5
    isplitl [HM]; · iexact HM
    isplitl [HL]; · iexact HL
    isplitl [HA]; · iexact HA
    iexact Hg
  | succ n =>
    rw [PhiS1_succ]
    iintro ⟨HR, HM, HL, HA, Hg⟩
    isplitl [HR]; · iexact HR
    isplitl [HM]; · iexists _; iexact HM
    isplitl [HL]; · iexists _; iexact HL
    isplitl [HA]; · iexists _; iexact HA
    iexact Hg

/-- Every scoped buffer at something is what the launch hands the region. -/
theorem PhiA1_of_any (c : Dev nD) :
    iprop(Rest1 (F := F) c ∗ (∃ d, owns (c : Thread nD τ) scM fullShare d) ∗ (∃ d, owns (c : Thread nD τ) scL fullShare d)
      ∗ (∃ d, owns (c : Thread nD τ) scA fullShare d) ∗ (∃ r, prngReg c r)) ⊢ (Pipeline.ΦA spec1 c : sProp 𝕄) := by
  rw [PhiA1_eq]; unfold Rest1
  iintro ⟨⟨H1, H2, H3, H4, H5⟩, HM, HL, HA, Hg⟩
  isplitr [Hg]
  · isplitl [H1]; · iexact H1
    isplitl [H2]; · iexact H2
    isplitl [H3]; · iexact H3
    isplitl [H4]; · iexact H4
    isplitl [H5]; · iexact H5
    isplitl [HM]; · iexact HM
    isplitl [HL]; · iexact HL
    iexact HA
  iexact Hg

/-! ## The state after a point, case by case -/

/-- The query tile's first key tile: the scratch reset and the tile folded in; the output block as found. -/
theorem outsAt1_A (c : Dev nD) (t : Fin cfg1.N) (h1 : t.val % 4 = 0) :
    outsAt1 V c t.val t.isLt = ((prevSt V c t.val t.isLt).1,
      stepM (qiW (grid1.coords t)) (kiW (grid1.coords t)) (iblk1 V c 0 t) (iblk1 V c 1 t) m0,
      stepL (qiW (grid1.coords t)) (kiW (grid1.coords t)) (iblk1 V c 0 t) (iblk1 V c 1 t) m0 l0,
      stepA (qiW (grid1.coords t)) (kiW (grid1.coords t)) (iblk1 V c 0 t) (iblk1 V c 1 t) (iblk1 V c 2 t) m0 a0) := by
  rw [outsAt1_eq V c t]; unfold stepSt
  simp only [if_pos h1, if_pos (show t.val % 4 ≤ 2 * (t.val / 4 % 2) + 1 by omega),
    if_neg (show ¬t.val % 4 = 2 * (t.val / 4 % 2) + 1 by omega)]

/-- A later key tile, not the last the query tile needs: the tile folded in; the output block as found. -/
theorem outsAt1_B (c : Dev nD) (t : Fin cfg1.N) (h1 : ¬t.val % 4 = 0) (h2 : t.val % 4 ≤ 2 * (t.val / 4 % 2) + 1)
    (h3 : ¬t.val % 4 = 2 * (t.val / 4 % 2) + 1) :
    outsAt1 V c t.val t.isLt = ((prevSt V c t.val t.isLt).1,
      stepM (qiW (grid1.coords t)) (kiW (grid1.coords t)) (iblk1 V c 0 t) (iblk1 V c 1 t) (prevSt V c t.val t.isLt).2.1,
      stepL (qiW (grid1.coords t)) (kiW (grid1.coords t)) (iblk1 V c 0 t) (iblk1 V c 1 t) (prevSt V c t.val t.isLt).2.1 (prevSt V c t.val t.isLt).2.2.1,
      stepA (qiW (grid1.coords t)) (kiW (grid1.coords t)) (iblk1 V c 0 t) (iblk1 V c 1 t) (iblk1 V c 2 t) (prevSt V c t.val t.isLt).2.1 (prevSt V c t.val t.isLt).2.2.2) := by
  rw [outsAt1_eq V c t]; unfold stepSt
  simp only [if_neg h1, if_pos h2, if_neg h3]

/-- The last key tile the query tile needs: the tile folded in, and the output block the weighted sum over
    the normaliser. -/
theorem outsAt1_C (c : Dev nD) (t : Fin cfg1.N) (h1 : ¬t.val % 4 = 0) (h3 : t.val % 4 = 2 * (t.val / 4 % 2) + 1) :
    outsAt1 V c t.val t.isLt = (
      finO (stepA (qiW (grid1.coords t)) (kiW (grid1.coords t)) (iblk1 V c 0 t) (iblk1 V c 1 t) (iblk1 V c 2 t) (prevSt V c t.val t.isLt).2.1 (prevSt V c t.val t.isLt).2.2.2)
        (stepL (qiW (grid1.coords t)) (kiW (grid1.coords t)) (iblk1 V c 0 t) (iblk1 V c 1 t) (prevSt V c t.val t.isLt).2.1 (prevSt V c t.val t.isLt).2.2.1),
      stepM (qiW (grid1.coords t)) (kiW (grid1.coords t)) (iblk1 V c 0 t) (iblk1 V c 1 t) (prevSt V c t.val t.isLt).2.1,
      stepL (qiW (grid1.coords t)) (kiW (grid1.coords t)) (iblk1 V c 0 t) (iblk1 V c 1 t) (prevSt V c t.val t.isLt).2.1 (prevSt V c t.val t.isLt).2.2.1,
      stepA (qiW (grid1.coords t)) (kiW (grid1.coords t)) (iblk1 V c 0 t) (iblk1 V c 1 t) (iblk1 V c 2 t) (prevSt V c t.val t.isLt).2.1 (prevSt V c t.val t.isLt).2.2.2) := by
  rw [outsAt1_eq V c t]; unfold stepSt
  simp only [if_neg h1, if_pos (show t.val % 4 ≤ 2 * (t.val / 4 % 2) + 1 by omega), if_pos h3]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- The body at any point. The inputs' buffers hold their blocks; the point's number says which of the four
    cases it is in. The invariant hands the body the scratch at what the point before left (at anything before
    a query tile's first key tile, which resets it) and takes it back at this point's contents. The output's
    buffer is stored at the last key tile the query tile needs and handed back as found elsewhere — except at
    the query tile's last point when that is a later, idle one: there the block is written back, and what the
    buffer was found holding is the block stored two points before, which is what the state still names. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [leaves1_0, leaves1_1, leaves1_2]
  have hN : t.val < 64 := lt_of_lt_of_eq t.isLt (show cfg1.N = 64 from N_1)
  have hN' : cfg1.N = 64 := N_1
  by_cases hA : t.val % 4 = 0
  · -- the query tile's first key tile
    have hc1 : cond1_1 (grid1.coords t) := (hcond1_1 t).mpr hA
    have hc2 : cond1_2 (grid1.coords t) := (hcond1_2 t).mpr (by omega)
    have hc3 : ¬cond1_3 (grid1.coords t) := fun h => absurd ((hcond1_3 t).mp h) (by omega)
    rw [Dat.leavesExact_idle (dat1 V c) 3 t (idleAt1_3 t hc3) (noFlush1_3 t (by omega))]
    rw [outsAt1_A V c t hA]; dsimp only
    iintro ⟨HΦ, Ho, ⟨%d0, H0⟩, ⟨%d1, H1⟩, ⟨%d2, H2⟩, ⟨%d3, H3⟩⟩
    ihave HΦ' := (PhiS1_any V c t.val (Nat.le_of_lt t.isLt)) $$ HΦ
    icases HΦ' with ⟨HR, HM, HL, HA, Hg⟩
    iapply (run1_A c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t) ((dat1 V c).before 3 t d3) _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, HM, HL, HA⟩
    isplitl [HR HM HL HA Hg]
    · isplitl [HR]; · iexact HR
      isplitl [HM]; · iexact HM
      isplitl [HL]; · iexact HL
      isplitl [HA]; · iexact HA
      iexact Hg
    isplitl [Ho]; · iexact Ho
    isplitl [H0]; · iexact H0
    isplitl [H1]; · iexact H1
    isplitl [H2]; · iexact H2
    iexists d3; iexact H3
  · have hz : t.val ≠ 0 := fun h => hA (by rw [h])
    have hp : t.val - 1 < cfg1.N := by omega
    have hc1 : ¬cond1_1 (grid1.coords t) := fun h => hA ((hcond1_1 t).mp h)
    rw [PhiS1_pos V c t.val (Nat.le_of_lt t.isLt) hz hp]
    by_cases hD : t.val % 4 ≤ 2 * (t.val / 4 % 2) + 1
    · have hc2 : cond1_2 (grid1.coords t) := (hcond1_2 t).mpr hD
      by_cases hC : t.val % 4 = 2 * (t.val / 4 % 2) + 1
      · -- the last key tile the query tile needs
        have hc3 : cond1_3 (grid1.coords t) := (hcond1_3 t).mpr hC
        rw [show (dat1 V c).leavesExact 3 t = owns (c : Thread nD τ) (ms1_3 t) fullShare ((dat1 V c).after 3 t) from by
          unfold Dat.leavesExact; rw [liveAt1_3 t hc3], after1_3]
        rw [outsAt1_C V c t hA hC, prevSt_pos V c t.val t.isLt hz hp]; dsimp only
        iintro ⟨⟨HR, HM, HL, HA, Hg⟩, Ho, ⟨%d0, H0⟩, ⟨%d1, H1⟩, ⟨%d2, H2⟩, ⟨%d3, H3⟩⟩
        iapply (run1_C c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t)
          (outsAt1 V c (t.val - 1) hp).2.1 (outsAt1 V c (t.val - 1) hp).2.2.1 (outsAt1 V c (t.val - 1) hp).2.2.2 _)
        isplitl [H0]; · iexact H0
        isplitl [H1]; · iexact H1
        isplitl [H2]; · iexact H2
        isplitl [H3]; · iexists _; iexact H3
        isplitl [HM]; · iexact HM
        isplitl [HL]; · iexact HL
        isplitl [HA]; · iexact HA
        iintro ⟨H0, H1, H2, H3, HM, HL, HA⟩
        isplitl [HR HM HL HA Hg]
        · isplitl [HR]; · iexact HR
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexact H3
      · -- a later key tile, not the last needed
        have hc3 : ¬cond1_3 (grid1.coords t) := fun h => hC ((hcond1_3 t).mp h)
        rw [Dat.leavesExact_idle (dat1 V c) 3 t (idleAt1_3 t hc3) (noFlush1_3 t (by omega))]
        rw [outsAt1_B V c t hA hD hC, prevSt_pos V c t.val t.isLt hz hp]; dsimp only
        iintro ⟨⟨HR, HM, HL, HA, Hg⟩, Ho, ⟨%d0, H0⟩, ⟨%d1, H1⟩, ⟨%d2, H2⟩, ⟨%d3, H3⟩⟩
        iapply (run1_B c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t) ((dat1 V c).before 3 t d3)
          (outsAt1 V c (t.val - 1) hp).2.1 (outsAt1 V c (t.val - 1) hp).2.2.1 (outsAt1 V c (t.val - 1) hp).2.2.2 _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HR HM HL HA Hg]
        · isplitl [HR]; · iexact HR
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexists d3; iexact H3
    · -- a key tile wholly in the query tile's future: nothing is done
      have hc2 : ¬cond1_2 (grid1.coords t) := fun h => hD ((hcond1_2 t).mp h)
      have hc3 : ¬cond1_3 (grid1.coords t) := fun h => absurd ((hcond1_3 t).mp h) (by omega)
      rw [outsAt1_D V c t hD, prevSt_pos V c t.val t.isLt hz hp]
      by_cases hF : t.val % 4 = 3
      · -- the query tile's last point: the block stored two points before is written back
        rw [show (dat1 V c).leavesExact 3 t = owns (c : Thread nD τ) (ms1_3 t) fullShare ((dat1 V c).after 3 t) from by
          unfold Dat.leavesExact; rw [idleAt1_3 t hc3, (flush1_3 t).mpr hF]]
        simp only [before1_3_flushD V c t (show t.val % 8 = 3 by omega)]
        iintro ⟨⟨HR, HM, HL, HA, Hg⟩, Ho, ⟨%d0, H0⟩, ⟨%d1, H1⟩, ⟨%d2, H2⟩, ⟨%d3, H3⟩⟩
        iapply (run1_D c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t) ((dat1 V c).after 3 t)
          (outsAt1 V c (t.val - 1) hp).2.1 (outsAt1 V c (t.val - 1) hp).2.2.1 (outsAt1 V c (t.val - 1) hp).2.2.2 _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HR HM HL HA Hg]
        · isplitl [HR]; · iexact HR
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexact H3
      · rw [Dat.leavesExact_idle (dat1 V c) 3 t (idleAt1_3 t hc3) (noFlush1_3 t hF)]
        iintro ⟨⟨HR, HM, HL, HA, Hg⟩, Ho, ⟨%d0, H0⟩, ⟨%d1, H1⟩, ⟨%d2, H2⟩, ⟨%d3, H3⟩⟩
        iapply (run1_D c Set.univ (grid1.coords t) (ms1_0 t) (hs1_0 t) (ms1_1 t) (hs1_1 t) (ms1_2 t) (hs1_2 t) (ms1_3 t) (hs1_3 t)
      scM (Memref.isWhole_whole _) scL (Memref.isWhole_whole _) scA (Memref.isWhole_whole _) hc1 hc2 hc3
      (iblk1 V c 0 t) (iblk1 V c 1 t) (iblk1 V c 2 t) ((dat1 V c).before 3 t d3)
          (outsAt1 V c (t.val - 1) hp).2.1 (outsAt1 V c (t.val - 1) hp).2.2.1 (outsAt1 V c (t.val - 1) hp).2.2.2 _)
        isplitl [H0]; · iexact H0
        isplitl [H1]; · iexact H1
        isplitl [H2]; · iexact H2
        isplitl [H3]; · iexact H3
        isplitl [HM]; · iexact HM
        isplitl [HL]; · iexact HL
        isplitl [HA]; · iexact HA
        iintro ⟨H0, H1, H2, H3, HM, HL, HA⟩
        isplitl [HR HM HL HA Hg]
        · isplitl [HR]; · iexact HR
          isplitl [HM]; · iexact HM
          isplitl [HL]; · iexact HL
          isplitl [HA]; · iexact HA
          iexact Hg
        isplitl [Ho]; · iexact Ho
        isplitl [H0]; · iexact H0
        isplitl [H1]; · iexact H1
        isplitl [H2]; · iexact H2
        iexists d3; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything. -/
theorem hout1 (c : Dev nD) : (dat1 V c).Φ (Fin.last cfg1.N) ⊢ Pipeline.ΦA spec1 c :=
  (PhiS1_any V c (Fin.last cfg1.N).val (Nat.le_of_lt_succ (Fin.last cfg1.N).isLt)).trans (PhiA1_of_any c)

end Cert.KernelIdeal.Hand

end
-- ==== Proof.Vals.lean ====
/-
  The buffer contents at @main's segment boundaries, from the launch memory `m`.

  @main is: two host operations (the activations reshaped to [16384, 2048]; the three weight matrices
  concatenated to [2048, 384]), the projection region, one host operation (its [16384, 384] result reshaped to
  [8, 2048, 384]), the attention region. `ent0` is what the projection region is entered from, `qkvOut` what it
  leaves in its result array, `ent1` what the attention region is entered from, `attnOut` what it leaves in
  the program's result.
-/
import proofs.«423328_j88012469829751_3_alg».proof.Proof.Region0
import proofs.«423328_j88012469829751_3_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Core `c`'s unscoped buffers after the first host stretch. -/
abbrev val1 (c : Dev nD) : Valuation τ sig (Elt F) := StableHlo.after hostOps0 (fun b => m (c, b))
/-- The same read at a TensorCore reference: what the projection region is entered from. -/
abbrev ent0 (c : Dev nD) (b : Ref sig .tc) : Buf (Elt F) ((c : Thread nD τ).loc b) := val1 m c b

/-- What the projection region leaves in its result array: its write-backs folded over the entry contents. -/
def qkvOut (c : Dev nD) : Buf (Elt F) ((c : Thread nD τ).loc main_v2) := (dat0 (ent0 m) c).arrAt 2 cfg0.N

/-- After the projection region: the result array at `qkvOut`, every other buffer as entered. -/
abbrev val2 (c : Dev nD) : Valuation τ sig (Elt F) := Function.update (val1 m c) main_v2 (qkvOut m c)
/-- After the second host stretch. -/
abbrev val3 (c : Dev nD) : Valuation τ sig (Elt F) := StableHlo.after hostOps1 (val2 m c)
/-- What the attention region is entered from. -/
abbrev ent1 (c : Dev nD) (b : Ref sig .tc) : Buf (Elt F) ((c : Thread nD τ).loc b) := val3 m c b

/-- What the attention region leaves in the program's result. -/
def attnOut (c : Dev nD) : Buf (Elt F) ((c : Thread nD τ).loc main_v4) := (dat1 (ent1 m) c).arrAt 3 cfg1.N

/-- After the attention region. -/
abbrev val4 (c : Dev nD) : Valuation τ sig (Elt F) := Function.update (val3 m c) main_v4 (attnOut m c)

end Cert.KernelIdeal.Hand

end
-- ==== Proof.SegDefs.lean ====
/-
  What the two regions' segment records and the launch are stated over: every pipeline's proof data at its
  region's entry contents, the thread state that rides beside the buffers, and the contents the regions
  leave, read off the last valuation, with the generated boundary valuations identified with this
  certificate's.
-/
import proofs.«423328_j88012469829751_3_alg».proof.Proof.Vals
import proofs.«423328_j88012469829751_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (ent0 m) c
  | ⟨1, _⟩ => fun c => dat1 (ent1 m) c

abbrev 𝒱₀ : Variants := Variants.none
/-- No core owes another anything: no level is assigned. -/
abbrev Lv0 : GSem nD τ sig → Finset Unit := fun _ => ∅
abbrev lv0 : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)

/-- The contents the regions leave, as the conditional frame's unknowns. -/
abbrev outsOf : Gen.Outs (F := F) := fun _ r c => val4 m c r

theorem outs_v2 (c : Dev nD) : outsOf m 2 main_v2 c = qkvOut m c := by
  show val4 m c main_v2 = _
  rw [show val4 m c main_v2 = val3 m c main_v2 from Function.update_of_ne (StableHlo.devRef_ne_of_ne (by decide) : (Proc.devRef .tc main_v2 : DevRef τ sig) ≠ Proc.devRef .tc main_v4) _ _]
  rw [show val3 m c main_v2 = val2 m c main_v2 from StableHlo.after_of_writes_sub hostOps1 _ Gen.hostOps1_writes (by decide)]
  exact Function.update_self _ _ _

theorem outs_v4 (c : Dev nD) : outsOf m 4 main_v4 c = attnOut m c := Function.update_self _ _ _

theorem V2_eq (c : Dev nD) : Gen.V2 m (outsOf m) c = val2 m c := by
  show Function.update (Gen.V1 m c) main_v2 (outsOf m 2 main_v2 c) = _
  rw [outs_v2]
theorem V3_eq (c : Dev nD) : Gen.V3 m (outsOf m) c = val3 m c := by
  show StableHlo.after hostOps1 (Gen.V2 m (outsOf m) c) = _
  rw [V2_eq]
theorem V4_eq (c : Dev nD) : Gen.V4 m (outsOf m) c = val4 m c := by
  show Function.update (Gen.V3 m (outsOf m) c) main_v4 (outsOf m 4 main_v4 c) = _
  rw [V3_eq, outs_v4]

end Cert.KernelIdeal.Hand

end
-- ==== Proof.Seg0.lean ====
/-
  Region 0, the fused projection, as a segment of the program.

  The region is entered with every unscoped buffer of the core held at the contents the first host stretch
  leaves (`val1`), beside the generator register at some state and nothing owed. Its three windows sit on three
  distinct whole arrays: the flattened activations and the concatenated weights, which it only reads, and the
  product array, which its write-backs fill. At the entry the three arrays are split out of the unscoped
  buffers at the proof data's entry contents, the other buffers bypass the region; the generator register
  passes through the pipeline's invariant and comes back. At the exit the arrays are put back: the two inputs
  hold what they held, the product array holds the write-backs folded over its entry contents (`qkvOut`),
  and that is the valuation `val2`, which differs from `val1` at the product array only.
-/
import proofs.«423328_j88012469829751_3_alg».proof.Proof.SegDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The contents the region leaves -/

/-- The valuation after the region, read at a TensorCore reference. -/
abbrev ext0 (c : Dev nD) (b : Ref sig .tc) : Buf (Elt F) ((c : Thread nD τ).loc b) := val2 m c b

/-- A reference other than the product array holds after the region what it held before. -/
theorem ext0_of_ne (c : Dev nD) (b : Ref sig .tc) (hb : b ≠ main_v2) : ext0 m c b = ent0 m c b :=
  Function.update_of_ne (StableHlo.devRef_ne_of_ne hb : (Proc.devRef .tc b : DevRef τ sig) ≠ Proc.devRef .tc main_v2) _ _

/-- The product array holds the write-backs folded over its entry contents. -/
theorem ext0_v2 (c : Dev nD) : ext0 m c main_v2 = qkvOut m c := Function.update_self _ _ _

/-- At the exit each window's array holds what the valuation after the region says: an input array is never
    written, so it holds its entry contents, which the valuation keeps off the product array; the product
    array's final contents are the valuation's by definition. -/
theorem hF0 (c : Dev nD) : ∀ w : Fin cfg0.W, (dat0 (ent0 m) c).arrAt w cfg0.N = ext0 m c (Pipeline.arrRef spec0 w)
  | ⟨0, _⟩ => (((dat0 (ent0 m) c).arrAt_in 0 rfl _).trans (A_eq0 (ent0 m) c 0)).trans (ext0_of_ne m c _ (by decide)).symm
  | ⟨1, _⟩ => (((dat0 (ent0 m) c).arrAt_in 1 rfl _).trans (A_eq0 (ent0 m) c 1)).trans (ext0_of_ne m c _ (by decide)).symm
  | ⟨2, _⟩ => (ext0_v2 m c).symm

/-- Off the three windows' arrays the valuation after the region is the one before it. -/
theorem hrest0 (c : Dev nD) : ∀ b, b ∉ Finset.univ.image (Pipeline.arrRef spec0) → ext0 m c b = ent0 m c b :=
  fun b hb => ext0_of_ne m c b fun e => hb (Finset.mem_image.mpr ⟨2, Finset.mem_univ _, e.symm⟩)

/-! ## The region as a segment -/

-- a library lemma stated over the pinned configuration of pipeline 0 meets the printed configuration only when
-- unification may unfold plain definitions in a metavariable's type
set_option backward.isDefEq.respectTransparency.types false in
/-- Region 0 over the thread state: entered from every unscoped buffer at `val1`, left at `val2`; beside them the
    generator register at some state and nothing owed. The kernel has no semaphore of its own. -/
def reg0 : Pipeline.RegionSeg (pcfgs (F := F)) Gen.adm (pdats m) () defs₀ 𝒱₀ Lv0 lv0 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ Lv0 lv0 0 fun _ _ => rfl
  pre c := iprop(StableHlo.held (c : Thread nD τ) (Pipeline.ucRefs τ sig) (val1 m c) ∗ Rst c)
  post c := iprop(StableHlo.held (c : Thread nD τ) (Pipeline.ucRefs τ sig) (val2 m c) ∗ Rst c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    -- the three arrays out of the unscoped buffers at the entry contents; the register to the invariant; the
    -- other unscoped buffers around the region; the tallies at the first point are the zero tallies
    rw [Pipeline.ownSems0_none]
    have hsplit := Pipeline.arrays_of_unscopedBufs (p := 0) (pcfgs (F := F)) Gen.adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the invariant at the first point is the class invariant: the scoped buffers no window stages and the register
    rw [show (pdats m 0 c).Φ 0 = Pipeline.ΦA spec0 c from rfl]; unfold Pipeline.ΦA
    iintro ⟨Hp, -, Hr⟩
    isplitl [Hr]; · iexact Hr
    iexact Hp
  hout c := by
    -- and it is the same at the last point
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    -- the arrays at their final contents and the bypassed buffers are the unscoped buffers at the valuation after
    -- the region; the tallies at the last point are the zero tallies
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from the thread state the first host stretch leaves. -/
theorem reg0_pre (c : Dev nD) :
    iprop(StableHlo.held (c : Thread nD τ) (Pipeline.ucRefs τ sig) (val1 m c) ∗ Rst c) ⊢ (reg0 m).pre c := .rfl

/-- The region leaves the thread state the second host stretch is entered from. -/
theorem reg0_post (c : Dev nD) :
    (reg0 m).post c ⊢ iprop(StableHlo.held (c : Thread nD τ) (Pipeline.ucRefs τ sig) (val2 m c) ∗ Rst c) := .rfl

end Cert.KernelIdeal.Hand

end
-- ==== Proof.Seg1.lean ====
/-
  Region 1 of the program, the attention, as a segment of @main.

  Its three input windows read ONE array, the fused projections reshaped to [8, 2048, 384], at different blocks;
  the fourth window writes the program's result. So the region's arrays are not the buffers behind them one to
  one: at the entry the fused projections' buffer, held whole at the full share, is dealt among the three input
  windows — a half, and the other half halved again — and at the exit the three shares, each still at the
  contents the region was entered from (an input window's array is never written), are joined back to the
  whole buffer. The result's buffer is the output window's alone and comes back at what the write-backs left in
  it. Every other unscoped buffer bypasses the region.
-/
import proofs.«423328_j88012469829751_3_alg».proof.Proof.SegDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Region 1's arrays window by window: the fused projections' array dealt among the three input windows (a half,
    a quarter, a quarter), the result's array whole. -/
theorem arrays1_eq (V : (c : Dev nD) → (b : Ref sig .tc) → Buf (Elt F) ((c : Thread nD τ).loc b)) (c : Dev nD)
    (Fw : (w : Fin cfg1.W) → Buf (Elt F) ((cfg1.win w).arr.view.loc (c.tc : Thread nD τ))) :
    ((dat1 V c).arrays Fw : sProp 𝕄)
      = iprop((((c : Thread nD τ).loc main_v3) ↦{fullShare.left} Fw 0) ∗ (((c : Thread nD τ).loc main_v3) ↦{fullShare.right.left} Fw 1)
          ∗ (((c : Thread nD τ).loc main_v3) ↦{fullShare.right.right} Fw 2) ∗ (((c : Thread nD τ).loc main_v4) ↦{fullShare} Fw 3)) := by
  unfold Pipeline.Dat.arrays
  rw [Gen.bigSep_W1, (arr_whole1 0).set_eq_univ, (arr_whole1 3).set_eq_univ]
  rfl

/-- The distinct buffers behind region 1's arrays: the fused projections' and the result's. -/
theorem arrBufs1_eq (c : Dev nD) (V : (b : Ref sig .tc) → Buf (Elt F) ((c : Thread nD τ).loc b)) :
    (Pipeline.arrBufs spec1 c V : sProp 𝕄) = iprop((((c : Thread nD τ).loc main_v3) ↦{fullShare} V main_v3) ∗ (((c : Thread nD τ).loc main_v4) ↦{fullShare} V main_v4)) := by
  unfold Pipeline.arrBufs
  rw [show Finset.image (Pipeline.arrRef spec1) Finset.univ = {main_v3, main_v4} from by decide, bigSep_insert (by decide), bigSep_singleton]
  rfl

/-- An input window's array is never written: after the last point it holds what the region was entered from. -/
theorem arrAtN_0 (V : (c : Dev nD) → (b : Ref sig .tc) → Buf (Elt F) ((c : Thread nD τ).loc b)) (c : Dev nD) (n : ℕ) :
    (dat1 V c).arrAt 0 n = V c main_v3 := ((dat1 V c).arrAt_in 0 rfl n).trans (A_eq1 V c 0)
theorem arrAtN_1 (V : (c : Dev nD) → (b : Ref sig .tc) → Buf (Elt F) ((c : Thread nD τ).loc b)) (c : Dev nD) (n : ℕ) :
    (dat1 V c).arrAt 1 n = V c main_v3 := ((dat1 V c).arrAt_in 1 rfl n).trans (A_eq1 V c 1)
theorem arrAtN_2 (V : (c : Dev nD) → (b : Ref sig .tc) → Buf (Elt F) ((c : Thread nD τ).loc b)) (c : Dev nD) (n : ℕ) :
    (dat1 V c).arrAt 2 n = V c main_v3 := ((dat1 V c).arrAt_in 2 rfl n).trans (A_eq1 V c 2)

/-! ## Entry and exit: the unscoped buffers against the region's arrays -/

/-- ENTRY. The core's unscoped buffers at the contents the region is entered from are the region's arrays at the proof
    data's entry contents and the unscoped rest: the fused projections' array, whole at the full share, is halved and
    its right half halved again for the three input windows; the result's array is the output window's. -/
theorem entry1 (c : Dev nD) :
    (StableHlo.held (c : Thread nD τ) (Pipeline.ucRefs τ sig) (val3 m c) : sProp 𝕄)
      ⊢ iprop((pdats m 1 c).arrays ((pdats m 1 c).arrAt · 0) ∗ Pipeline.unscopedRest spec1 c (ent1 m c)) := by
  rw [← Pipeline.unscopedBufs_held (Ix := Unit) (Name := ℕ) (U := UR sig nD τ) (Lvl := ℕ) c (val3 m c)]
  show (unscopedBufs c (ent1 m c) : sProp 𝕄)
    ⊢ iprop((dat1 (ent1 m) c).arrays ((dat1 (ent1 m) c).arrAt · 0) ∗ Pipeline.unscopedRest spec1 c (ent1 m c))
  rw [Pipeline.unscopedBufs_split₀ cfgs 1 winFacts₀1.arr_unscoped c, arrays1_eq]
  refine sep_mono ?_ .rfl
  rw [show (Pipeline.arrBufs (cfgs 1).spec c (ent1 m c) : sProp 𝕄) = Pipeline.arrBufs spec1 c (ent1 m c) from rfl, arrBufs1_eq,
    arrAtN_0, arrAtN_1, arrAtN_2]
  iintro ⟨H3, H4⟩
  ihave H := (pointsTo_share (PosShare.mem_left_op_right fullShare)).1 $$ H3
  icases H with ⟨Hl, Hr⟩
  ihave H' := (pointsTo_share (PosShare.mem_left_op_right fullShare.right)).1 $$ Hr
  icases H' with ⟨Hrl, Hrr⟩
  isplitl [Hl]; · iexact Hl
  isplitl [Hrl]; · iexact Hrl
  isplitl [Hrr]; · iexact Hrr
  iexact H4

/-- EXIT. The three input windows' shares of the fused projections' array, each still at the entry contents, join to
    the array whole; with the result's array at what the write-backs left and the unscoped rest as entered, these
    are the core's unscoped buffers at the contents after the region, which differ from those before it at the
    result's array only. -/
theorem exit1 (c : Dev nD) :
    iprop((pdats m 1 c).arrays ((pdats m 1 c).arrAt · cfg1.N) ∗ Pipeline.unscopedRest spec1 c (ent1 m c))
      ⊢ (StableHlo.held (c : Thread nD τ) (Pipeline.ucRefs τ sig) (val4 m c) : sProp 𝕄) := by
  rw [← Pipeline.unscopedBufs_held (Ix := Unit) (Name := ℕ) (U := UR sig nD τ) (Lvl := ℕ) c (val4 m c)]
  show iprop((dat1 (ent1 m) c).arrays ((dat1 (ent1 m) c).arrAt · cfg1.N) ∗ Pipeline.unscopedRest spec1 c (ent1 m c))
    ⊢ (unscopedBufs c (fun b => val4 m c b) : sProp 𝕄)
  rw [Pipeline.unscopedBufs_split₀ cfgs 1 winFacts₀1.arr_unscoped c, arrays1_eq]
  refine sep_mono ?_ (Entails.of_eq ?_)
  · rw [show (Pipeline.arrBufs (cfgs 1).spec c (fun b => val4 m c b) : sProp 𝕄) = Pipeline.arrBufs spec1 c (fun b => val4 m c b) from rfl,
      arrBufs1_eq, arrAtN_0, arrAtN_1, arrAtN_2,
      show val4 m c main_v3 = ent1 m c main_v3 from
        Function.update_of_ne (StableHlo.devRef_ne_of_ne (by decide) : (Proc.devRef .tc main_v3 : DevRef τ sig) ≠ Proc.devRef .tc main_v4) _ _,
      show val4 m c main_v4 = (dat1 (ent1 m) c).arrAt 3 cfg1.N from Function.update_self _ _ _]
    iintro ⟨Hl, Hrl, Hrr, H4⟩
    isplitr [H4]
    · ihave Hr := (pointsTo_share (PosShare.mem_left_op_right fullShare.right)).2 $$ [Hrl Hrr]
      · isplitl [Hrl] <;> iassumption
      iapply (pointsTo_share (PosShare.mem_left_op_right fullShare)).2
      isplitl [Hl] <;> iassumption
    iexact H4
  · show Pipeline.unscopedRest spec1 c (ent1 m c) = Pipeline.unscopedRest spec1 c (fun b => val4 m c b)
    unfold Pipeline.unscopedRest
    exact bigSep_congr fun b hb => by
      have hne : b ≠ main_v4 := fun h => (Finset.mem_sdiff.mp hb).2 (by rw [h]; decide)
      show _ = (((c : Thread nD τ).loc b) ↦{fullShare} val4 m c b)
      rw [show val4 m c b = ent1 m c b from
        Function.update_of_ne (StableHlo.devRef_ne_of_ne hne : (Proc.devRef .tc b : DevRef τ sig) ≠ Proc.devRef .tc main_v4) _ _]

/-! ## The region as a segment -/

-- a library lemma stated over the pinned configuration unifies with this program's only when unification may unfold
-- plain definitions in a metavariable's type
set_option backward.isDefEq.respectTransparency.types false in
/-- REGION 1 over the thread state: entered from every unscoped buffer at the contents after the second host
    stretch, left at those contents with the result's array at what the write-backs leave. The generator register goes
    into the invariant and comes back; nothing is owed; the kernel has no semaphore of its own. -/
def reg1 : Pipeline.RegionSeg (pcfgs (F := F)) Gen.adm (pdats m) () defs₀ 𝒱₀ Lv0 lv0 1 where
  win := winFacts₀1
  block_pos := block_pos1
  stage_whole := stage_whole1
  K := PEmpty
  osem k := k.elim
  ho := Pipeline.OwnSemFacts.none _
  hbody c := (body_obligation1 (ent1 m) c).loose
  hwaits := Pipeline.hwaits_of_owed_zero _ _ _ _ Lv0 lv0 1 fun _ _ => rfl
  pre c := iprop(StableHlo.held (c : Thread nD τ) (Pipeline.ucRefs τ sig) (val3 m c) ∗ Rst c)
  post c := iprop(StableHlo.held (c : Thread nD τ) (Pipeline.ucRefs τ sig) (val4 m c) ∗ Rst c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    iintro ⟨⟨Hub, Hp, HO⟩, -, -⟩
    ihave H := entry1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (ent1 m) c).Φ 0
    refine .trans ?_ (hin1 (ent1 m) c)
    unfold Pipeline.ΦA
    iintro ⟨Hp, -, Hr⟩
    isplitl [Hr]; · iexact Hr
    iexact Hp
  hout c := by
    rw [Pipeline.ownSems0_none]
    show (dat1 (ent1 m) c).Φ (Fin.last cfg1.N) ⊢ _
    refine (hout1 (ent1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c); isplitl [Ha] <;> iassumption
    isplitl [HY]; · iexact HY
    unfold Pipeline.Dat.owesAt Pipeline.owesWithin
    icases HO with ⟨%W, -, HO⟩; iexists W; iexact HO

/-- The record is entered from the thread state after the second host stretch, -/
theorem reg1_pre (c : Dev nD) :
    iprop(StableHlo.held (c : Thread nD τ) (Pipeline.ucRefs τ sig) (val3 m c) ∗ Rst c) ⊢ (reg1 m).pre c := .rfl
/-- and left at the program's last. -/
theorem reg1_post (c : Dev nD) :
    (reg1 m).post c ⊢ iprop(StableHlo.held (c : Thread nD τ) (Pipeline.ucRefs τ sig) (val4 m c) ∗ Rst c) := .rfl

end Cert.KernelIdeal.Hand

end
-- ==== Proof.Frame.lean ====
/-
  The frame claim of the program, at any float instance: from any memory with zero counters every weakly fair
  execution of @main terminates, nothing faulting, and every argument array ends as launched. It is the
  program's conditional frame at the two regions' segment records: no level is assigned, nothing is owed, the
  generator register and the core's (empty) dues ride beside the buffers from segment to segment.
-/
import proofs.«423328_j88012469829751_3_alg».proof.Proof.Seg0
import proofs.«423328_j88012469829751_3_alg».proof.Proof.Seg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () 𝒱₀ Lv0 lv0 (fun _ _ => rfl) ρ (outsOf m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (Pipeline.initEach Lv0 lv0 fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => reg0_pre m c) (fun c => (reg0_post m c).trans (by rw [V2_eq]))
    (reg1 m) (fun c => by rw [V3_eq]; exact reg1_pre m c) (fun c => (reg1_post m c).trans (by rw [V4_eq]))

end Cert.KernelIdeal.Hand

end
-- ==== Proof.Run.lean ====
/-
  The program's run with its result: as the frame claim, and the result array ends at what the attention
  region leaves in it, `attnOut m c` — the fold of that region's write-backs over the contents it is entered
  from, which are the projection region's leavings reshaped.
-/
import proofs.«423328_j88012469829751_3_alg».proof.Proof.Seg0
import proofs.«423328_j88012469829751_3_alg».proof.Proof.Seg1
import proofs.«423328_j88012469829751_3_alg».proof.Proof.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_outs : θ_run defs (onTc (τ := τ) (main (F := F))) ⟨m, fun _ => 0, ρ⟩ (fun r => ∀ c : Dev nD,
      r.2.mem ((c.tc : Thread nD τ).loc main_v4) = outsOf m 4 main_v4 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () 𝒱₀ Lv0 lv0 (fun _ _ => rfl) ρ (outsOf m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => Rst c)
    (Pipeline.initEach Lv0 lv0 fun c => by
      iintro ⟨⟨-, HO, -, Hp, -⟩, -⟩
      imodintro
      isplitl [Hp]; · iexists _; iexact Hp
      iexists ∅; iexact HO)
    (fun c => by iintro ⟨-, HO⟩; iexact HO)
    (reg0 m) (fun c => reg0_pre m c) (fun c => (reg0_post m c).trans (by rw [V2_eq]))
    (reg1 m) (fun c => by rw [V3_eq]; exact reg1_pre m c) (fun c => (reg1_post m c).trans (by rw [V4_eq]))

/-- The same with the result named. -/
theorem run_main : θ_run defs (onTc (τ := τ) (main (F := F))) ⟨m, fun _ => 0, ρ⟩ (fun r => ∀ c : Dev nD,
      r.2.mem ((c.tc : Thread nD τ).loc main_v4) = attnOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (outs_v4 m c), (h c).2⟩) (run_outs m ρ)

end Cert.KernelIdeal.Hand

end
-- ==== Proof.Spec.lean ====
/-
  The mathematics both programs compute, as one function of the arguments, over the extended reals.

  For a batch `b`, a query position `q` and a head coordinate `h`:
    * the three projections are plain matrix products of the activations with a weight matrix,
      `proj x W b s h = ∑ d, x[b, s, d] · W[d, h]`;
    * the score of query `q` against key `k` is `∑ h, Q[b, q, h] · K[b, k, h]`, kept where `k ≤ q` and
      replaced by `⊥` (minus infinity) where the key is in the query's future;
    * every score is multiplied by one positive real constant `c`;
    * a row is soft-maxed over ALL its 2048 keys: with `M` the row's largest scaled score,
      `e k = exp (z k − M)`, `L = ∑ k, e k`, the weight of key `k` is `e k / L` (a masked key has
      `exp ⊥ = 0`);
    * the result is `∑ k, (e k / L) · V[b, k, h]`.
-/
import Idealize.ShloMosaic.PureOps.Ideal
import Idealize.ShloMosaic.Lib.ValueIdx

noncomputable section

namespace Cert.Attn

open Idealize.ShloMosaic Idealize.ShloMosaic.ValueIdx

/-- The scale: the reciprocal of the reference's divisor `11863283 / 2^20`, as a real. -/
def c : ℝ := 1048576 / 11863283

theorem c_pos : 0 < c := by unfold c; norm_num

/-- One projection: activations `[8, 2048, 2048]` times a weight matrix `[2048, 128]`. -/
def proj (x : (⟨3, ![8, 2048, 2048]⟩ : Shape).Idx → EReal) (W : (⟨2, ![2048, 128]⟩ : Shape).Idx → EReal)
    (b : Fin 8) (s : Fin 2048) (h : Fin 128) : EReal :=
  ∑ d : Fin 2048, x (ix3 b s d) * W (ix2 d h)

section Rows

-- The three projected arrays a row's attention is computed from, as functions of (batch, position, head coordinate).
variable (Qp Kp Vp : Fin 8 → Fin 2048 → Fin 128 → EReal)

/-- The unscaled score of query `q` against key `k`. -/
def score (b : Fin 8) (q k : Fin 2048) : EReal := ∑ h : Fin 128, Qp b q h * Kp b k h

/-- The causal mask, then the scale: a key in the query's future scores `⊥`. -/
def z (b : Fin 8) (q k : Fin 2048) : EReal :=
  (if k.val ≤ q.val then score Qp Kp b q k else ⊥) * (c : EReal)

/-- The row's largest scaled score. -/
def rowMax (b : Fin 8) (q : Fin 2048) : EReal := Finset.univ.sup fun k : Fin 2048 => z Qp Kp b q k

/-- The unnormalised weight of key `k`. -/
def e (b : Fin 8) (q k : Fin 2048) : EReal := Ideal.exp (z Qp Kp b q k - rowMax Qp Kp b q)

/-- The row's normaliser. -/
def rowSum (b : Fin 8) (q : Fin 2048) : EReal := ∑ k : Fin 2048, e Qp Kp b q k

/-- Causal soft-max attention of one head, from the projected arrays. -/
def attn (b : Fin 8) (q : Fin 2048) (h : Fin 128) : EReal :=
  ∑ k : Fin 2048, Ideal.div (e Qp Kp b q k) (rowSum Qp Kp b q) * Vp b k h

end Rows

/-- The whole function of the four arguments, at an index of the result `[8, 2048, 128]`. -/
def G (x : (⟨3, ![8, 2048, 2048]⟩ : Shape).Idx → EReal) (Wq Wk Wv : (⟨2, ![2048, 128]⟩ : Shape).Idx → EReal) :
    (⟨3, ![8, 2048, 128]⟩ : Shape).Idx → EReal :=
  fun i => attn (proj x Wq) (proj x Wk) (proj x Wv) (i 0) (i 1) (i 2)

end Cert.Attn

end
-- ==== Proof.AttnHyp.lean ====
/-
  What the attention region's input array holds when the region is entered: per batch and position, the
  query, key and value projections side by side along the last axis (128 numbers each), every one a real.
-/
import proofs.«423328_j88012469829751_3_alg».proof.Proof.Gen.KernelIdeal
import proofs.«423328_j88012469829751_3_alg».proof.Proof.Spec
import Idealize.ShloMosaic.Lib.ValueIdx

noncomputable section

namespace Cert.KernelIdeal.AttnHyp

open Cert.KernelIdeal Idealize.ShloMosaic Idealize.ShloMosaic.TcCoe Idealize.ShloMosaic.ValueIdx Idealize.SL.Sem

/-- The fused array `X` : [8, 2048, 384] is the three projected arrays `Qp`, `Kp`, `Vp` side by side, and they are real. -/
structure Holds (X : S8x2048x384.Idx → EReal) (Qp Kp Vp : Fin 8 → Fin 2048 → Fin 128 → EReal) : Prop where
  hQ : ∀ (b : Fin 8) (s : Fin 2048) (h : Fin 128), X (ix3 b s ⟨h.val, by omega⟩) = Qp b s h
  hK : ∀ (b : Fin 8) (s : Fin 2048) (h : Fin 128), X (ix3 b s ⟨128 + h.val, by omega⟩) = Kp b s h
  hV : ∀ (b : Fin 8) (s : Fin 2048) (h : Fin 128), X (ix3 b s ⟨256 + h.val, by omega⟩) = Vp b s h
  realQ : ∀ b s h, ∃ r : ℝ, Qp b s h = (r : EReal)
  realK : ∀ b s h, ∃ r : ℝ, Kp b s h = (r : EReal)
  realV : ∀ b s h, ∃ r : ℝ, Vp b s h = (r : EReal)

end Cert.KernelIdeal.AttnHyp

end
-- ==== Proof.Finite.lean ====
/-
  From the precondition to "every input entry is a real".

  The precondition states that, for each of the four inputs, the conjunction over all entries of
  |x| < +∞ holds. An extended real whose absolute value max x (-x) lies strictly below ⊤ is neither ⊥ nor ⊤:
  it is a real. A finite sum of products of reals is a real, so each projection entry is a real as well.
-/
import proofs.«423328_j88012469829751_3_alg».proof.Defs
import proofs.«423328_j88012469829751_3_alg».proof.Proof.Gen.Pre_finite_inputs
import proofs.«423328_j88012469829751_3_alg».proof.Proof.Spec
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Idealize.SL.Sem

/-- The bit pattern of +∞ denotes ⊤. -/
theorem inf_eq_top : Ideal.ofBits .f32 0x7F800000#32 = (⊤ : EReal) := by
  simp [Ideal.ofBits, Ideal.ieee]

/-- An extended real whose absolute value is strictly below +∞ is a real. -/
theorem real_of_abs_lt (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- One conjunction over all entries of |x| < +∞ that came out true: every entry of x is a real. -/
theorem all_real {s : Shape} {axes : List (Fin s.rank)} (x : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] bc (constant Cert.Pre_finite_inputs.S_ .f32 0x7F800000#32)))
        (constantI Cert.Pre_finite_inputs.S_ 1 1#1) hr hu ix0 = 1#1) (i : s.Idx) : ∃ r : ℝ, x i = (r : EReal) := by
  have h := Host.reduce_andi_all _ _ hr hu ix0 e i
  exact real_of_abs_lt (x i) h

/-- The whole predicate, true: every entry of each of the four inputs is a real. -/
theorem real_of_fn [hP : Cert.Pre_finite_inputs.Facts]
    (x : FVec Ideal Cert.Pre_finite_inputs.S8x2048x2048 .f32) (Wq Wk Wv : FVec Ideal Cert.Pre_finite_inputs.S2048x128 .f32)
    (h : Cert.Pre_finite_inputs.fn (F := Ideal) x Wq Wk Wv = fun _ => 1#1) :
    (∀ i, ∃ r : ℝ, x i = (r : EReal)) ∧ (∀ i, ∃ r : ℝ, Wq i = (r : EReal))
      ∧ (∀ i, ∃ r : ℝ, Wk i = (r : EReal)) ∧ (∀ i, ∃ r : ℝ, Wv i = (r : EReal)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real x _ _ _ h0', all_real Wq _ _ _ h1, all_real Wk _ _ _ h2, all_real Wv _ _ _ h3⟩

/-- From the certificate's precondition: on every device, every entry of each of the four arguments is a real. -/
theorem real_of_pre [hK : Cert.KernelIdeal.Facts] [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  real_of_fn _ _ _ _ (hpre c)

/-- A real cast of a finite sum is the sum of the casts. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A projection entry of real activations and real weights is a real: a finite sum of products of reals. -/
theorem proj_real (x : (⟨3, ![8, 2048, 2048]⟩ : Shape).Idx → EReal) (W : (⟨2, ![2048, 128]⟩ : Shape).Idx → EReal)
    (hx : ∀ i, ∃ r : ℝ, x i = (r : EReal)) (hW : ∀ i, ∃ r : ℝ, W i = (r : EReal))
    (b : Fin 8) (s : Fin 2048) (h : Fin 128) : ∃ r : ℝ, Cert.Attn.proj x W b s h = (r : EReal) := by
  choose fx hfx using hx
  choose fW hfW using hW
  refine ⟨∑ d : Fin 2048, fx (ix3 b s d) * fW (ix2 d h), ?_⟩
  unfold Cert.Attn.proj
  rw [coe_sum]
  refine Finset.sum_congr rfl fun d _ => ?_
  rw [hfx, hfW, EReal.coe_mul]

end Cert.Finite

end
-- ==== Proof.Softmax.lean ====
/-
  Online soft-max over one row, in the extended reals.

  A row of 2048 scaled, masked scores `z` is soft-maxed against one column of values `v`.
  For a prefix of the first `n` keys write
    M n = the largest score among them,
    S n = ∑ exp (z k − M n)          (the normaliser),
    A n = ∑ exp (z k − M n) · v k    (the weighted sum).
  Walking the row in tiles of 512 keys, the prefix quantities obey
    M (n+512) = max (M n) (the tile's largest score),
    S (n+512) = exp (M n − M (n+512)) · S n + ∑ over the tile of exp (z k − M (n+512)),
    A (n+512) = exp (M n − M (n+512)) · A n + ∑ over the tile of exp (z k − M (n+512)) · v k,
  because exp (z k − M') = exp (M − M') · exp (z k − M) for real M, M' (a masked key, z k = ⊥, gives 0 on
  both sides).  Once every unmasked key has been seen the prefix quantities are those of the whole row, and
  dividing the weighted sum by the normaliser is the same as normalising each weight first.

  Every quantity is the coercion of a real number, so the algebra is done in ℝ and coerced back.
-/
import proofs.«423328_j88012469829751_3_alg».proof.Proof.Spec

noncomputable section

namespace Cert.Attn.Online

open Idealize.ShloMosaic

variable (z v : Fin 2048 → EReal)

/-- the first n keys -/
def pre (n : ℕ) : Finset (Fin 2048) := Finset.univ.filter fun k => k.val < n
def M (n : ℕ) : EReal := (pre n).sup z
def S (n : ℕ) : EReal := ∑ k ∈ pre n, Ideal.exp (z k - M z n)
def A (n : ℕ) : EReal := ∑ k ∈ pre n, Ideal.exp (z k - M z n) * v k
/-- key j of the tile that starts at n₀ -/
def col (n₀ : ℕ) (h : n₀ + 512 ≤ 2048) (j : Fin 512) : Fin 2048 := ⟨n₀ + j.val, by omega⟩

/-! ### The empty prefix -/

theorem pre_zero : pre 0 = ∅ := by
  ext k; simp [pre]

theorem M_zero : M z 0 = ⊥ := by
  simp [M, pre_zero]

theorem S_zero : S z 0 = 0 := by
  simp [S, pre_zero]

theorem A_zero : A z v 0 = 0 := by
  simp [A, pre_zero]

/-! ### A prefix grows by one tile -/

theorem col_injective (n₀ : ℕ) (h : n₀ + 512 ≤ 2048) : Function.Injective (col n₀ h) := by
  intro a b hab
  have := congrArg Fin.val hab
  simp only [col] at this
  exact Fin.ext (by omega)

/-- the first n₀ + 512 keys are the first n₀ keys together with the tile that starts at n₀ -/
theorem pre_add (n₀ : ℕ) (h : n₀ + 512 ≤ 2048) :
    pre (n₀ + 512) = pre n₀ ∪ Finset.univ.image (col n₀ h) := by
  ext k
  simp only [pre, Finset.mem_filter, Finset.mem_univ, true_and, Finset.mem_union, Finset.mem_image]
  constructor
  · intro hk
    by_cases hlt : k.val < n₀
    · exact Or.inl hlt
    · refine Or.inr ⟨⟨k.val - n₀, by omega⟩, ?_⟩
      apply Fin.ext
      simp only [col]
      omega
  · rintro (hk | ⟨j, rfl⟩)
    · omega
    · simp only [col]
      have := j.isLt
      omega

theorem pre_disjoint (n₀ : ℕ) (h : n₀ + 512 ≤ 2048) :
    Disjoint (pre n₀) (Finset.univ.image (col n₀ h)) := by
  rw [Finset.disjoint_left]
  intro k hk hk'
  simp only [pre, Finset.mem_filter, Finset.mem_univ, true_and] at hk
  simp only [Finset.mem_image, Finset.mem_univ, true_and] at hk'
  obtain ⟨j, rfl⟩ := hk'
  simp only [col] at hk
  omega

/-- a sum over the longer prefix is the sum over the shorter one plus the sum over the tile -/
theorem sum_pre_add (f : Fin 2048 → EReal) (n₀ : ℕ) (h : n₀ + 512 ≤ 2048) :
    ∑ k ∈ pre (n₀ + 512), f k = ∑ k ∈ pre n₀, f k + ∑ j : Fin 512, f (col n₀ h j) := by
  rw [pre_add n₀ h, Finset.sum_union (pre_disjoint n₀ h),
    Finset.sum_image (fun a _ b _ hab => col_injective n₀ h hab)]

theorem M_step (n₀ : ℕ) (h : n₀ + 512 ≤ 2048) :
    M z (n₀ + 512) = max (M z n₀) (Finset.univ.fold max (⊥ : EReal) fun j : Fin 512 => z (col n₀ h j)) := by
  unfold M
  rw [pre_add n₀ h, Finset.sup_union, Finset.sup_image]
  rfl

/-! ### Once every unmasked key is in, the rest of the row changes nothing -/

theorem tail_M (q : Fin 2048) (hm : ∀ k : Fin 2048, q.val < k.val → z k = ⊥) (n : ℕ) (hn : q.val < n) :
    M z n = Finset.univ.sup z := by
  unfold M
  apply le_antisymm
  · exact Finset.sup_mono (Finset.subset_univ _)
  · apply Finset.sup_le
    intro k _
    by_cases hk : k.val < n
    · exact Finset.le_sup (by simp [pre, hk])
    · rw [hm k (by omega)]
      exact bot_le

/-- a masked key weighs nothing, whatever is subtracted -/
theorem exp_bot_sub (x : EReal) : Ideal.exp (⊥ - x) = 0 := by
  rw [EReal.bot_sub, Ideal.exp_bot]

theorem tail_S (q : Fin 2048) (hm : ∀ k : Fin 2048, q.val < k.val → z k = ⊥) (n : ℕ) (hn : q.val < n) :
    S z n = ∑ k : Fin 2048, Ideal.exp (z k - Finset.univ.sup z) := by
  unfold S
  rw [tail_M z q hm n hn]
  apply Finset.sum_subset (Finset.subset_univ _)
  intro k _ hk
  have hk' : ¬ k.val < n := by simpa [pre] using hk
  rw [hm k (by omega), exp_bot_sub]

theorem tail_A (q : Fin 2048) (hm : ∀ k : Fin 2048, q.val < k.val → z k = ⊥) (n : ℕ) (hn : q.val < n) :
    A z v n = ∑ k : Fin 2048, Ideal.exp (z k - Finset.univ.sup z) * v k := by
  unfold A
  rw [tail_M z q hm n hn]
  apply Finset.sum_subset (Finset.subset_univ _)
  intro k _ hk
  have hk' : ¬ k.val < n := by simpa [pre] using hk
  rw [hm k (by omega), exp_bot_sub, zero_mul]

/-! ### Weights as real numbers -/

/-- the weight exp (x − m), as a real number -/
def w (x : EReal) (m : ℝ) : ℝ := (Ideal.exp (x - (m : EReal))).toReal

/-- a score that is not +∞, less a real maximum, has a real weight -/
theorem exp_sub_coe {x : EReal} (hx : x ≠ ⊤) (m : ℝ) :
    Ideal.exp (x - (m : EReal)) = ((w x m : ℝ) : EReal) := by
  unfold w
  induction x with
  | bot => rw [exp_bot_sub]; simp
  | coe r => rw [← EReal.coe_sub, Ideal.exp_coe, EReal.toReal_coe]
  | top => exact absurd rfl hx

theorem w_nonneg (x : EReal) (m : ℝ) : 0 ≤ w x m := by
  unfold w
  induction x with
  | bot => rw [exp_bot_sub]; simp
  | coe r => rw [← EReal.coe_sub, Ideal.exp_coe, EReal.toReal_coe]; exact (Real.exp_pos _).le
  | top => simp [Ideal.exp_top]

theorem w_pos {x : EReal} (hx : x ≠ ⊤) (hx' : x ≠ ⊥) (m : ℝ) : 0 < w x m := by
  unfold w
  induction x with
  | bot => exact absurd rfl hx'
  | coe r => rw [← EReal.coe_sub, Ideal.exp_coe, EReal.toReal_coe]; exact Real.exp_pos _
  | top => exact absurd rfl hx

/-- changing the maximum subtracted rescales the weight: exp (x − m') = exp (m − m') · exp (x − m) -/
theorem w_rescale {x : EReal} (hx : x ≠ ⊤) (m m' : ℝ) : w x m' = Real.exp (m - m') * w x m := by
  unfold w
  induction x with
  | bot => rw [exp_bot_sub, exp_bot_sub]; simp
  | coe r =>
    rw [← EReal.coe_sub, ← EReal.coe_sub, Ideal.exp_coe, Ideal.exp_coe, EReal.toReal_coe, EReal.toReal_coe,
      ← Real.exp_add]
    congr 1; ring
  | top => exact absurd rfl hx

/-- the coercion of a finite real sum is the sum of the coercions -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- a weighted sum of real values, with a real maximum subtracted, is real -/
theorem wsum_coe (hz : ∀ k, z k ≠ ⊤) (r : Fin 2048 → ℝ) (s : Finset (Fin 2048)) (m : ℝ) :
    ∑ k ∈ s, Ideal.exp (z k - (m : EReal)) * (r k : EReal) = ((∑ k ∈ s, w (z k) m * r k : ℝ) : EReal) := by
  rw [coe_sum]
  apply Finset.sum_congr rfl
  intro k _
  rw [exp_sub_coe (hz k), EReal.coe_mul]

/-- changing the maximum subtracted rescales a whole weighted sum -/
theorem rescale_sum (hz : ∀ k, z k ≠ ⊤) (r : Fin 2048 → ℝ) (s : Finset (Fin 2048)) (m m' : ℝ) :
    ∑ k ∈ s, Ideal.exp (z k - (m' : EReal)) * (r k : EReal)
      = Ideal.exp ((m : EReal) - (m' : EReal)) * ∑ k ∈ s, Ideal.exp (z k - (m : EReal)) * (r k : EReal) := by
  rw [wsum_coe z hz r s m, wsum_coe z hz r s m', ← EReal.coe_sub, Ideal.exp_coe, ← EReal.coe_mul, Finset.mul_sum]
  congr 1
  apply Finset.sum_congr rfl
  intro k _
  rw [w_rescale (hz k) m m']; ring

/-! ### The running maximum is a real number once key 0 is in -/

theorem M_ne_top (hz : ∀ k, z k ≠ ⊤) (n : ℕ) : M z n ≠ ⊤ := by
  apply ne_of_lt
  exact (Finset.sup_lt_iff bot_lt_top).2 fun k _ => lt_top_iff_ne_top.2 (hz k)

theorem M_ne_bot (h0 : z ⟨0, by decide⟩ ≠ ⊥) (n : ℕ) (hn : 0 < n) : M z n ≠ ⊥ := by
  intro hbot
  have hle : z ⟨0, by decide⟩ ≤ M z n := Finset.le_sup (by simp [pre, hn])
  rw [hbot] at hle
  exact h0 (le_bot_iff.1 hle)

theorem M_real (hz : ∀ k, z k ≠ ⊤) (h0 : z ⟨0, by decide⟩ ≠ ⊥) (n : ℕ) (hn : 0 < n) :
    ∃ m : ℝ, M z n = (m : EReal) :=
  ⟨(M z n).toReal, (EReal.coe_toReal (M_ne_top z hz n) (M_ne_bot z h0 n hn)).symm⟩

theorem pre_all : pre 2048 = Finset.univ := by
  ext k; simp [pre]

/-! ### One tile of the online recurrence -/

theorem A_step (hz : ∀ k, z k ≠ ⊤) (h0 : z ⟨0, by decide⟩ ≠ ⊥) (hv : ∀ k, ∃ r : ℝ, v k = (r : EReal)) (n₀ : ℕ) (h : n₀ + 512 ≤ 2048) :
    A z v (n₀ + 512) = Ideal.exp (M z n₀ - M z (n₀ + 512)) * A z v n₀
      + ∑ j : Fin 512, Ideal.exp (z (col n₀ h j) - M z (n₀ + 512)) * v (col n₀ h j) := by
  choose r hr using hv
  have hv' : v = fun k => (r k : EReal) := funext hr
  unfold A
  rw [sum_pre_add _ n₀ h]
  congr 1
  rcases Nat.eq_zero_or_pos n₀ with rfl | hpos
  · simp [pre_zero]
  · obtain ⟨m, hm⟩ := M_real z hz h0 n₀ hpos
    obtain ⟨m', hm'⟩ := M_real z hz h0 (n₀ + 512) (by omega)
    rw [hm, hm', hv']
    exact rescale_sum z hz r (pre n₀) m m'

theorem S_eq_A (n : ℕ) : S z n = A z (fun _ => 1) n := by
  simp [S, A]

theorem S_step (hz : ∀ k, z k ≠ ⊤) (h0 : z ⟨0, by decide⟩ ≠ ⊥) (n₀ : ℕ) (h : n₀ + 512 ≤ 2048) :
    S z (n₀ + 512) = Ideal.exp (M z n₀ - M z (n₀ + 512)) * S z n₀
      + ∑ j : Fin 512, Ideal.exp (z (col n₀ h j) - M z (n₀ + 512)) := by
  have hA := A_step z (fun _ => (1 : EReal)) hz h0 (fun _ => ⟨1, EReal.coe_one.symm⟩) n₀ h
  rw [S_eq_A z (n₀ + 512), S_eq_A z n₀, hA]
  simp only [mul_one]

/-! ### Dividing the weighted sum by the normaliser normalises each weight -/

theorem div_sum (hz : ∀ k, z k ≠ ⊤) (h0 : z ⟨0, by decide⟩ ≠ ⊥) (hv : ∀ k, ∃ r : ℝ, v k = (r : EReal)) :
    Ideal.div (∑ k : Fin 2048, Ideal.exp (z k - Finset.univ.sup z) * v k) (∑ k : Fin 2048, Ideal.exp (z k - Finset.univ.sup z))
      = ∑ k : Fin 2048, Ideal.div (Ideal.exp (z k - Finset.univ.sup z)) (∑ k' : Fin 2048, Ideal.exp (z k' - Finset.univ.sup z)) * v k := by
  choose r hr using hv
  have hv' : v = fun k => (r k : EReal) := funext hr
  obtain ⟨m, hm⟩ : ∃ m : ℝ, Finset.univ.sup z = (m : EReal) := by
    have := M_real z hz h0 2048 (by decide)
    rwa [M, pre_all] at this
  rw [hm]
  -- the normaliser is a positive real
  have hL : ∑ k : Fin 2048, Ideal.exp (z k - (m : EReal)) = ((∑ k : Fin 2048, w (z k) m : ℝ) : EReal) := by
    rw [coe_sum]
    exact Finset.sum_congr rfl fun k _ => exp_sub_coe (hz k) m
  have hl : (∑ k : Fin 2048, w (z k) m) ≠ 0 := by
    apply ne_of_gt
    exact lt_of_lt_of_le (w_pos (hz _) h0 m)
      (Finset.single_le_sum (f := fun k => w (z k) m) (fun k _ => w_nonneg _ _) (Finset.mem_univ _))
  rw [hL, Ideal.div_coe hl, hv', wsum_coe z hz r Finset.univ m, ← EReal.coe_mul, Finset.sum_mul, coe_sum]
  apply Finset.sum_congr rfl
  intro k _
  rw [Ideal.div_coe hl, exp_sub_coe (hz k), ← EReal.coe_mul, ← EReal.coe_mul]
  congr 1; ring

end Cert.Attn.Online

end
-- ==== Proof.AttnRows.lean ====
/-
  One row of the causal attention, against the online recurrence.

  For a batch `b` and a query row `q` the scaled, masked scores `z k` of the row are never +∞, the score of key 0
  is a real number (key 0 is in no query's future), and every key after `q` scores ⊥.  So the online recurrence
  applies to the row: folding one tile of 512 keys into (maximum, normaliser, weighted sum) over the first n₀
  keys gives the three over the first n₀ + 512 keys, and once the prefix passes `q` the weighted sum divided by
  the normaliser is the row's soft-max attention.
-/
import proofs.«423328_j88012469829751_3_alg».proof.Proof.Softmax

noncomputable section

namespace Cert.Attn.Rows

open Idealize.ShloMosaic Cert.Attn Cert.Attn.Online

variable (Qp Kp Vp : Fin 8 → Fin 2048 → Fin 128 → EReal)

/-! ### The row's scores -/

/-- A score is a finite sum of products of reals: a real. -/
theorem score_real (hQ : ∀ b s h, ∃ r : ℝ, Qp b s h = (r : EReal)) (hK : ∀ b s h, ∃ r : ℝ, Kp b s h = (r : EReal))
    (b : Fin 8) (q k : Fin 2048) : ∃ x : ℝ, score Qp Kp b q k = (x : EReal) := by
  choose rq hrq using hQ
  choose rk hrk using hK
  refine ⟨∑ h : Fin 128, rq b q h * rk b k h, ?_⟩
  unfold score
  rw [coe_sum]
  exact Finset.sum_congr rfl fun h _ => by rw [hrq, hrk, EReal.coe_mul]

/-- A scaled score is a real or ⊥, never +∞. -/
theorem z_ne_top (hQ : ∀ b s h, ∃ r : ℝ, Qp b s h = (r : EReal)) (hK : ∀ b s h, ∃ r : ℝ, Kp b s h = (r : EReal))
    (b : Fin 8) (q k : Fin 2048) : z Qp Kp b q k ≠ ⊤ := by
  obtain ⟨x, hx⟩ := score_real Qp Kp hQ hK b q k
  unfold z
  by_cases hc : k.val ≤ q.val
  · rw [if_pos hc, hx, ← EReal.coe_mul]; exact EReal.coe_ne_top _
  · rw [if_neg hc, EReal.bot_mul_coe_of_pos c_pos]; exact bot_ne_top

/-- Key 0 is in no query's future: its scaled score is a real. -/
theorem z_zero_ne_bot (hQ : ∀ b s h, ∃ r : ℝ, Qp b s h = (r : EReal)) (hK : ∀ b s h, ∃ r : ℝ, Kp b s h = (r : EReal))
    (b : Fin 8) (q : Fin 2048) : z Qp Kp b q ⟨0, by decide⟩ ≠ ⊥ := by
  obtain ⟨x, hx⟩ := score_real Qp Kp hQ hK b q ⟨0, by decide⟩
  unfold z
  rw [if_pos (Nat.zero_le _), hx, ← EReal.coe_mul]; exact EReal.coe_ne_bot _

/-- A key in the query's future scores ⊥ (the scale is positive). -/
theorem z_masked (b : Fin 8) (q k : Fin 2048) (hk : q.val < k.val) : z Qp Kp b q k = ⊥ := by
  unfold z
  rw [if_neg (by omega), EReal.bot_mul_coe_of_pos c_pos]

/-! ### One tile folded in, stated over the numbers a tile update computes -/

section Fold
variable (z : Fin 2048 → EReal)

/-- The new maximum: the old one against the tile's largest score. -/
theorem fold_M (n₀ : ℕ) (hn : n₀ + 512 ≤ 2048) (mo : EReal) (s : Fin 512 → EReal)
    (hmo : mo = M z n₀) (hs : ∀ j, s j = z (col n₀ hn j)) :
    max mo (Finset.univ.fold max (⊥ : EReal) s) = M z (n₀ + 512) := by
  rw [M_step z n₀ hn, hmo, (funext hs : s = fun j => z (col n₀ hn j))]

/-- The new normaliser: the old one rescaled to the new maximum, plus the tile's weights. -/
theorem fold_S (hz : ∀ k, z k ≠ ⊤) (h0 : z ⟨0, by decide⟩ ≠ ⊥) (n₀ : ℕ) (hn : n₀ + 512 ≤ 2048)
    (mo lo m' : EReal) (s : Fin 512 → EReal)
    (hmo : mo = M z n₀) (hlo : lo = S z n₀) (hm' : m' = M z (n₀ + 512)) (hs : ∀ j, s j = z (col n₀ hn j)) :
    Ideal.exp (mo - m') * lo + ∑ j : Fin 512, Ideal.exp (s j - m') = S z (n₀ + 512) := by
  rw [S_step z hz h0 n₀ hn, hmo, hlo, hm', (funext hs : s = fun j => z (col n₀ hn j))]

/-- The new weighted sum: the old one rescaled, plus the tile's weights times its values. -/
theorem fold_A (v : Fin 2048 → EReal) (hz : ∀ k, z k ≠ ⊤) (h0 : z ⟨0, by decide⟩ ≠ ⊥)
    (hv : ∀ k, ∃ r : ℝ, v k = (r : EReal)) (n₀ : ℕ) (hn : n₀ + 512 ≤ 2048)
    (mo ao m' : EReal) (s w : Fin 512 → EReal)
    (hmo : mo = M z n₀) (hao : ao = A z v n₀) (hm' : m' = M z (n₀ + 512))
    (hs : ∀ j, s j = z (col n₀ hn j)) (hw : ∀ j, w j = v (col n₀ hn j)) :
    Ideal.exp (mo - m') * ao + ∑ j : Fin 512, Ideal.exp (s j - m') * w j = A z v (n₀ + 512) := by
  rw [A_step z v hz h0 hv n₀ hn, hmo, hao, hm', (funext hs : s = fun j => z (col n₀ hn j)),
    (funext hw : w = fun j => v (col n₀ hn j))]

end Fold

/-! ### Past the query's own key the quotient is the row's attention -/

theorem div_tail (hQ : ∀ b s h, ∃ r : ℝ, Qp b s h = (r : EReal)) (hK : ∀ b s h, ∃ r : ℝ, Kp b s h = (r : EReal))
    (hV : ∀ b s h, ∃ r : ℝ, Vp b s h = (r : EReal)) (b : Fin 8) (q : Fin 2048) (h : Fin 128) (n : ℕ) (hn : q.val < n) :
    Ideal.div (A (z Qp Kp b q) (fun k => Vp b k h) n) (S (z Qp Kp b q) n) = attn Qp Kp Vp b q h := by
  have hm : ∀ k : Fin 2048, q.val < k.val → z Qp Kp b q k = ⊥ := fun k hk => z_masked Qp Kp b q k hk
  rw [tail_A (z Qp Kp b q) (fun k => Vp b k h) q hm n hn, tail_S (z Qp Kp b q) q hm n hn,
    div_sum (z Qp Kp b q) (fun k => Vp b k h) (z_ne_top Qp Kp hQ hK b q) (z_zero_ne_bot Qp Kp hQ hK b q)
      (fun k => hV b k h)]
  rfl

end Cert.Attn.Rows

end
-- ==== Proof.AttnStep.lean ====
/-
  One key tile of the attention kernel, read element by element over the extended reals.

  The kernel's update of its three running quantities (row maximum, normaliser, weighted sum of values) by one
  tile of 512 keys, and its final division, are given as pure functions of whole blocks.  Here each is read at
  one row i (and one head coordinate h): the tile's scaled, causally masked scores
      s j = (if key j is not in row i's future then ∑ h, q i h · k j h else ⊥) · c,
  the new maximum  max (m i) (max over j of s j),  the new normaliser
      exp (m i − m' i) · l i + ∑ j, exp (s j − m' i),
  the new weighted sum  exp (m i − m' i) · a i h + ∑ j, exp (s j − m' i) · v j h,
  and the output  a i h / l i.  A reset leaves m = ⊥, l = 0, a = 0.
-/
import proofs.«423328_j88012469829751_3_alg».proof.Proof.Region1Defs
import proofs.«423328_j88012469829751_3_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.AttnStep

open Cert.KernelIdeal Cert.KernelIdeal.Gen Cert.KernelIdeal.Hand Idealize.ShloMosaic Idealize.ShloMosaic.ValueIdx

/-! ### Column vectors: the layout operations that keep a unit last axis -/

section Layout
variable {α : Type}

/-- An [a, 1] column broadcast to [a, b] reads, at (p, c), the column's entry at row p. -/
theorem broadcastTo_a1_ab_apply {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ### The two bit patterns the kernel resets with -/

/-- The f32 pattern of minus infinity is ⊥. -/
theorem ofBits_neg_inf : Ideal.ofBits .f32 0xFF800000#32 = ⊥ := by
  simp [Ideal.ofBits, Ideal.ieee]

/-! ### The final division and the reset values -/

theorem finO_apply (a : Vec Ideal S1024x128 .f32) (l : Vec Ideal S1024x1 .f32) (i : Fin 1024) (h : Fin 128) :
    finO a l (ix3 0 i h) = Ideal.div (a (ix2 i h)) (l (ix2 i 0)) := by
  unfold finO k1_pay7
  refine (shapeCast_ab_1ab_apply _ _ (0 : Fin 1) i h).trans ?_
  refine (divf_apply _ _ _).trans ?_
  exact congrArg (Ideal.div (a (ix2 i h))) (broadcastTo_a1_ab_apply l _ i h)

theorem m0_apply (i : Fin 1024) : (m0 (F := Ideal)) (ix2 i 0) = ⊥ := by
  unfold m0 k1_pay1
  rw [shapeCast_self]
  exact ofBits_neg_inf

theorem l0_apply (i : Fin 1024) : (l0 (F := Ideal)) (ix2 i 0) = 0 := by
  unfold l0 k1_pay2
  rw [shapeCast_self]
  exact Ideal.ofBits_zero_f32

theorem a0_apply (i : Fin 1024) (h : Fin 128) : (a0 (F := Ideal)) (ix2 i h) = 0 := by
  unfold a0 k1_pay3
  rw [shapeCast_self]
  exact Ideal.ofBits_zero_f32

/-! ### A row's maximum and sum over the 512 keys of a tile -/

/-- the index of the [1024, 512] tile whose row is i and whose inserted key coordinate is j -/
theorem lift_row (i : Fin 1024) (j : Fin 512) : reduces_S1024x512_S1024.lift (ix1 i) j = ix2 i j :=
  funext fun a => Fin.ext (by
    match a with
    | ⟨0, _⟩ => rfl
    | ⟨1, _⟩ => rfl)

/-- the row maximum the kernel takes, from minus infinity, is the maximum over the tile's keys -/
theorem rowMax_apply (src : FVec Ideal S1024x512 .f32) (i : Fin 1024) :
    multiReduction (F := Ideal) .maximumf [1] S1024 src 0xFF800000#32 reduces_S1024x512_S1024 (.inl rfl) rfl (ix1 i)
      = Finset.univ.fold max (⊥ : EReal) fun j : Fin 512 => src (ix2 i j) := by
  refine (Ideal.multiReduction_maximumf_single src 0xFF800000#32 reduces_S1024x512_S1024 (.inl rfl) rfl (ix1 i)).trans ?_
  have e1 : FloatOps.ofBits (F := Ideal) .f32 0xFF800000#32 = (⊥ : EReal) := ofBits_neg_inf
  have e2 : (src ∘ reduces_S1024x512_S1024.lift (ix1 i)) = fun j : Fin 512 => src (ix2 i j) :=
    funext fun j => congrArg src (lift_row i j)
  exact congrArg₂ (fun b f => Finset.fold max b f Finset.univ) e1 e2

/-- the row sum the kernel takes, from zero, is the sum over the tile's keys -/
theorem rowSum_apply (src : FVec Ideal S1024x512 .f32) (i : Fin 1024) :
    multiReduction (F := Ideal) .add [1] S1024 src 0x00000000#32 reduces_S1024x512_S1024 (.inl rfl) rfl (ix1 i)
      = ∑ j : Fin 512, src (ix2 i j) := by
  refine (Ideal.multiReduction_add_single src _ reduces_S1024x512_S1024 (.inl rfl) rfl (ix1 i)).trans ?_
  exact Finset.sum_congr rfl fun j _ => congrArg src (lift_row i j)

/-! ### The new running maximum -/

section Step
variable (a1 a2 : BitVec 32) (q : Vec Ideal S1x1024x128 .bf16) (k v : Vec Ideal S1x512x128 .bf16)
  (mo lo : Vec Ideal S1024x1 .f32) (ao : Vec Ideal S1024x128 .f32)

/-- the stored maximum is the computed one -/
theorem stepM_eq : stepM a1 a2 q k mo = k1_pay10 a1 a2 q k mo := by
  unfold stepM k1_pay6
  exact shapeCast_self _ _

theorem pay10_apply (i : Fin 1024) :
    k1_pay10 (F := Ideal) a1 a2 q k mo (ix2 i 0)
      = max (mo (ix2 i 0)) (Finset.univ.fold max (⊥ : EReal) fun j : Fin 512 => k1_pay9 (F := Ideal) a1 a2 q k (ix2 i j)) := by
  unfold k1_pay10
  refine (maximumf_apply _ _ _).trans ?_
  refine congrArg (max (mo (ix2 i 0))) ?_
  refine (shapeCast_a_a1_apply _ _ i (0 : Fin 1)).trans ?_
  exact rowMax_apply _ i

theorem stepM_apply (i : Fin 1024) :
    stepM a1 a2 q k mo (ix2 i 0)
      = max (mo (ix2 i 0)) (Finset.univ.fold max (⊥ : EReal) fun j : Fin 512 => k1_pay9 (F := Ideal) a1 a2 q k (ix2 i j)) := by
  rw [stepM_eq]
  exact pay10_apply a1 a2 q k mo i

/-! ### The rescaling factor and the tile's weights -/

/-- the factor the old normaliser and weighted sum are rescaled by: exp (old maximum − new maximum) -/
theorem pay11_apply (i : Fin 1024) :
    k1_pay11 (F := Ideal) a1 a2 q k mo mo (ix2 i 0)
      = Ideal.exp (mo (ix2 i 0) - stepM a1 a2 q k mo (ix2 i 0)) := by
  rw [stepM_eq]
  rfl

/-- a key's weight: exp (its score − the row's new maximum) -/
theorem pay12_apply (i : Fin 1024) (j : Fin 512) :
    k1_pay12 (F := Ideal) a1 a2 q k mo (ix2 i j)
      = Ideal.exp (k1_pay9 (F := Ideal) a1 a2 q k (ix2 i j) - stepM a1 a2 q k mo (ix2 i 0)) := by
  rw [stepM_eq]
  unfold k1_pay12
  show Ideal.exp (k1_pay9 (F := Ideal) a1 a2 q k (ix2 i j) - broadcastTo S1024x512 (k1_pay10 (F := Ideal) a1 a2 q k mo) broadcasts_S1024x1_S1024x512 (ix2 i j)) = _
  exact congrArg (fun t => Ideal.exp (k1_pay9 (F := Ideal) a1 a2 q k (ix2 i j) - t)) (broadcastTo_a1_ab_apply _ _ i j)

/-! ### The new normaliser -/

theorem stepL_apply (i : Fin 1024) :
    stepL a1 a2 q k mo lo (ix2 i 0) = Ideal.exp (mo (ix2 i 0) - stepM a1 a2 q k mo (ix2 i 0)) * lo (ix2 i 0)
      + ∑ j : Fin 512, Ideal.exp (k1_pay9 (F := Ideal) a1 a2 q k (ix2 i j) - stepM a1 a2 q k mo (ix2 i 0)) := by
  unfold stepL k1_pay4
  rw [shapeCast_self]
  unfold k1_pay13
  refine (addf_apply _ _ _).trans ?_
  refine congrArg₂ (· + ·) ?_ ?_
  · refine (mulf_apply _ _ _).trans ?_
    exact congrArg (· * lo (ix2 i 0)) (pay11_apply a1 a2 q k mo i)
  · refine (shapeCast_a_a1_apply _ _ i (0 : Fin 1)).trans ?_
    refine (rowSum_apply _ i).trans ?_
    exact Finset.sum_congr rfl fun j _ => pay12_apply a1 a2 q k mo i j

end Step

/-! ### The two matrix products of a tile, read at an index

Scores: rows of q against rows of k, both contracted over the head coordinate.  Weighted values: a row of
weights against a column of v, contracted over the tile's keys. -/

theorem qk_lhs_0 (o : S1024x512.Idx) (c : dot_S1024x128_S512x128_S1024x512_1_1_0_0_n_n.contr.Idx) :
    (dot_S1024x128_S512x128_S1024x512_1_1_0_0_n_n.lhsIdx o c 0).val = (o 0).val := by
  unfold DotDims.lhsIdx
  rw [dif_neg (show ¬(0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
  rfl
theorem qk_lhs_1 (o : S1024x512.Idx) (c : dot_S1024x128_S512x128_S1024x512_1_1_0_0_n_n.contr.Idx) :
    (dot_S1024x128_S512x128_S1024x512_1_1_0_0_n_n.lhsIdx o c 1).val = (c ⟨0, by decide⟩).val :=
  dot_S1024x128_S512x128_S1024x512_1_1_0_0_n_n.lhsIdx_val_of_single rfl o c
theorem qk_rhs_0 (o : S1024x512.Idx) (c : dot_S1024x128_S512x128_S1024x512_1_1_0_0_n_n.contr.Idx) :
    (dot_S1024x128_S512x128_S1024x512_1_1_0_0_n_n.rhsIdx o c 0).val = (o 1).val := by
  unfold DotDims.rhsIdx
  rw [dif_neg (show ¬(0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
  rfl
theorem qk_rhs_1 (o : S1024x512.Idx) (c : dot_S1024x128_S512x128_S1024x512_1_1_0_0_n_n.contr.Idx) :
    (dot_S1024x128_S512x128_S1024x512_1_1_0_0_n_n.rhsIdx o c 1).val = (c ⟨0, by decide⟩).val :=
  dot_S1024x128_S512x128_S1024x512_1_1_0_0_n_n.rhsIdx_val_of_single rfl o c

/-- the score of row i against key j: the sum over the head coordinate -/
theorem matmulQK_apply (lhs : FVec Ideal S1024x128 .bf16) (rhs : FVec Ideal S512x128 .bf16) (i : Fin 1024) (j : Fin 512) :
    matmul (F := Ideal) dot_S1024x128_S512x128_S1024x512_1_1_0_0_n_n none lhs rhs (constant (F := Ideal) S1024x512 .f32 0x00000000#32) (ix2 i j)
      = ∑ h : Fin 128, lhs (ix2 i h) * rhs (ix2 j h) := by
  simp only [matmul]
  rw [Ideal.matmul_constant_zero_apply, ← Equiv.sum_comp (ValueIdx.contrEquiv1 dot_S1024x128_S512x128_S1024x512_1_1_0_0_n_n 128 rfl rfl).symm]
  refine Finset.sum_congr rfl fun h _ => ?_
  have hk := ValueIdx.contrEquiv1_symm_val dot_S1024x128_S512x128_S1024x512_1_1_0_0_n_n 128 rfl rfl h
  have el : dot_S1024x128_S512x128_S1024x512_1_1_0_0_n_n.lhsIdx (ix2 i j) ((ValueIdx.contrEquiv1 dot_S1024x128_S512x128_S1024x512_1_1_0_0_n_n 128 rfl rfl).symm h) = ix2 i h := funext fun a => Fin.ext (by
    match a with
    | ⟨0, _⟩ => exact qk_lhs_0 _ _
    | ⟨1, _⟩ => exact (qk_lhs_1 _ _).trans hk)
  have er : dot_S1024x128_S512x128_S1024x512_1_1_0_0_n_n.rhsIdx (ix2 i j) ((ValueIdx.contrEquiv1 dot_S1024x128_S512x128_S1024x512_1_1_0_0_n_n 128 rfl rfl).symm h) = ix2 j h := funext fun a => Fin.ext (by
    match a with
    | ⟨0, _⟩ => exact qk_rhs_0 _ _
    | ⟨1, _⟩ => exact (qk_rhs_1 _ _).trans hk)
  rw [el, er]

theorem pv_lhs_0 (o : S1024x128.Idx) (c : dot_S1024x512_S512x128_S1024x128_1_0_0_1_n_n.contr.Idx) :
    (dot_S1024x512_S512x128_S1024x128_1_0_0_1_n_n.lhsIdx o c 0).val = (o 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem pv_lhs_1 (o : S1024x128.Idx) (c : dot_S1024x512_S512x128_S1024x128_1_0_0_1_n_n.contr.Idx) :
    (dot_S1024x512_S512x128_S1024x128_1_0_0_1_n_n.lhsIdx o c 1).val = (c ⟨0, by decide⟩).val :=
  dot_S1024x512_S512x128_S1024x128_1_0_0_1_n_n.lhsIdx_val_of_single rfl o c
theorem pv_rhs_0 (o : S1024x128.Idx) (c : dot_S1024x512_S512x128_S1024x128_1_0_0_1_n_n.contr.Idx) :
    (dot_S1024x512_S512x128_S1024x128_1_0_0_1_n_n.rhsIdx o c 0).val = (c ⟨0, by decide⟩).val :=
  dot_S1024x512_S512x128_S1024x128_1_0_0_1_n_n.rhsIdx_val_of_single rfl o c
theorem pv_rhs_1 (o : S1024x128.Idx) (c : dot_S1024x512_S512x128_S1024x128_1_0_0_1_n_n.contr.Idx) :
    (dot_S1024x512_S512x128_S1024x128_1_0_0_1_n_n.rhsIdx o c 1).val = (o 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- the weighted value of row i at head coordinate h: the sum over the tile's keys -/
theorem matmulPV_apply (lhs : FVec Ideal S1024x512 .bf16) (rhs : FVec Ideal S512x128 .bf16) (i : Fin 1024) (h : Fin 128) :
    matmul (F := Ideal) dot_S1024x512_S512x128_S1024x128_1_0_0_1_n_n none lhs rhs (constant (F := Ideal) S1024x128 .f32 0x00000000#32) (ix2 i h)
      = ∑ j : Fin 512, lhs (ix2 i j) * rhs (ix2 j h) := by
  simp only [matmul]
  rw [Ideal.matmul_constant_zero_apply, ← Equiv.sum_comp (ValueIdx.contrEquiv1 dot_S1024x512_S512x128_S1024x128_1_0_0_1_n_n 512 rfl rfl).symm]
  refine Finset.sum_congr rfl fun j _ => ?_
  have hk := ValueIdx.contrEquiv1_symm_val dot_S1024x512_S512x128_S1024x128_1_0_0_1_n_n 512 rfl rfl j
  have el : dot_S1024x512_S512x128_S1024x128_1_0_0_1_n_n.lhsIdx (ix2 i h) ((ValueIdx.contrEquiv1 dot_S1024x512_S512x128_S1024x128_1_0_0_1_n_n 512 rfl rfl).symm j) = ix2 i j := funext fun a => Fin.ext (by
    match a with
    | ⟨0, _⟩ => exact pv_lhs_0 _ _
    | ⟨1, _⟩ => exact (pv_lhs_1 _ _).trans hk)
  have er : dot_S1024x512_S512x128_S1024x128_1_0_0_1_n_n.rhsIdx (ix2 i h) ((ValueIdx.contrEquiv1 dot_S1024x512_S512x128_S1024x128_1_0_0_1_n_n 512 rfl rfl).symm j) = ix2 j h := funext fun a => Fin.ext (by
    match a with
    | ⟨0, _⟩ => exact (pv_rhs_0 _ _).trans hk
    | ⟨1, _⟩ => exact pv_rhs_1 _ _)
  rw [el, er]

/-! ### The new weighted sum -/

theorem stepA_apply (a1 a2 : BitVec 32) (q : Vec Ideal S1x1024x128 .bf16) (k v : Vec Ideal S1x512x128 .bf16)
    (mo : Vec Ideal S1024x1 .f32) (ao : Vec Ideal S1024x128 .f32) (i : Fin 1024) (h : Fin 128) :
    stepA a1 a2 q k v mo ao (ix2 i h) = Ideal.exp (mo (ix2 i 0) - stepM a1 a2 q k mo (ix2 i 0)) * ao (ix2 i h)
      + ∑ j : Fin 512, Ideal.exp (k1_pay9 (F := Ideal) a1 a2 q k (ix2 i j) - stepM a1 a2 q k mo (ix2 i 0)) * v (ix3 0 j h) := by
  unfold stepA k1_pay5
  rw [shapeCast_self]
  refine (addf_apply _ _ _).trans ?_
  refine congrArg₂ (· + ·) ?_ ?_
  · refine (mulf_apply _ _ _).trans ?_
    refine congrArg (· * ao (ix2 i h)) ?_
    exact (broadcastTo_a1_ab_apply _ _ i h).trans (pay11_apply a1 a2 q k mo i)
  · refine (matmulPV_apply _ _ i h).trans ?_
    refine Finset.sum_congr rfl fun j _ => ?_
    refine congrArg₂ (· * ·) ?_ ?_
    · exact pay12_apply a1 a2 q k mo i j
    · unfold k1_pay8
      exact shapeCast_1ab_ab_apply v _ j h

/-! ### The tile's scaled, causally masked scores -/

/-- the mask value the kernel selects for a key in the row's future stands for minus infinity -/
theorem neg_big_eq : Named.named (F := Ideal) κ "neg_big" (φ := .f32) 0xFF333332#32 = (⊥ : EReal) :=
  IdealRules.named_const.ideal_named_scalar _ _ _ _ rfl

/-- the scale the kernel multiplies every score by stands for the real constant c -/
theorem inv_sqrt_h_eq : Named.named (F := Ideal) κ "inv_sqrt_h" (φ := .f32) 0x3DB504F3#32 = (Cert.Attn.c : EReal) := by
  unfold Cert.Attn.c
  exact IdealRules.named_const.ideal_named_scalar _ _ _ _ rfl

/-- the global row qi·1024 + i as a 32-bit word -/
theorem rowWord_toNat (qi : ℕ) (hq : qi < 2) (i : Fin 1024) :
    (IntOp.addi (Scalar.muli (BitVec.ofNat 32 qi) 1024#32) (BitVec.ofNat 32 i.val)).toNat = qi * 1024 + i.val := by
  have hi := i.isLt
  simp only [IntOp.addi, Scalar.muli, IntOp.muli, BitVec.toNat_add, BitVec.toNat_mul, BitVec.toNat_ofNat, Nat.reducePow, Nat.reduceMod]
  omega

/-- the global key ki·512 + j as a 32-bit word -/
theorem keyWord_toNat (ki : ℕ) (hk : ki < 4) (j : Fin 512) :
    (IntOp.addi (Scalar.muli (BitVec.ofNat 32 ki) 512#32) (BitVec.ofNat 32 j.val)).toNat = ki * 512 + j.val := by
  have hj := j.isLt
  simp only [IntOp.addi, Scalar.muli, IntOp.muli, BitVec.toNat_add, BitVec.toNat_mul, BitVec.toNat_ofNat, Nat.reducePow, Nat.reduceMod]
  omega

/-- the mask bit is set exactly where the key is not in the row's future -/
theorem mask_bit (qi ki : ℕ) (hq : qi < 2) (hk : ki < 4) (i : Fin 1024) (j : Fin 512) :
    IntOp.cmpi .sge (IntOp.addi (Scalar.muli (BitVec.ofNat 32 qi) 1024#32) (BitVec.ofNat 32 i.val))
        (IntOp.addi (Scalar.muli (BitVec.ofNat 32 ki) 512#32) (BitVec.ofNat 32 j.val)) = 1#1
      ↔ ki * 512 + j.val ≤ qi * 1024 + i.val := by
  have hi := i.isLt
  have hj := j.isLt
  rw [StableHlo.Predicate.sge_iff_toNat (by rw [rowWord_toNat qi hq i]; omega) (by rw [keyWord_toNat ki hk j]; omega),
    rowWord_toNat qi hq i, keyWord_toNat ki hk j]

/-- a select on a bit that is set exactly when P holds is the if on P -/
theorem select_of_iff {α : Type} (c : BitVec 1) (P : Prop) [Decidable P] (hc : c = 1#1 ↔ P) (A B : α) :
    Scalar.select c A B = if P then A else B := by
  by_cases hP : P
  · rw [hc.mpr hP, select_one, if_pos hP]
  · rw [eq_zero_of_ne_one (fun h => hP (hc.mp h)), select_zero, if_neg hP]

theorem pay9_apply (qi ki : ℕ) (hq : qi < 2) (hk : ki < 4) (q : Vec Ideal S1x1024x128 .bf16) (k : Vec Ideal S1x512x128 .bf16)
    (i : Fin 1024) (j : Fin 512) :
    k1_pay9 (F := Ideal) (BitVec.ofNat 32 qi) (BitVec.ofNat 32 ki) q k (ix2 i j)
      = (if ki * 512 + j.val ≤ qi * 1024 + i.val then ∑ h : Fin 128, q (ix3 0 i h) * k (ix3 0 j h) else ⊥) * (Cert.Attn.c : EReal) := by
  unfold k1_pay9
  show Scalar.select
        (IntOp.cmpi .sge
          (IntOp.addi (Scalar.muli (BitVec.ofNat 32 qi) 1024#32) (iota .tc S1024x512 32 [0] iota_S1024x512_d0_w32 (ix2 i j)))
          (IntOp.addi (Scalar.muli (BitVec.ofNat 32 ki) 512#32) (iota .tc S1024x512 32 [1] iota_S1024x512_d1_w32 (ix2 i j))))
        (matmul (F := Ideal) dot_S1024x128_S512x128_S1024x512_1_1_0_0_n_n none
          (shapeCast S1024x128 q shapeCasts_S1x1024x128_S1024x128) (shapeCast S512x128 k shapeCasts_S1x512x128_S512x128)
          (constant (F := Ideal) S1024x512 .f32 0x00000000#32) (ix2 i j))
        (Named.named (F := Ideal) κ "neg_big" (φ := .f32) 0xFF333332#32)
      * Named.named (F := Ideal) κ "inv_sqrt_h" (φ := .f32) 0x3DB504F3#32 = _
  rw [iota_single_apply, iota_single_apply, neg_big_eq, inv_sqrt_h_eq, matmulQK_apply]
  refine congrArg (· * (Cert.Attn.c : EReal)) ?_
  refine (select_of_iff _ _ (mask_bit qi ki hq hk i j) _ _).trans ?_
  refine congrArg (fun t => if ki * 512 + j.val ≤ qi * 1024 + i.val then t else (⊥ : EReal)) ?_
  refine Finset.sum_congr rfl fun h _ => ?_
  exact congrArg₂ (· * ·) (shapeCast_1ab_ab_apply q _ i h) (shapeCast_1ab_ab_apply k _ j h)

end Cert.KernelIdeal.AttnStep

end
-- ==== Proof.BlockReads.lean ====
/-
  Which element of the projected array each element of an input block of the attention region is. The region's
  grid is (batch 8) x (query tile 2) x (key tile 4); all three input windows read the one array of shape
  8 x 2048 x 384 that holds, per position, 128 query, 128 key and 128 value numbers. The query window's block at a
  point is rows [1024 q, 1024 q + 1024) of batch b, columns [0, 128); the key and value windows' blocks are rows
  [512 k', 512 k' + 512) with k' = min k (2 q + 1) (a key tile in the query tile's future is replaced by the last
  one it needs), columns [128, 256) and [256, 384).
-/
import proofs.«423328_j88012469829751_3_alg».proof.Proof.Region1Defs
import Idealize.ShloMosaic.Lib.Pipeline.Value
import Idealize.ShloMosaic.Lib.ValueIdx

set_option maxRecDepth 16384

noncomputable section

namespace Cert.KernelIdeal.BlockReads

open Cert.KernelIdeal Cert.KernelIdeal.Gen Cert.KernelIdeal.Hand Idealize.ShloMosaic Idealize.ShloMosaic.TcCoe Idealize.ShloMosaic.ValueIdx

variable {F : FTy → Type} [FloatOps F] [Named F]

variable (V : (c : Dev nD) → (b : Ref sig .tc) → Buf (Elt F) ((c : Thread nD τ).loc b))

/-! ## The grid coordinates of a point -/

/-- The batch of point `t`. -/
theorem coords1_0 (t : Fin cfg1.N) : (grid1.coords t 0).val = t.val / 8 :=
  (by decide +kernel : ∀ t : Fin grid1.N, (grid1.coords t 0).val = t.val / 8) t
/-- Its query tile. -/
theorem coords1_1 (t : Fin cfg1.N) : (grid1.coords t 1).val = t.val / 4 % 2 :=
  (by decide +kernel : ∀ t : Fin grid1.N, (grid1.coords t 1).val = t.val / 4 % 2) t
/-- Its key tile. -/
theorem coords1_2 (t : Fin cfg1.N) : (grid1.coords t 2).val = t.val % 4 :=
  (by decide +kernel : ∀ t : Fin grid1.N, (grid1.coords t 2).val = t.val % 4) t

/-! ## The windows' block indices, in closed form on the point -/

/-- The query window's block: batch, query tile, the first column block. -/
theorem idx1_0 : ∀ t : Fin cfg1.N, win1_0.index t (0 : Fin 3) = t.val / 8
    ∧ win1_0.index t (1 : Fin 3) = t.val / 4 % 2
    ∧ win1_0.index t (2 : Fin 3) = 0 :=
  (by decide +kernel : ∀ t : Fin grid1.N, _)
/-- The key window's block: batch, the key tile cut at the last one the query tile needs, the second column block. -/
theorem idx1_1 : ∀ t : Fin cfg1.N, win1_1.index t (0 : Fin 3) = t.val / 8
    ∧ win1_1.index t (1 : Fin 3) = min (t.val % 4) (2 * (t.val / 4 % 2) + 1)
    ∧ win1_1.index t (2 : Fin 3) = 1 :=
  (by decide +kernel : ∀ t : Fin grid1.N, _)
/-- The value window's block: the same rows, the third column block. -/
theorem idx1_2 : ∀ t : Fin cfg1.N, win1_2.index t (0 : Fin 3) = t.val / 8
    ∧ win1_2.index t (1 : Fin 3) = min (t.val % 4) (2 * (t.val / 4 % 2) + 1)
    ∧ win1_2.index t (2 : Fin 3) = 2 :=
  (by decide +kernel : ∀ t : Fin grid1.N, _)

/-! ## The input blocks, element by element -/

/-- The query block at point `t`: batch `t / 8`, rows of query tile `t / 4 % 2`, the query columns. -/
theorem iblk1_q (c : Dev nD) (t : Fin cfg1.N) (i : Fin 1024) (h : Fin 128) :
    iblk1 V c 0 t (ix3 0 i h) = V c main_v3 (ix3 ⟨t.val / 8, by have ht : t.val < grid1.N := t.isLt; rw [N_1] at ht; omega⟩
      ⟨(t.val / 4 % 2) * 1024 + i.val, by have hi := i.isLt; omega⟩ ⟨h.val, by have hh := h.isLt; omega⟩) := by
  obtain ⟨e0, e1, e2⟩ := idx1_0 t
  unfold iblk1
  show V c main_v3 (((cfg1.win 0).blk t).view.emb (ix3 0 i h)) = V c main_v3 _
  refine congrArg (V c main_v3) ?_
  funext a; apply Fin.ext
  match a with
  | ⟨0, _⟩ => show win1_0.index t (0 : Fin 3) * 1 + 1 * 0 = t.val / 8; rw [e0]; omega
  | ⟨1, _⟩ => show win1_0.index t (1 : Fin 3) * 1024 + 1 * i.val = (t.val / 4 % 2) * 1024 + i.val; rw [e1]; omega
  | ⟨2, _⟩ => show win1_0.index t (2 : Fin 3) * 128 + 1 * h.val = h.val; rw [e2]; omega

/-- The key block at point `t`: batch `t / 8`, rows of key tile `min (t % 4) (2 (t / 4 % 2) + 1)`, the key columns. -/
theorem iblk1_k (c : Dev nD) (t : Fin cfg1.N) (j : Fin 512) (h : Fin 128) :
    iblk1 V c 1 t (ix3 0 j h) = V c main_v3 (ix3 ⟨t.val / 8, by have ht : t.val < grid1.N := t.isLt; rw [N_1] at ht; omega⟩
      ⟨(min (t.val % 4) (2 * (t.val / 4 % 2) + 1)) * 512 + j.val, by have hj := j.isLt; omega⟩ ⟨128 + h.val, by have hh := h.isLt; omega⟩) := by
  obtain ⟨e0, e1, e2⟩ := idx1_1 t
  unfold iblk1
  show V c main_v3 (((cfg1.win 1).blk t).view.emb (ix3 0 j h)) = V c main_v3 _
  refine congrArg (V c main_v3) ?_
  funext a; apply Fin.ext
  match a with
  | ⟨0, _⟩ => show win1_1.index t (0 : Fin 3) * 1 + 1 * 0 = t.val / 8; rw [e0]; omega
  | ⟨1, _⟩ => show win1_1.index t (1 : Fin 3) * 512 + 1 * j.val = (min (t.val % 4) (2 * (t.val / 4 % 2) + 1)) * 512 + j.val; rw [e1]; omega
  | ⟨2, _⟩ => show win1_1.index t (2 : Fin 3) * 128 + 1 * h.val = 128 + h.val; rw [e2]; omega

/-- The value block at point `t`: the same rows, the value columns. -/
theorem iblk1_v (c : Dev nD) (t : Fin cfg1.N) (j : Fin 512) (h : Fin 128) :
    iblk1 V c 2 t (ix3 0 j h) = V c main_v3 (ix3 ⟨t.val / 8, by have ht : t.val < grid1.N := t.isLt; rw [N_1] at ht; omega⟩
      ⟨(min (t.val % 4) (2 * (t.val / 4 % 2) + 1)) * 512 + j.val, by have hj := j.isLt; omega⟩ ⟨256 + h.val, by have hh := h.isLt; omega⟩) := by
  obtain ⟨e0, e1, e2⟩ := idx1_2 t
  unfold iblk1
  show V c main_v3 (((cfg1.win 2).blk t).view.emb (ix3 0 j h)) = V c main_v3 _
  refine congrArg (V c main_v3) ?_
  funext a; apply Fin.ext
  match a with
  | ⟨0, _⟩ => show win1_2.index t (0 : Fin 3) * 1 + 1 * 0 = t.val / 8; rw [e0]; omega
  | ⟨1, _⟩ => show win1_2.index t (1 : Fin 3) * 512 + 1 * j.val = (min (t.val % 4) (2 * (t.val / 4 % 2) + 1)) * 512 + j.val; rw [e1]; omega
  | ⟨2, _⟩ => show win1_2.index t (2 : Fin 3) * 128 + 1 * h.val = 256 + h.val; rw [e2]; omega

end Cert.KernelIdeal.BlockReads

end
-- ==== Proof.AttnInv.lean ====
/-
  The attention region's invariant, at the extended reals: after every grid point the three scratch buffers
  hold, row by row, the maximum, the normaliser and the weighted sum of values over the keys folded in so far,
  and at the last point of a query tile the output block holds the row's whole soft-max attention.

  The proof walks the points in order. A query tile's first point resets the scratch (the three quantities over
  no keys) and folds key tile 0 in; a later point whose key tile is not wholly in the query tile's future folds
  that tile in, which by the online recurrence extends the prefix by 512 keys; the last such point (key tile
  2 · query tile + 1) has every key up to the tile's last row in, so the weighted sum over the normaliser, which
  it stores, is the row's attention; the remaining points change nothing.
-/
import proofs.«423328_j88012469829751_3_alg».proof.Proof.Region1
import proofs.«423328_j88012469829751_3_alg».proof.Proof.AttnHyp
import proofs.«423328_j88012469829751_3_alg».proof.Proof.Softmax
import proofs.«423328_j88012469829751_3_alg».proof.Proof.AttnRows
import proofs.«423328_j88012469829751_3_alg».proof.Proof.AttnStep
import proofs.«423328_j88012469829751_3_alg».proof.Proof.BlockReads

set_option maxRecDepth 16384

noncomputable section

namespace Cert.KernelIdeal.AttnInv

open Cert.KernelIdeal Cert.KernelIdeal.Gen Cert.KernelIdeal.Hand
open Idealize.ShloMosaic Idealize.ShloMosaic.TcCoe Idealize.ShloMosaic.ValueIdx
open Idealize.SL.Sem

open Cert.KernelIdeal.AttnHyp Cert.KernelIdeal.AttnStep Cert.KernelIdeal.BlockReads

variable (V : (c : Dev nD) → (b : Ref sig .tc) → Buf (Elt Ideal) ((c : Thread nD τ).loc b)) (c : Dev nD)
variable (Qp Kp Vp : Fin 8 → Fin 2048 → Fin 128 → EReal)

/-! ### The blocks of a point, read against the projected arrays -/

/-- At a point whose key tile is folded in, the tile's score of local row `i` against local key `j` is the scaled,
    masked score of global row `r` against global key `k`: the mask compares exactly these two positions. -/
theorem pay9_row (H : Holds (V c main_v3) Qp Kp Vp) (t : Fin cfg1.N) (hact : t.val % 4 ≤ 2 * (t.val / 4 % 2) + 1)
    (b : Fin 8) (r k : Fin 2048) (i : Fin 1024) (j : Fin 512)
    (hb : b.val = t.val / 8) (hr : r.val = (t.val / 4 % 2) * 1024 + i.val)
    (hk : k.val = (min (t.val % 4) (2 * (t.val / 4 % 2) + 1)) * 512 + j.val) :
    k1_pay9 (F := Ideal) (qiW (grid1.coords t)) (kiW (grid1.coords t)) (iblk1 V c 0 t) (iblk1 V c 1 t) (ix2 i j)
      = Cert.Attn.z Qp Kp b r k := by
  have hN : t.val < 64 := lt_of_lt_of_eq t.isLt (show cfg1.N = 64 from N_1)
  obtain ⟨bv, hbv⟩ := b
  obtain ⟨rv, hrv⟩ := r
  obtain ⟨kv, hkv⟩ := k
  simp only at hb hr hk
  subst hb hr hk
  have e1 : qiW (grid1.coords t) = BitVec.ofNat 32 (t.val / 4 % 2) := by
    show BitVec.ofNat 32 (grid1.coords t 1).val = _
    rw [coords1_1]
  have e2 : kiW (grid1.coords t) = BitVec.ofNat 32 (t.val % 4) := by
    show BitVec.ofNat 32 (grid1.coords t 2).val = _
    rw [coords1_2]
  rw [e1, e2]
  refine (pay9_apply (t.val / 4 % 2) (t.val % 4) (by omega) (by omega) _ _ i j).trans ?_
  unfold Cert.Attn.z Cert.Attn.score
  refine congrArg (· * (Cert.Attn.c : EReal)) ?_
  refine if_congr ?_ ?_ rfl
  · show t.val % 4 * 512 + j.val ≤ t.val / 4 % 2 * 1024 + i.val
      ↔ min (t.val % 4) (2 * (t.val / 4 % 2) + 1) * 512 + j.val ≤ t.val / 4 % 2 * 1024 + i.val
    rw [Nat.min_eq_left hact]
  · refine Finset.sum_congr rfl fun h _ => ?_
    exact congrArg₂ (· * ·) ((iblk1_q V c t i h).trans (H.hQ _ _ h)) ((iblk1_k V c t j h).trans (H.hK _ _ h))

/-- The value block's entry at local key `j` is the projected value of global key `k`. -/
theorem val_row (H : Holds (V c main_v3) Qp Kp Vp) (t : Fin cfg1.N) (b : Fin 8) (k : Fin 2048) (j : Fin 512) (h : Fin 128)
    (hb : b.val = t.val / 8) (hk : k.val = (min (t.val % 4) (2 * (t.val / 4 % 2) + 1)) * 512 + j.val) :
    iblk1 V c 2 t (ix3 0 j h) = Vp b k h := by
  obtain ⟨bv, hbv⟩ := b
  obtain ⟨kv, hkv⟩ := k
  simp only at hb hk
  subst hb hk
  exact (iblk1_v V c t j h).trans (H.hV _ _ h)

/-! ### One point that folds its key tile in -/

/-- If row `i` of the three scratch buffers holds the maximum, the normaliser and the weighted sum over the first
    `512 · ki` keys of global row `r`, then after the point folds key tile `ki` in it holds them over the first
    `512 · ki + 512` keys. -/
theorem fold_row (H : Holds (V c main_v3) Qp Kp Vp) (t : Fin cfg1.N) (hact : t.val % 4 ≤ 2 * (t.val / 4 % 2) + 1)
    (b : Fin 8) (r : Fin 2048) (i : Fin 1024) (hb : b.val = t.val / 8) (hr : r.val = (t.val / 4 % 2) * 1024 + i.val)
    (mo lo : Vec Ideal S1024x1 .f32) (ao : Vec Ideal S1024x128 .f32) (n₀ : ℕ) (hn₀ : n₀ = 512 * (t.val % 4))
    (hm : mo (ix2 i 0) = Cert.Attn.Online.M (Cert.Attn.z Qp Kp b r) n₀)
    (hl : lo (ix2 i 0) = Cert.Attn.Online.S (Cert.Attn.z Qp Kp b r) n₀)
    (ha : ∀ h : Fin 128, ao (ix2 i h) = Cert.Attn.Online.A (Cert.Attn.z Qp Kp b r) (fun k => Vp b k h) n₀) :
    stepM (qiW (grid1.coords t)) (kiW (grid1.coords t)) (iblk1 V c 0 t) (iblk1 V c 1 t) mo (ix2 i 0)
        = Cert.Attn.Online.M (Cert.Attn.z Qp Kp b r) (n₀ + 512)
      ∧ stepL (qiW (grid1.coords t)) (kiW (grid1.coords t)) (iblk1 V c 0 t) (iblk1 V c 1 t) mo lo (ix2 i 0)
        = Cert.Attn.Online.S (Cert.Attn.z Qp Kp b r) (n₀ + 512)
      ∧ ∀ h : Fin 128, stepA (qiW (grid1.coords t)) (kiW (grid1.coords t)) (iblk1 V c 0 t) (iblk1 V c 1 t) (iblk1 V c 2 t) mo ao (ix2 i h)
        = Cert.Attn.Online.A (Cert.Attn.z Qp Kp b r) (fun k => Vp b k h) (n₀ + 512) := by
  have hN : t.val < 64 := lt_of_lt_of_eq t.isLt (show cfg1.N = 64 from N_1)
  have hcol : n₀ + 512 ≤ 2048 := by omega
  have hkv : ∀ j : Fin 512, (Cert.Attn.Online.col n₀ hcol j).val
      = (min (t.val % 4) (2 * (t.val / 4 % 2) + 1)) * 512 + j.val := fun j => by
    show n₀ + j.val = _
    rw [Nat.min_eq_left hact, hn₀, Nat.mul_comm]
  have hpay : ∀ j : Fin 512, k1_pay9 (F := Ideal) (qiW (grid1.coords t)) (kiW (grid1.coords t)) (iblk1 V c 0 t) (iblk1 V c 1 t) (ix2 i j)
      = Cert.Attn.z Qp Kp b r (Cert.Attn.Online.col n₀ hcol j) :=
    fun j => pay9_row V c Qp Kp Vp H t hact b r (Cert.Attn.Online.col n₀ hcol j) i j hb hr (hkv j)
  have hval : ∀ (h : Fin 128) (j : Fin 512), iblk1 V c 2 t (ix3 0 j h) = Vp b (Cert.Attn.Online.col n₀ hcol j) h :=
    fun h j => val_row V c Qp Kp Vp H t b (Cert.Attn.Online.col n₀ hcol j) j h hb (hkv j)
  have hz := Cert.Attn.Rows.z_ne_top Qp Kp H.realQ H.realK b r
  have h0 := Cert.Attn.Rows.z_zero_ne_bot Qp Kp H.realQ H.realK b r
  have hM : stepM (qiW (grid1.coords t)) (kiW (grid1.coords t)) (iblk1 V c 0 t) (iblk1 V c 1 t) mo (ix2 i 0)
      = Cert.Attn.Online.M (Cert.Attn.z Qp Kp b r) (n₀ + 512) :=
    (stepM_apply _ _ _ _ mo i).trans (Cert.Attn.Rows.fold_M _ n₀ hcol _ _ hm hpay)
  have hL : stepL (qiW (grid1.coords t)) (kiW (grid1.coords t)) (iblk1 V c 0 t) (iblk1 V c 1 t) mo lo (ix2 i 0)
      = Cert.Attn.Online.S (Cert.Attn.z Qp Kp b r) (n₀ + 512) :=
    (stepL_apply _ _ _ _ mo lo i).trans (Cert.Attn.Rows.fold_S _ hz h0 n₀ hcol _ _ _ _ hm hl hM hpay)
  refine ⟨hM, hL, fun h => ?_⟩
  exact (stepA_apply _ _ _ _ _ mo ao i h).trans
    (Cert.Attn.Rows.fold_A _ (fun k => Vp b k h) hz h0 (fun k => H.realV b k h) n₀ hcol _ _ _ _ _ hm (ha h) hM hpay (hval h))

/-! ### The invariant -/

/-- After point `t` (batch `t / 8`, query tile `t / 4 % 2`, key tile `t % 4`), for every row `i` of the query tile
    (global row `r`): the scratch holds the row's maximum, normaliser and weighted sums over the keys folded in so
    far, the first `512 · (min ki (2 qi + 1) + 1)`; and once the last needed key tile is in, the output block holds
    the row's attention. -/
def Inv (t : Fin cfg1.N) : Prop :=
  ∀ (b : Fin 8) (r : Fin 2048) (i : Fin 1024), b.val = t.val / 8 → r.val = (t.val / 4 % 2) * 1024 + i.val →
    ∀ n : ℕ, n = 512 * min (t.val % 4) (2 * (t.val / 4 % 2) + 1) + 512 →
      (outsAt1 (F := Ideal) V c t.val t.isLt).2.1 (ix2 i 0) = Cert.Attn.Online.M (Cert.Attn.z Qp Kp b r) n
      ∧ (outsAt1 (F := Ideal) V c t.val t.isLt).2.2.1 (ix2 i 0) = Cert.Attn.Online.S (Cert.Attn.z Qp Kp b r) n
      ∧ (∀ h : Fin 128, (outsAt1 (F := Ideal) V c t.val t.isLt).2.2.2 (ix2 i h)
          = Cert.Attn.Online.A (Cert.Attn.z Qp Kp b r) (fun k => Vp b k h) n)
      ∧ (2 * (t.val / 4 % 2) + 1 ≤ t.val % 4 → ∀ h : Fin 128,
          (outsAt1 (F := Ideal) V c t.val t.isLt).1 (ix3 0 i h) = Cert.Attn.attn Qp Kp Vp b r h)

/-- The query tile's first key tile: the scratch is reset (the three quantities over no keys) and tile 0 folded in. -/
theorem inv_first (H : Holds (V c main_v3) Qp Kp Vp) (t : Fin cfg1.N) (h1 : t.val % 4 = 0) : Inv V c Qp Kp Vp t := by
  intro b r i hb hr n hn
  have hN : t.val < 64 := lt_of_lt_of_eq t.isLt (show cfg1.N = 64 from N_1)
  have hact : t.val % 4 ≤ 2 * (t.val / 4 % 2) + 1 := by omega
  obtain ⟨hM, hL, hA⟩ := fold_row V c Qp Kp Vp H t hact b r i hb hr m0 l0 a0 0 (by omega)
    ((m0_apply i).trans (Cert.Attn.Online.M_zero _).symm) ((l0_apply i).trans (Cert.Attn.Online.S_zero _).symm)
    (fun h => (a0_apply i h).trans (Cert.Attn.Online.A_zero _ _).symm)
  have hn' : n = 0 + 512 := by rw [hn, h1]; simp
  subst hn'
  rw [outsAt1_A V c t h1]
  exact ⟨hM, hL, hA, fun hc => absurd hc (by omega)⟩

/-- A later key tile, given the invariant after the point before. -/
theorem inv_next (H : Holds (V c main_v3) Qp Kp Vp) (t : Fin cfg1.N) (h1 : ¬t.val % 4 = 0) (hp : t.val - 1 < cfg1.N)
    (ih : Inv V c Qp Kp Vp ⟨t.val - 1, hp⟩) : Inv V c Qp Kp Vp t := by
  intro b r i hb hr n hn
  have hN : t.val < 64 := lt_of_lt_of_eq t.isLt (show cfg1.N = 64 from N_1)
  have hprev : prevSt V c t.val t.isLt = outsAt1 V c (t.val - 1) hp := prevSt_pos V c t.val t.isLt (by omega) hp
  have hb' : b.val = (t.val - 1) / 8 := by omega
  have hr' : r.val = ((t.val - 1) / 4 % 2) * 1024 + i.val := by
    have : (t.val - 1) / 4 % 2 = t.val / 4 % 2 := by omega
    rw [this]; exact hr
  by_cases hact : t.val % 4 ≤ 2 * (t.val / 4 % 2) + 1
  · -- the tile is folded in: before it the scratch covers the first 512 · ki keys
    have hmin : min (t.val % 4) (2 * (t.val / 4 % 2) + 1) = t.val % 4 := Nat.min_eq_left hact
    have hminp : min ((t.val - 1) % 4) (2 * ((t.val - 1) / 4 % 2) + 1) = (t.val - 1) % 4 := Nat.min_eq_left (by omega)
    obtain ⟨pM, pL, pA, _⟩ := ih b r i hb' hr' (512 * (t.val % 4)) (by
      show 512 * (t.val % 4) = 512 * min ((t.val - 1) % 4) (2 * ((t.val - 1) / 4 % 2) + 1) + 512
      rw [hminp]; omega)
    obtain ⟨hM, hL, hA⟩ := fold_row V c Qp Kp Vp H t hact b r i hb hr (outsAt1 V c (t.val - 1) hp).2.1
      (outsAt1 V c (t.val - 1) hp).2.2.1 (outsAt1 V c (t.val - 1) hp).2.2.2 (512 * (t.val % 4)) rfl pM pL pA
    have hn' : n = 512 * (t.val % 4) + 512 := by rw [hn, hmin]
    subst hn'
    by_cases h3 : t.val % 4 = 2 * (t.val / 4 % 2) + 1
    · -- the last key tile the query tile needs: every key up to the row's own is in
      rw [outsAt1_C V c t h1 h3, hprev]
      refine ⟨hM, hL, hA, fun _ h => ?_⟩
      refine (finO_apply _ _ i h).trans ?_
      rw [hA h, hL]
      exact Cert.Attn.Rows.div_tail Qp Kp Vp H.realQ H.realK H.realV b r h _ (by omega)
    · rw [outsAt1_B V c t h1 hact h3, hprev]
      exact ⟨hM, hL, hA, fun hc => absurd hc (by omega)⟩
  · -- the tile is wholly in the query tile's future: nothing changes, and the prefix is already complete
    have hmin : min (t.val % 4) (2 * (t.val / 4 % 2) + 1) = 2 * (t.val / 4 % 2) + 1 := Nat.min_eq_right (by omega)
    have hminp : min ((t.val - 1) % 4) (2 * ((t.val - 1) / 4 % 2) + 1) = 2 * (t.val / 4 % 2) + 1 := by
      have : (t.val - 1) / 4 % 2 = t.val / 4 % 2 := by omega
      rw [this]; exact Nat.min_eq_right (by omega)
    obtain ⟨pM, pL, pA, pO⟩ := ih b r i hb' hr' n (by
      show n = 512 * min ((t.val - 1) % 4) (2 * ((t.val - 1) / 4 % 2) + 1) + 512
      rw [hminp, hn, hmin])
    rw [outsAt1_D V c t hact, hprev]
    exact ⟨pM, pL, pA, fun _ => pO (by show 2 * ((t.val - 1) / 4 % 2) + 1 ≤ (t.val - 1) % 4; omega)⟩

/-- The invariant holds after every point, by induction on the point's number. -/
theorem inv (H : Holds (V c main_v3) Qp Kp Vp) : ∀ (m : ℕ) (t : Fin cfg1.N), t.val = m → Inv V c Qp Kp Vp t := by
  intro m
  induction m with
  | zero => intro t ht; exact inv_first V c Qp Kp Vp H t (by omega)
  | succ m ih =>
    intro t ht
    by_cases h1 : t.val % 4 = 0
    · exact inv_first V c Qp Kp Vp H t h1
    · have hp : t.val - 1 < cfg1.N := by have := t.isLt; omega
      exact inv_next V c Qp Kp Vp H t h1 hp (ih ⟨t.val - 1, hp⟩ (by show t.val - 1 = m; omega))

/-- At the last point of a query tile (key tile 3) the output block's component of the state is the attention
    of the tile's rows: batch `t / 8`, row `(t / 4 % 2) · 1024 + i`. -/
theorem out_at_flush (H : Holds (V c main_v3) Qp Kp Vp) (t : Fin cfg1.N) (h3 : t.val % 4 = 3) (i : Fin 1024) (h : Fin 128) :
    (outsAt1 (F := Ideal) V c t.val t.isLt).1 (ix3 0 i h)
      = Cert.Attn.attn Qp Kp Vp ⟨t.val / 8, by have := t.isLt; have : cfg1.N = 64 := N_1; omega⟩
          ⟨(t.val / 4 % 2) * 1024 + i.val, by omega⟩ h := by
  have hN : t.val < 64 := lt_of_lt_of_eq t.isLt (show cfg1.N = 64 from N_1)
  exact ((inv V c Qp Kp Vp H t.val t rfl) ⟨t.val / 8, by omega⟩ ⟨(t.val / 4 % 2) * 1024 + i.val, by omega⟩ i rfl rfl _ rfl).2.2.2
    (by omega) h

end Cert.KernelIdeal.AttnInv

end
-- ==== Proof.AttnValue.lean ====
/-
  From the output blocks to the result array of the attention region.

  The output window's block at grid point `t` is batch `t / 8`, rows `(t / 4 % 2) · 1024 … + 1023`, all 128
  columns of the array [8, 2048, 128], and it is written back at the last key tile of each query tile only
  (`t % 4 = 3`). At such a point the block holds the rows' whole soft-max attention, so what is written back is
  that block of ONE array, the attention of the projected arrays index by index; the sixteen points that write
  back tile the array (batch `b`, row `r` lies in the block of point `8 b + 4 (r / 1024) + 3`), hence after the
  region the array holds the attention everywhere.
-/
import proofs.«423328_j88012469829751_3_alg».proof.Proof.AttnInv
import Idealize.ShloMosaic.Lib.Pipeline.Value
import Idealize.ShloMosaic.Lib.ValueIdx

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)
variable (Qp Kp Vp : Fin 8 → Fin 2048 → Fin 128 → EReal)

/-- The attention of the projected arrays as contents of the result array [8, 2048, 128]. -/
abbrev attnArr : S8x2048x128.Idx → EReal := fun idx => Cert.Attn.attn Qp Kp Vp (idx 0) (idx 1) (idx 2)

/-- Where the output's block sits at point `t`: batch `t / 8`, row tile `t / 4 % 2`, all columns. -/
theorem blockIndex : ∀ t : Fin cfg1.N, win1_3.index t (0 : Fin 3) = t.val / 8
    ∧ win1_3.index t (1 : Fin 3) = t.val / 4 % 2 ∧ win1_3.index t (2 : Fin 3) = 0 :=
  (by decide +kernel : ∀ t : Fin grid1.N, win1_3.index t (0 : Fin 3) = t.val / 8
    ∧ win1_3.index t (1 : Fin 3) = t.val / 4 % 2 ∧ win1_3.index t (2 : Fin 3) = 0)

/-- An index of the array is in point `t`'s block iff each coordinate is in the block's range on its axis. -/
theorem mem_blk (t : Fin cfg1.N) (i : S8x2048x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v4).slice (win1_3.rect t)).set ↔ _
  rw [View.set_slice_whole, Rect.mem_set_unit]
  exact Iff.rfl

/-- The block's element `j` sits in the array at batch `t / 8`, row `(t / 4 % 2) · 1024 + j₁`, column `j₂`. -/
theorem emb_blk (t : Fin cfg1.N) (j : S1x1024x128.Idx) :
    ((((cfg1.win 3).blk t).view.emb j : S8x2048x128.Idx) 0).val = t.val / 8
    ∧ ((((cfg1.win 3).blk t).view.emb j : S8x2048x128.Idx) 1).val = (t.val / 4 % 2) * 1024 + (j 1).val
    ∧ ((((cfg1.win 3).blk t).view.emb j : S8x2048x128.Idx) 2).val = (j 2).val := by
  obtain ⟨e0, e1, e2⟩ := blockIndex t
  have h0 : (j 0).val < 1 := (j 0).isLt
  refine ⟨?_, ?_, ?_⟩
  · show win1_3.index t (0 : Fin 3) * 1 + 1 * (j 0).val = _; omega
  · show win1_3.index t (1 : Fin 3) * 1024 + 1 * (j 1).val = _; omega
  · show win1_3.index t (2 : Fin 3) * 128 + 1 * (j 2).val = _; omega

/-- At the last key tile of a query tile the output block's element `j` is the attention at the place of the
    array where the block's element `j` sits. -/
theorem block_at_flush (H : Cert.KernelIdeal.AttnHyp.Holds (V c main_v3) Qp Kp Vp) (t : Fin cfg1.N) (h3 : t.val % 4 = 3)
    (j : S1x1024x128.Idx) :
    (outsAt1 (F := Ideal) V c t.val t.isLt).1 j = attnArr Qp Kp Vp (((cfg1.win 3).blk t).view.emb j) := by
  obtain ⟨e0, e1, e2⟩ := emb_blk t j
  have hN : cfg1.N = 64 := N_1
  have h0 : (j 0).val < 1 := (j 0).isLt
  have h1 : (j 1).val < 1024 := (j 1).isLt
  have hb : t.val / 8 < 8 := by have := t.isLt; omega
  have hr : (t.val / 4 % 2) * 1024 + (j 1).val < 2048 := by omega
  have hj : j = ix3 (0 : Fin 1) (j 1) (j 2) := by
    funext a
    match a with
    | ⟨0, _⟩ => exact Fin.ext (show (j 0).val = 0 by omega)
    | ⟨1, _⟩ => rfl
    | ⟨2, _⟩ => rfl
  have a0 : ((((cfg1.win 3).blk t).view.emb j : S8x2048x128.Idx) 0) = (⟨t.val / 8, hb⟩ : Fin 8) := Fin.ext e0
  have a1 : ((((cfg1.win 3).blk t).view.emb j : S8x2048x128.Idx) 1) = (⟨(t.val / 4 % 2) * 1024 + (j 1).val, hr⟩ : Fin 2048) := Fin.ext e1
  have a2 : ((((cfg1.win 3).blk t).view.emb j : S8x2048x128.Idx) 2) = (j 2 : Fin 128) := Fin.ext e2
  calc (outsAt1 (F := Ideal) V c t.val t.isLt).1 j
      = (outsAt1 (F := Ideal) V c t.val t.isLt).1 (ix3 (0 : Fin 1) (j 1) (j 2)) := congrArg _ hj
    _ = Cert.Attn.attn Qp Kp Vp ⟨t.val / 8, hb⟩ ⟨(t.val / 4 % 2) * 1024 + (j 1).val, hr⟩ (j 2) :=
        Cert.KernelIdeal.AttnInv.out_at_flush V c Qp Kp Vp H t h3 (j 1) (j 2)
    _ = Cert.Attn.attn Qp Kp Vp ((((cfg1.win 3).blk t).view.emb j : S8x2048x128.Idx) 0)
          ((((cfg1.win 3).blk t).view.emb j : S8x2048x128.Idx) 1) ((((cfg1.win 3).blk t).view.emb j : S8x2048x128.Idx) 2) := by
        rw [a0, a1, a2]

/-- WHAT A POINT THAT WRITES BACK WRITES: at the last key tile of a query tile the output block is the block of
    the attention array at the point's batch and row tile. -/
theorem flushed_eq (H : Cert.KernelIdeal.AttnHyp.Holds (V c main_v3) Qp Kp Vp) (t : Fin cfg1.N) (h3 : t.val % 4 = 3) :
    (dat1 (F := Ideal) V c).flushed 3 t = ((cfg1.win 3).blk t).view.read (Elt Ideal) (attnArr Qp Kp Vp) := by
  show (cfg1.win 3).cut (grid1.coords t) ((dat1 (F := Ideal) V c).after 3 t) = _
  rw [after1_3]
  funext j
  rw [View.read_apply]
  exact block_at_flush V c Qp Kp Vp H t h3 j

/-- Every index of the array lies in the block of a point that writes back: batch `b`, row `r` in that of point `8 b + 4 (r / 1024) + 3`. -/
theorem cover (i : S8x2048x128.Idx) :
    ∃ t : Fin cfg1.N, (cfg1.win 3).flush t = true ∧ i ∈ ((cfg1.win 3).blk t).view.set := by
  have hN : cfg1.N = 64 := N_1
  have hi0 : (i 0).val < 8 := (i 0).isLt
  have hi1 : (i 1).val < 2048 := (i 1).isLt
  have hi2 : (i 2).val < 128 := (i 2).isLt
  refine ⟨⟨8 * (i 0).val + 4 * ((i 1).val / 1024) + 3, by omega⟩, (flush1_3 _).mpr (by show (8 * (i 0).val + 4 * ((i 1).val / 1024) + 3) % 4 = 3; omega), ?_⟩
  rw [mem_blk]
  obtain ⟨e0, e1, e2⟩ := blockIndex ⟨8 * (i 0).val + 4 * ((i 1).val / 1024) + 3, by omega⟩
  intro a
  match a with
  | ⟨0, _⟩ => show win1_3.index _ (0 : Fin 3) * 1 ≤ (i 0).val ∧ (i 0).val < win1_3.index _ (0 : Fin 3) * 1 + 1; rw [e0]; dsimp only; omega
  | ⟨1, _⟩ => show win1_3.index _ (1 : Fin 3) * 1024 ≤ (i 1).val ∧ (i 1).val < win1_3.index _ (1 : Fin 3) * 1024 + 1024; rw [e1]; dsimp only; omega
  | ⟨2, _⟩ => show win1_3.index _ (2 : Fin 3) * 128 ≤ (i 2).val ∧ (i 2).val < win1_3.index _ (2 : Fin 3) * 128 + 128; rw [e2]; omega

/-- THE ARRAY AFTER THE REGION: the result array holds, index by index, the causal soft-max attention of the
    projected arrays. -/
theorem attn_arr (H : Cert.KernelIdeal.AttnHyp.Holds (V c main_v3) Qp Kp Vp) :
    (dat1 (F := Ideal) V c).arrAt 3 cfg1.N = fun idx : S8x2048x128.Idx => Cert.Attn.attn Qp Kp Vp (idx 0) (idx 1) (idx 2) :=
  (dat1 (F := Ideal) V c).arrAt_eq_of_cover 3 (attnArr Qp Kp Vp)
    (fun t hf => flushed_eq V c Qp Kp Vp H t ((flush1_3 t).mp hf)) cover

end Cert.KernelIdeal.AttnValue

end
-- ==== Proof.HostReads.lean ====
/-
  What the host operations around the two regions do, read at an index.

  Before the projection region the activations [8, 2048, 2048] are reshaped to [16384, 2048] (row
  b · 2048 + s of the flat array is row (b, s)) and the three weight matrices [2048, 128] are laid side by
  side along the columns into [2048, 384]. After it the flat result [16384, 384] is reshaped to
  [8, 2048, 384], again row b · 2048 + s to (b, s). A reshape keeps the row-major position; a concatenation
  reads the piece whose span of columns holds the column.
-/
import proofs.«423328_j88012469829751_3_alg».proof.Proof.Vals
import Idealize.ShloMosaic.Lib.StableHlo.Run
import Idealize.ShloMosaic.Lib.Pipeline.Value
import Idealize.ShloMosaic.Lib.ValueIdx

noncomputable section

namespace Cert.KernelIdeal.HostReads

open Cert.KernelIdeal Cert.KernelIdeal.Gen Cert.KernelIdeal.Hand
open Idealize.ShloMosaic Idealize.ShloMosaic.ValueIdx Idealize.ShloMosaic.TcCoe Idealize.SL.Sem Idealize.ShloMosaic.StableHlo

variable {F : FTy → Type} [FloatOps F] [Named F]
variable (m : (ℓ : Loc nD τ sig) → Buf (Elt F) ℓ)

theorem ent0_v0_term (c : Dev nD) :
    (ent0 m c main_v0 : S16384x2048.Idx → Elt F .f32)
      = shapeCast S16384x2048 (m ((c : Thread nD τ).loc main_arg0) : S8x2048x2048.Idx → Elt F .f32) shapeCasts_S8x2048x2048_S16384x2048 := by
  show StableHlo.after hostOps0 (fun b => m (c, b)) (Proc.devRef .tc main_v0) = _
  after_results
  rfl

theorem ent0_v1_term (c : Dev nD) :
    (ent0 m c main_v1 : S2048x384.Idx → Elt F .f32)
      = concatenate S2048x384 1 [⟨S2048x128, (m ((c : Thread nD τ).loc main_arg1) : S2048x128.Idx → Elt F .f32)⟩,
          ⟨S2048x128, (m ((c : Thread nD τ).loc main_arg2) : S2048x128.Idx → Elt F .f32)⟩,
          ⟨S2048x128, (m ((c : Thread nD τ).loc main_arg3) : S2048x128.Idx → Elt F .f32)⟩] concatenates_S2048x128_S2048x128_S2048x128_S2048x384_d1 := by
  show StableHlo.after hostOps0 (fun b => m (c, b)) (Proc.devRef .tc main_v1) = _
  after_results
  rfl

theorem ent1_v3_term (c : Dev nD) :
    (ent1 m c main_v3 : S8x2048x384.Idx → Elt F .bf16)
      = shapeCast S8x2048x384 (qkvOut m c : S16384x384.Idx → Elt F .bf16) shapeCasts_S16384x384_S8x2048x384 := by
  show StableHlo.after hostOps1 (val2 m c) (Proc.devRef .tc main_v3) = _
  after_results
  have h2 : val2 m c (Proc.devRef .tc main_v2) = qkvOut m c := Function.update_self _ _ _
  rw [h2]
  rfl

/-! ## The same, read at an index -/

/-- The activations flattened over (batch, position): row b · 2048 + s of the flat array is row (b, s). -/
theorem ent0_v0 (c : Dev nD) (b : Fin 8) (s d : Fin 2048) :
    (ent0 m c main_v0 : S16384x2048.Idx → Elt F .f32) (ix2 ⟨b.val * 2048 + s.val, by omega⟩ d)
      = (m ((c : Thread nD τ).loc main_arg0) : S8x2048x2048.Idx → Elt F .f32) (ix3 b s d) := by
  rw [ent0_v0_term]
  refine shapeCast_apply (s := S8x2048x2048) (t := S16384x2048) _ _ _ _ ?_
  rw [Shape.rowMajor_val_three, Shape.rowMajor_val_two]
  rfl

/-- Three matrices of 128 columns side by side, read at a column of the first, the second, the third. -/
theorem cat3_apply {α : Type} (x1 x2 x3 : S2048x128.Idx → α) (d : Fin 2048) (h : Fin 128) :
    concatenate S2048x384 1 [⟨S2048x128, x1⟩, ⟨S2048x128, x2⟩, ⟨S2048x128, x3⟩]
        concatenates_S2048x128_S2048x128_S2048x128_S2048x384_d1 (ix2 d ⟨h.val, by omega⟩) = x1 (ix2 d h)
    ∧ concatenate S2048x384 1 [⟨S2048x128, x1⟩, ⟨S2048x128, x2⟩, ⟨S2048x128, x3⟩]
        concatenates_S2048x128_S2048x128_S2048x128_S2048x384_d1 (ix2 d ⟨128 + h.val, by omega⟩) = x2 (ix2 d h)
    ∧ concatenate S2048x384 1 [⟨S2048x128, x1⟩, ⟨S2048x128, x2⟩, ⟨S2048x128, x3⟩]
        concatenates_S2048x128_S2048x128_S2048x128_S2048x384_d1 (ix2 d ⟨256 + h.val, by omega⟩) = x3 (ix2 d h) := by
  have hoff : ∀ b : Fin S2048x128.rank, b.cast (rfl : S2048x128.rank = S2048x384.rank) ≠ (1 : Fin S2048x384.rank) →
      ∀ (e : Fin 384), ((ix2 d h : S2048x128.Idx) b).val = ((ix2 d e : S2048x384.Idx) (b.cast rfl)).val := by
    intro b hb e
    match b with
    | ⟨0, _⟩ => rfl
    | ⟨1, _⟩ => exact absurd rfl hb
  refine ⟨?_, ?_, ?_⟩
  · exact concatenate_apply_piece (t := S2048x384) 1 [⟨S2048x128, x1⟩, ⟨S2048x128, x2⟩, ⟨S2048x128, x3⟩] _ _
      0 (by simp) S2048x128 x1 rfl rfl 0 rfl (ix2 d h) (fun b hb => hoff b hb _) (Nat.zero_add _)
  · exact concatenate_apply_piece (t := S2048x384) 1 [⟨S2048x128, x1⟩, ⟨S2048x128, x2⟩, ⟨S2048x128, x3⟩] _ _
      1 (by simp) S2048x128 x2 rfl rfl 128 rfl (ix2 d h) (fun b hb => hoff b hb _) rfl
  · exact concatenate_apply_piece (t := S2048x384) 1 [⟨S2048x128, x1⟩, ⟨S2048x128, x2⟩, ⟨S2048x128, x3⟩] _ _
      2 (by simp) S2048x128 x3 rfl rfl 256 rfl (ix2 d h) (fun b hb => hoff b hb _) rfl

/-- The concatenated weight matrix: columns 0 … 127 are the first matrix, -/
theorem ent0_v1_q (c : Dev nD) (d : Fin 2048) (h : Fin 128) :
    (ent0 m c main_v1 : S2048x384.Idx → Elt F .f32) (ix2 d ⟨h.val, by omega⟩)
      = (m ((c : Thread nD τ).loc main_arg1) : S2048x128.Idx → Elt F .f32) (ix2 d h) := by
  rw [ent0_v1_term]; exact (cat3_apply _ _ _ d h).1

/-- columns 128 … 255 the second, -/
theorem ent0_v1_k (c : Dev nD) (d : Fin 2048) (h : Fin 128) :
    (ent0 m c main_v1 : S2048x384.Idx → Elt F .f32) (ix2 d ⟨128 + h.val, by omega⟩)
      = (m ((c : Thread nD τ).loc main_arg2) : S2048x128.Idx → Elt F .f32) (ix2 d h) := by
  rw [ent0_v1_term]; exact (cat3_apply _ _ _ d h).2.1

/-- columns 256 … 383 the third. -/
theorem ent0_v1_v (c : Dev nD) (d : Fin 2048) (h : Fin 128) :
    (ent0 m c main_v1 : S2048x384.Idx → Elt F .f32) (ix2 d ⟨256 + h.val, by omega⟩)
      = (m ((c : Thread nD τ).loc main_arg3) : S2048x128.Idx → Elt F .f32) (ix2 d h) := by
  rw [ent0_v1_term]; exact (cat3_apply _ _ _ d h).2.2

/-- The projection's result unflattened: entry (b, s, j) is row b · 2048 + s, column j of the flat result. -/
theorem ent1_v3 (c : Dev nD) (b : Fin 8) (s : Fin 2048) (j : Fin 384) :
    (ent1 m c main_v3 : S8x2048x384.Idx → Elt F .bf16) (ix3 b s j)
      = (qkvOut m c : S16384x384.Idx → Elt F .bf16) (ix2 ⟨b.val * 2048 + s.val, by omega⟩ j) := by
  rw [ent1_v3_term]
  refine shapeCast_apply (s := S16384x384) (t := S8x2048x384) _ _ _ _ ?_
  rw [Shape.rowMajor_val_three, Shape.rowMajor_val_two]
  rfl

end Cert.KernelIdeal.HostReads

end
-- ==== Proof.QkvValue.lean ====
/-
  The fused projection, read as a function of the arrays it is entered from: after its sixteen points the
  result array [16384, 384] is the plain matrix product of the flattened activations [16384, 2048] and the
  concatenated weight matrix [2048, 384], index by index on the extended reals.

    * One point's product of its two loaded blocks, at (p, j), is  ∑ d, x0[p, d] · x1[d, j]:  the changes of
      format are the identity on the extended reals, and the contraction into a zero accumulator is the sum.
    * Point t loads rows 1024 t … 1024 t + 1023 of the activations and the whole weight matrix, and writes
      rows 1024 t … 1024 t + 1023 of the result; so what it writes is block t of the product.
    * Row r of the result lies in the block of point r / 1024, so the sixteen blocks cover the array.
-/
import proofs.«423328_j88012469829751_3_alg».proof.Proof.Region0
import Idealize.ShloMosaic.Lib.Pipeline.Value
import Idealize.ShloMosaic.Lib.ValueIdx
import Idealize.ShloMosaic.PureOps.Ideal.Laws

noncomputable section

namespace Cert.KernelIdeal.QkvValue

open Cert.KernelIdeal Cert.KernelIdeal.Gen Cert.KernelIdeal.Hand Idealize.ShloMosaic Idealize.ShloMosaic.ValueIdx
open Idealize.ShloMosaic.TcCoe Idealize.SL.Sem
open Idealize.ShloMosaic.Pipeline (Dat)

/-! ## The product of two blocks at an index -/

theorem lhs_mm_0 (i : S1024x384.Idx) (q : dot_S1024x2048_S2048x384_S1024x384_1_0_0_1_n_n.contr.Idx) :
    (dot_S1024x2048_S2048x384_S1024x384_1_0_0_1_n_n.lhsIdx i q 0).val = (i 0).val := by
  unfold DotDims.lhsIdx
  rw [dif_neg (show ¬(0 : Fin S1024x2048.rank) ∈ dot_S1024x2048_S2048x384_S1024x384_1_0_0_1_n_n.lhsBatch by decide), dif_pos (show (0 : Fin S1024x2048.rank) ∈ dot_S1024x2048_S2048x384_S1024x384_1_0_0_1_n_n.lhsNonContracting by decide)]
  rfl
theorem lhs_mm_1 (i : S1024x384.Idx) (q : dot_S1024x2048_S2048x384_S1024x384_1_0_0_1_n_n.contr.Idx) :
    (dot_S1024x2048_S2048x384_S1024x384_1_0_0_1_n_n.lhsIdx i q 1).val = (q ⟨0, by decide⟩).val :=
  dot_S1024x2048_S2048x384_S1024x384_1_0_0_1_n_n.lhsIdx_val_of_single rfl i q
theorem rhs_mm_0 (i : S1024x384.Idx) (q : dot_S1024x2048_S2048x384_S1024x384_1_0_0_1_n_n.contr.Idx) :
    (dot_S1024x2048_S2048x384_S1024x384_1_0_0_1_n_n.rhsIdx i q 0).val = (q ⟨0, by decide⟩).val :=
  dot_S1024x2048_S2048x384_S1024x384_1_0_0_1_n_n.rhsIdx_val_of_single rfl i q
theorem rhs_mm_1 (i : S1024x384.Idx) (q : dot_S1024x2048_S2048x384_S1024x384_1_0_0_1_n_n.contr.Idx) :
    (dot_S1024x2048_S2048x384_S1024x384_1_0_0_1_n_n.rhsIdx i q 1).val = (i 1).val := by
  unfold DotDims.rhsIdx
  rw [dif_neg (show ¬(1 : Fin S2048x384.rank) ∈ dot_S1024x2048_S2048x384_S1024x384_1_0_0_1_n_n.rhsBatch by decide), dif_pos (show (1 : Fin S2048x384.rank) ∈ dot_S1024x2048_S2048x384_S1024x384_1_0_0_1_n_n.rhsNonContracting by decide)]
  rfl

/-- The body's payload at (p, j): the row p of the first block against the column j of the second, summed over
    the 2048 contracted coordinates. The changes of format are the identity on the extended reals and the
    accumulator is zero. -/
theorem pay_apply (x0 : Vec Ideal S1024x2048 .f32) (x1 : Vec Ideal S2048x384 .f32) (p : Fin 1024) (j : Fin 384) :
    k0_pay1 (F := Ideal) x0 x1 (ix2 p j) = ∑ d : Fin 2048, x0 (ix2 p d) * x1 (ix2 d j) := by
  unfold k0_pay1
  simp only [shapeCast_self]
  show FloatOps.matmul (F := Ideal) (φ₁ := .bf16) (φ₂ := .bf16) dot_S1024x2048_S2048x384_S1024x384_1_0_0_1_n_n none x0 x1 (constant (F := Ideal) S1024x384 .f32 0x00000000#32) (ix2 p j) = _
  rw [Ideal.matmul_constant_zero_apply, ← Equiv.sum_comp (ValueIdx.contrEquiv1 dot_S1024x2048_S2048x384_S1024x384_1_0_0_1_n_n 2048 rfl rfl).symm]
  refine Finset.sum_congr rfl fun k _ => ?_
  have hk := ValueIdx.contrEquiv1_symm_val dot_S1024x2048_S2048x384_S1024x384_1_0_0_1_n_n 2048 rfl rfl k
  have el : dot_S1024x2048_S2048x384_S1024x384_1_0_0_1_n_n.lhsIdx (ix2 p j) ((ValueIdx.contrEquiv1 dot_S1024x2048_S2048x384_S1024x384_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S1024x2048_S2048x384_S1024x384_1_0_0_1_n_n.rhsIdx (ix2 p j) ((ValueIdx.contrEquiv1 dot_S1024x2048_S2048x384_S1024x384_1_0_0_1_n_n 2048 rfl rfl).symm k) = ix2 k j := funext fun a => Fin.ext (by
    match a with
    | ⟨0, _⟩ => exact (rhs_mm_0 _ _).trans hk
    | ⟨1, _⟩ => exact rhs_mm_1 _ _)
  rw [el, er]

/-! ## From blocks to the array -/

/-- The matrix product of an activations array and a weight matrix, index by index. -/
def matProd (A : S16384x2048.Idx → EReal) (B : S2048x384.Idx → EReal) : S16384x384.Idx → EReal := fun i =>
  ∑ d : Fin 2048, A (ix2 (i 0) d) * B (ix2 d (i 1))

theorem matProd_apply (A : S16384x2048.Idx → EReal) (B : S2048x384.Idx → EReal) (r : Fin 16384) (j : Fin 384) :
    matProd A B (ix2 r j) = ∑ d : Fin 2048, A (ix2 r d) * B (ix2 d j) := rfl

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at point t: the activations' and the result's row block is t, the
    weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem row_lt (t : Fin cfg0.N) (p : Fin 1024) : t.val * 1024 + p.val < 16384 := by
  have ht : t.val < 16 := lt_of_lt_of_eq t.isLt N_0
  have := p.isLt; omega

/-- The activations' block at point t is rows 1024 t … 1024 t + 1023 of the array. -/
theorem iblk_x_apply (c : Dev nD) (t : Fin cfg0.N) (p : Fin 1024) (d : Fin 2048) :
    (iblk0 V c 0 t : Vec Ideal S1024x2048 .f32) (ix2 p d)
      = (V c main_v0 : S16384x2048.Idx → EReal) (ix2 ⟨t.val * 1024 + p.val, row_lt t p⟩ d) := by
  obtain ⟨e0, e1, -, -, -, -⟩ := idx_facts t
  unfold iblk0
  rw [View.read_apply]
  show V c main_v0 _ = V c main_v0 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 2048 + 1 * d.val = d.val; rw [e1]; omega

/-- The weights' block at every point is the whole matrix. -/
theorem iblk_w_apply (c : Dev nD) (t : Fin cfg0.N) (y : S2048x384.Idx) :
    (iblk0 V c 1 t : Vec Ideal S2048x384 .f32) y = (V c main_v1 : S2048x384.Idx → EReal) y := by
  obtain ⟨-, -, e2, e3, -, -⟩ := idx_facts t
  unfold iblk0
  rw [View.read_apply]
  show V c main_v1 _ = V c main_v1 _
  congr 1
  funext a
  apply Fin.ext
  match a with
  | ⟨0, _⟩ => show win0_1.index t (0 : Fin 2) * 2048 + 1 * (y 0).val = (y 0).val; rw [e2]; omega
  | ⟨1, _⟩ => show win0_1.index t (1 : Fin 2) * 384 + 1 * (y 1).val = (y 1).val; rw [e3]; omega

/-- What point t writes back is block t of the product of the two entry arrays. -/
theorem flushed_eq (c : Dev nD) (t : Fin cfg0.N) :
    (dat0 (F := Ideal) V c).flushed 2 t
      = ((cfg0.win 2).blk t).view.read (Elt Ideal) (matProd (V c main_v0) (V c main_v1)) := by
  show (cfg0.win 2).cut (grid0.coords t) ((dat0 V c).after 2 t) = _
  rw [after0_2]
  unfold out0_2
  rw [View.canon_unit_zero hz]
  simp only [View.ld_unit_zero (S := S1024x2048) hz, View.ld_unit_zero (S := S2048x384) hz]
  obtain ⟨-, -, -, -, e4, e5⟩ := idx_facts t
  funext y
  obtain ⟨p, j, rfl⟩ : ∃ (p : Fin 1024) (j : Fin 384), y = ix2 p j := ⟨y 0, y 1, eq_ix2 y⟩
  rw [View.read_apply]
  show k0_pay1 (F := Ideal) (iblk0 V c 0 t) (iblk0 V c 1 t) (ix2 p j)
    = matProd (V c main_v0) (V c main_v1) (((cfg0.win 2).blk t).view.emb (ix2 p j))
  have hemb : ((cfg0.win 2).blk t).view.emb (ix2 p j)
      = ix2 (n0 := 16384) (n1 := 384) ⟨t.val * 1024 + p.val, row_lt t p⟩ j := by
    funext a
    apply Fin.ext
    match a with
    | ⟨0, _⟩ => show win0_2.index t (0 : Fin 2) * 1024 + 1 * p.val = t.val * 1024 + p.val; rw [e4]; omega
    | ⟨1, _⟩ => show win0_2.index t (1 : Fin 2) * 384 + 1 * j.val = j.val; rw [e5]; omega
  rw [hemb, matProd_apply, pay_apply]
  refine Finset.sum_congr rfl fun d _ => ?_
  rw [iblk_x_apply, iblk_w_apply]

/-- An index of the result array is in point t's block iff each coordinate is in the block's range. -/
theorem mem_blk (t : Fin cfg0.N) (i : S16384x384.Idx) :
    i ∈ ((cfg0.win 2).blk t).view.set ↔ ∀ a : Fin 2, win0_2.index t a * S1024x384.size a ≤ (i a).val ∧ (i a).val < win0_2.index t a * S1024x384.size a + S1024x384.size a := by
  show i ∈ ((View.whole main_v2).slice (win0_2.rect t)).set ↔ _
  rw [View.set_slice_whole, Rect.mem_set_unit]
  exact Iff.rfl

/-- Row r of the result is written by point r / 1024. -/
theorem cover (i : S16384x384.Idx) :
    ∃ t : Fin cfg0.N, (cfg0.win 2).flush t = true ∧ i ∈ ((cfg0.win 2).blk t).view.set := by
  have hi0 : (i 0).val < 16384 := (i 0).isLt
  have hi1 : (i 1).val < 384 := (i 1).isLt
  obtain ⟨t, ht⟩ : ∃ t : Fin cfg0.N, t.val = (i 0).val / 1024 :=
    ⟨⟨(i 0).val / 1024, by rw [show cfg0.N = 16 from N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 384 ≤ (i 1).val ∧ (i 1).val < win0_2.index t (1 : Fin 2) * 384 + 384; rw [e5]; omega

/-- After the region the result array is the matrix product of the two entry arrays. -/
theorem qkv_arr (c : Dev nD) :
    (dat0 (F := Ideal) V c).arrAt 2 cfg0.N = matProd (V c main_v0) (V c main_v1) :=
  (dat0 (F := Ideal) V c).arrAt_eq_of_cover 2 (matProd (V c main_v0) (V c main_v1)) (fun t _ => flushed_eq V c t) cover

end Cert.KernelIdeal.QkvValue

end
-- ==== Proof.Projections.lean ====
/-
  What the attention region is entered from, as the specification's projections.

  The projection region leaves the product of the flattened activations [16384, 2048] and the concatenated
  weights [2048, 384]; reshaped to [8, 2048, 384], its entry (b, s, j) is  ∑ d, x[b, s, d] · W[d, j]  with W the
  first, second or third weight matrix according to the third of the columns j lies in. So the array is the
  three projections side by side, and each projection of real arrays is real: a finite sum of products of reals.
-/
import proofs.«423328_j88012469829751_3_alg».proof.Proof.HostReads
import proofs.«423328_j88012469829751_3_alg».proof.Proof.QkvValue
import proofs.«423328_j88012469829751_3_alg».proof.Proof.AttnHyp
import proofs.«423328_j88012469829751_3_alg».proof.Proof.Spec

noncomputable section

namespace Cert.KernelIdeal.Projections

open Cert.KernelIdeal Cert.KernelIdeal.Gen Cert.KernelIdeal.Hand Cert.KernelIdeal.HostReads Cert.KernelIdeal.QkvValue
open Idealize.ShloMosaic Idealize.ShloMosaic.ValueIdx Idealize.ShloMosaic.TcCoe Idealize.SL.Sem

variable (m : (ℓ : Loc nD τ sig) → Buf (Elt Ideal) ℓ)

/-! ## A projection of real arrays is real -/

/-- The coercion of a finite sum of reals is the sum of the coercions. -/
private theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of reals is a real. -/
theorem proj_real (x : S8x2048x2048.Idx → EReal) (W : S2048x128.Idx → EReal)
    (hx : ∀ i, ∃ r : ℝ, x i = (r : EReal)) (hW : ∀ i, ∃ r : ℝ, W i = (r : EReal))
    (b : Fin 8) (s : Fin 2048) (h : Fin 128) : ∃ r : ℝ, Cert.Attn.proj x W b s h = (r : EReal) := by
  choose rx hrx using hx
  choose rW hrW using hW
  refine ⟨∑ d : Fin 2048, rx (ix3 b s d) * rW (ix2 d h), ?_⟩
  unfold Cert.Attn.proj
  rw [coe_sum]
  refine Finset.sum_congr rfl fun d _ => ?_
  rw [hrx, hrW, EReal.coe_mul]

/-! ## The attention region's input array -/

/-- What the projection region leaves is the product of the flattened activations and the concatenated weights. -/
theorem qkvOut_eq (c : Dev nD) :
    (qkvOut (F := Ideal) m c : S16384x384.Idx → EReal) = matProd (ent0 m c main_v0) (ent0 m c main_v1) := by
  unfold qkvOut
  exact qkv_arr (ent0 m) c

/-- Columns 0 … 127 of the fused array are the projection by the first weight matrix, -/
theorem fused_q (c : Dev nD) (b : Fin 8) (s : Fin 2048) (h : Fin 128) :
    (ent1 (F := Ideal) m c main_v3 : S8x2048x384.Idx → EReal) (ix3 b s ⟨h.val, by omega⟩)
      = Cert.Attn.proj (m ((c : Thread nD τ).loc main_arg0)) (m ((c : Thread nD τ).loc main_arg1)) b s h := by
  refine (ent1_v3 m c b s ⟨h.val, by omega⟩).trans ?_
  rw [qkvOut_eq, matProd_apply]
  unfold Cert.Attn.proj
  show (_ : EReal) = _
  refine Finset.sum_congr rfl fun d _ => ?_
  rw [ent0_v0, ent0_v1_q]

/-- columns 128 … 255 by the second, -/
theorem fused_k (c : Dev nD) (b : Fin 8) (s : Fin 2048) (h : Fin 128) :
    (ent1 (F := Ideal) m c main_v3 : S8x2048x384.Idx → EReal) (ix3 b s ⟨128 + h.val, by omega⟩)
      = Cert.Attn.proj (m ((c : Thread nD τ).loc main_arg0)) (m ((c : Thread nD τ).loc main_arg2)) b s h := by
  refine (ent1_v3 m c b s ⟨128 + h.val, by omega⟩).trans ?_
  rw [qkvOut_eq, matProd_apply]
  unfold Cert.Attn.proj
  show (_ : EReal) = _
  refine Finset.sum_congr rfl fun d _ => ?_
  rw [ent0_v0, ent0_v1_k]

/-- columns 256 … 383 by the third. -/
theorem fused_v (c : Dev nD) (b : Fin 8) (s : Fin 2048) (h : Fin 128) :
    (ent1 (F := Ideal) m c main_v3 : S8x2048x384.Idx → EReal) (ix3 b s ⟨256 + h.val, by omega⟩)
      = Cert.Attn.proj (m ((c : Thread nD τ).loc main_arg0)) (m ((c : Thread nD τ).loc main_arg3)) b s h := by
  refine (ent1_v3 m c b s ⟨256 + h.val, by omega⟩).trans ?_
  rw [qkvOut_eq, matProd_apply]
  unfold Cert.Attn.proj
  show (_ : EReal) = _
  refine Finset.sum_congr rfl fun d _ => ?_
  rw [ent0_v0, ent0_v1_v]

/-- The attention region is entered from the three projections of the arguments side by side, all real when
    the arguments are. -/
theorem holds_ent1 (c : Dev nD)
    (hx : ∀ i, ∃ r : ℝ, m ((c : Thread nD τ).loc main_arg0) i = (r : EReal))
    (hq : ∀ i, ∃ r : ℝ, m ((c : Thread nD τ).loc main_arg1) i = (r : EReal))
    (hk : ∀ i, ∃ r : ℝ, m ((c : Thread nD τ).loc main_arg2) i = (r : EReal))
    (hv : ∀ i, ∃ r : ℝ, m ((c : Thread nD τ).loc main_arg3) i = (r : EReal)) :
    Cert.KernelIdeal.AttnHyp.Holds (ent1 (F := Ideal) m c main_v3)
      (Cert.Attn.proj (m ((c : Thread nD τ).loc main_arg0)) (m ((c : Thread nD τ).loc main_arg1)))
      (Cert.Attn.proj (m ((c : Thread nD τ).loc main_arg0)) (m ((c : Thread nD τ).loc main_arg2)))
      (Cert.Attn.proj (m ((c : Thread nD τ).loc main_arg0)) (m ((c : Thread nD τ).loc main_arg3))) where
  hQ := fused_q m c
  hK := fused_k m c
  hV := fused_v m c
  realQ := proj_real _ _ hx hq
  realK := proj_real _ _ hx hk
  realV := proj_real _ _ hx hv

end Cert.KernelIdeal.Projections

end
-- ==== Proof.Bridge.lean ====
/-
  The kernel's result is the specification.

  The attention region is entered from an array that holds, per batch and position, the query, key and value
  projections of the arguments side by side, every one a real (the arguments are real by the precondition, and a
  projection entry is a finite sum of products of reals). From such an array the region leaves the causal
  soft-max attention of the three projections in the program's result: the specification's function of the
  four arguments.
-/
import proofs.«423328_j88012469829751_3_alg».proof.Proof.Vals
import proofs.«423328_j88012469829751_3_alg».proof.Proof.AttnHyp
import proofs.«423328_j88012469829751_3_alg».proof.Proof.Spec
import proofs.«423328_j88012469829751_3_alg».proof.Proof.Finite
import proofs.«423328_j88012469829751_3_alg».proof.Proof.AttnValue
import proofs.«423328_j88012469829751_3_alg».proof.Proof.Projections

set_option maxRecDepth 16384

noncomputable section

namespace Cert.KernelIdeal.Bridge

open Cert.KernelIdeal Cert.KernelIdeal.Gen Cert.KernelIdeal.Hand
open Idealize.ShloMosaic Idealize.ShloMosaic.TcCoe Idealize.ShloMosaic.ValueIdx Idealize.SL.Sem

/-- On every device the attention region leaves in the program's result exactly the specification's function of
    the four arguments: the region's input array holds the three projections side by side, all real, and from
    such an array the region computes the causal soft-max attention of the projections. -/
theorem attnOut_eq [hK : Cert.KernelIdeal.Facts] [hP : Cert.Pre_finite_inputs.Facts]
    (m : (ℓ : Loc nD τ sig) → Buf (Elt Ideal) ℓ) (hpre : Cert.Pre_KernelIdeal m) (c : Dev nD) :
    Cert.KernelIdeal.Hand.attnOut (F := Ideal) m c
      = Cert.Attn.G (m ((c.tc : Thread nD τ).loc main_arg0)) (m ((c.tc : Thread nD τ).loc main_arg1))
          (m ((c.tc : Thread nD τ).loc main_arg2)) (m ((c.tc : Thread nD τ).loc main_arg3)) := by
  obtain ⟨h0, h1, h2, h3⟩ := Cert.Finite.real_of_pre m hpre c
  unfold Cert.KernelIdeal.Hand.attnOut
  exact Cert.KernelIdeal.AttnValue.attn_arr (ent1 (F := Ideal) m) c _ _ _
    (Cert.KernelIdeal.Projections.holds_ent1 m c h0 h1 h2 h3)

end Cert.KernelIdeal.Bridge

end
-- ==== Proof.RefValue.lean ====
/-
  The reference program read as one function of its arguments: every row of the causal score matrix
  divided by the scale, soft-maxed over its whole row, and multiplied into the values.

  Stage by stage, at an index given by its coordinates (batch b, query q, key k, head coordinate h):
    * the three projections are the matrix products  proj x W b s h = ∑ d, x[b,s,d] · W[d,h];
    * the scores are  ∑ h, Q[b,q,h] · K[b,k,h];
    * the mask is  row ≥ column  of two iotas, so the masked score is the score where k ≤ q and ⊥ elsewhere;
    * the division by the real 11863283 / 2^20 is the product with its reciprocal c, at the infinities too;
    * the row maximum is a fold of max from ⊥ over the keys, which is the supremum over all keys, and the
      further maximum with ⊥ changes nothing;
    * the exponential of the difference, the row's sum from 0, the quotient, and the product with the values
      are the specification's e, rowSum and attn term by term.
-/
import proofs.«423328_j88012469829751_3_alg».proof.Proof.Gen.ReferenceIdeal.Run
import proofs.«423328_j88012469829751_3_alg».proof.Proof.Gen.ReferenceIdeal.Read
import proofs.«423328_j88012469829751_3_alg».proof.Proof.Spec
import Idealize.ShloMosaic.Lib.StableHlo.Predicate
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal Cert.ReferenceIdeal.Gen Cert.ReferenceIdeal.Read Cert.Attn

/-- The activations' array type and the weight matrices' array type, as the reference's stages take them. -/
abbrev XT := (⟨S8x2048x2048, .f32⟩ : BufTy).Contents (Elt Ideal)
abbrev WT := (⟨S2048x128, .f32⟩ : BufTy).Contents (Elt Ideal)

/-! ## The constants -/

/-- The pattern of minus infinity denotes ⊥. -/
theorem ofBits_neg_inf : Ideal.ofBits .f32 0xFF800000#32 = (⊥ : EReal) := by
  simp [Ideal.ofBits, Ideal.ieee]

/-- The divisor's pattern denotes the dyadic rational 11863283 / 2^20. -/
theorem ofBits_scale : Ideal.ofBits .f32 0x413504F3#32 = ((11863283 / 1048576 : ℝ) : EReal) := by
  simp [Ideal.ofBits, Ideal.ieee, -EReal.coe_mul]; norm_num

/-- Dividing by the divisor is multiplying by the specification's scale, on every extended real. -/
theorem div_scale (a : EReal) : Ideal.div a (Ideal.ofBits .f32 0x413504F3#32) = a * (c : EReal) := by
  rw [ofBits_scale, Ideal.div_coe (by norm_num : (11863283 / 1048576 : ℝ) ≠ 0)]
  congr 2
  unfold c; norm_num

/-! ## The projections and the scores -/

theorem v0_eq (x : XT) (W : WT) (b : Fin 8) (s : Fin 2048) (h : Fin 128) :
    val_main_v0 (F := Ideal) x W (ix3 b s h) = proj x W b s h := by
  rw [val_main_v0_apply]
  unfold proj
  refine Finset.sum_congr rfl fun d _ => ?_
  have el : lidx_main_v0 (ix3 b s h) d = ix3 b s d :=
    funext fun a => Fin.ext (by match a with | ⟨0, _⟩ => rfl | ⟨1, _⟩ => rfl | ⟨2, _⟩ => rfl)
  have er : ridx_main_v0 (ix3 b s h) d = ix2 d h :=
    funext fun a => Fin.ext (by match a with | ⟨0, _⟩ => rfl | ⟨1, _⟩ => rfl)
  rw [el, er]

theorem v1_eq (x : XT) (W : WT) (b : Fin 8) (s : Fin 2048) (h : Fin 128) :
    val_main_v1 (F := Ideal) x W (ix3 b s h) = proj x W b s h := by
  rw [val_main_v1_apply]
  unfold proj
  refine Finset.sum_congr rfl fun d _ => ?_
  have el : lidx_main_v1 (ix3 b s h) d = ix3 b s d :=
    funext fun a => Fin.ext (by match a with | ⟨0, _⟩ => rfl | ⟨1, _⟩ => rfl | ⟨2, _⟩ => rfl)
  have er : ridx_main_v1 (ix3 b s h) d = ix2 d h :=
    funext fun a => Fin.ext (by match a with | ⟨0, _⟩ => rfl | ⟨1, _⟩ => rfl)
  rw [el, er]

theorem v2_eq (x : XT) (W : WT) (b : Fin 8) (s : Fin 2048) (h : Fin 128) :
    val_main_v2 (F := Ideal) x W (ix3 b s h) = proj x W b s h := by
  rw [val_main_v2_apply]
  unfold proj
  refine Finset.sum_congr rfl fun d _ => ?_
  have el : lidx_main_v2 (ix3 b s h) d = ix3 b s d :=
    funext fun a => Fin.ext (by match a with | ⟨0, _⟩ => rfl | ⟨1, _⟩ => rfl | ⟨2, _⟩ => rfl)
  have er : ridx_main_v2 (ix3 b s h) d = ix2 d h :=
    funext fun a => Fin.ext (by match a with | ⟨0, _⟩ => rfl | ⟨1, _⟩ => rfl)
  rw [el, er]

/-- The score of query q against key k: the contraction of the two projected rows over the head coordinate. -/
theorem v3_eq (x : XT) (Wq Wk : WT) (b : Fin 8) (q k : Fin 2048) :
    val_main_v3 (F := Ideal) x Wq Wk (ix3 b q k) = score (proj x Wq) (proj x Wk) b q k := by
  rw [val_main_v3_apply]
  unfold score
  refine Finset.sum_congr rfl fun h _ => ?_
  have el : lidx_main_v3 (ix3 b q k) h = ix3 b q h :=
    funext fun a => Fin.ext (by match a with | ⟨0, _⟩ => rfl | ⟨1, _⟩ => rfl | ⟨2, _⟩ => rfl)
  have er : ridx_main_v3 (ix3 b q k) h = ix3 b k h :=
    funext fun a => Fin.ext (by match a with | ⟨0, _⟩ => rfl | ⟨1, _⟩ => rfl | ⟨2, _⟩ => rfl)
  rw [el, er, v0_eq, v1_eq]

/-! ## The causal mask -/

/-- A coordinate below 2048, as a 32-bit word, reads back as itself. -/
theorem toNat_ofNat_coord (a : Fin 2048) : (BitVec.ofNat 32 a.val).toNat = a.val := by
  rw [BitVec.toNat_ofNat]; exact Nat.mod_eq_of_lt (by have := a.isLt; omega)

/-- The lower-triangular mask: row number ≥ column number, as signed 32-bit words, is k ≤ q. -/
theorem v5_eq (q k : Fin 2048) :
    val_main_v5 (F := Ideal) (ix2 q k) = if k.val ≤ q.val then 1#1 else 0#1 := by
  rw [val_main_v5_apply, val_main_call0_v4_apply, val_main_call0_v2_apply, val_main_call0_v0_apply,
    val_main_call0_v1_apply, val_main_call0_c_apply, val_main_call0_v3_apply, val_main_v4_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  have hadd : IntOp.addi (BitVec.ofNat 32 q.val) 0#32 = BitVec.ofNat 32 q.val := BitVec.add_zero _
  rw [hadd]
  have hq : (BitVec.ofNat 32 q.val).toNat < 2 ^ 31 := by rw [toNat_ofNat_coord]; have := q.isLt; omega
  have hk : (BitVec.ofNat 32 k.val).toNat < 2 ^ 31 := by rw [toNat_ofNat_coord]; have := k.isLt; omega
  have hiff := StableHlo.Predicate.sge_iff_toNat hq hk
  rw [toNat_ofNat_coord, toNat_ofNat_coord] at hiff
  by_cases hkq : k.val ≤ q.val
  · rw [if_pos hkq, hiff.mpr hkq, select_one]
  · rw [if_neg hkq, eq_zero_of_ne_one (fun h1 => hkq (hiff.mp h1)), select_zero]

/-- The masked score: the score where the key is not in the query's future, ⊥ where it is. -/
theorem v6_eq (x : XT) (Wq Wk : WT) (b : Fin 8) (q k : Fin 2048) :
    val_main_v6 (F := Ideal) x Wq Wk (ix3 b q k)
      = if k.val ≤ q.val then score (proj x Wq) (proj x Wk) b q k else ⊥ := by
  rw [val_main_v6_apply, val_main_call1_v1_apply, val_main_call1_v2_apply, val_main_call1_v0_apply, val_main_cst_apply,
    v3_eq]
  have ei : idx_main_call1_v1 (ix3 b q k) = ix2 q k :=
    funext fun a => Fin.ext (by match a with | ⟨0, _⟩ => rfl | ⟨1, _⟩ => rfl)
  rw [ei, v5_eq, Ideal.ofBits_def, ofBits_neg_inf]
  by_cases hkq : k.val ≤ q.val
  · rw [if_pos hkq, if_pos hkq, select_one]
  · rw [if_neg hkq, if_neg hkq, select_zero]

/-- The scaled masked score is the specification's z. -/
theorem v8_eq (x : XT) (Wq Wk : WT) (b : Fin 8) (q k : Fin 2048) :
    val_main_v8 (F := Ideal) x Wq Wk (ix3 b q k) = z (proj x Wq) (proj x Wk) b q k := by
  rw [val_main_v8_apply, val_main_v7_apply, val_main_cst_0_apply, v6_eq, Ideal.hostDivf_def, Ideal.ofBits_def, div_scale]
  rfl

/-! ## The row maximum -/

/-- A fold of max from ⊥ over all keys is the supremum over all keys. -/
theorem fold_max_eq_sup (f : Fin 2048 → EReal) :
    (Finset.univ : Finset (Fin 2048)).fold (FloatOps.maximumf (F := Ideal) (φ := .f32)) (⊥ : EReal) f
      = Finset.univ.sup f := rfl

/-- The reduction over the key axis from minus infinity, at row (b, q), is the specification's row maximum. -/
theorem v9_eq (x : XT) (Wq Wk : WT) (b : Fin 8) (q : Fin 2048) :
    val_main_v9 (F := Ideal) x Wq Wk (ix2 b q) = rowMax (proj x Wq) (proj x Wk) b q := by
  unfold val_main_v9
  rw [Host.reduce_eq_fold_single (FloatOps.maximumf (F := Ideal) (φ := .f32)) _ _ reducesTo_S8x2048x2048_S8x2048_d2
    (by decide) h_S_ (ix2 b q)]
  rw [val_main_cst_1_apply, Ideal.ofBits_def, ofBits_neg_inf]
  have hf : (val_main_v8 (F := Ideal) x Wq Wk ∘
      (Shape.Reduces.lift (s := S8x2048x2048) (a := 2) (t := S8x2048) (by decide) (ix2 b q)))
      = fun k : Fin 2048 => z (proj x Wq) (proj x Wk) b q k := by
    refine funext fun (k : Fin 2048) => ?_
    show val_main_v8 (F := Ideal) x Wq Wk _ = _
    have ei : (Shape.Reduces.lift (s := S8x2048x2048) (a := 2) (t := S8x2048) (by decide) (ix2 b q) k) = ix3 b q k :=
      funext fun a => Fin.ext (by match a with | ⟨0, _⟩ => rfl | ⟨1, _⟩ => rfl | ⟨2, _⟩ => rfl)
    rw [ei, v8_eq]
  rw [hf]
  exact fold_max_eq_sup _

/-- The further maximum with minus infinity changes nothing. -/
theorem v11_eq (x : XT) (Wq Wk : WT) (b : Fin 8) (q : Fin 2048) :
    val_main_v11 (F := Ideal) x Wq Wk (ix2 b q) = rowMax (proj x Wq) (proj x Wk) b q := by
  rw [val_main_v11_apply, val_main_v10_apply, val_main_cst_2_apply, v9_eq, Ideal.ofBits_def, ofBits_neg_inf,
    Ideal.maximumf_def]
  exact max_bot_left _

/-- The row maximum broadcast back along the keys. -/
theorem v13_eq (x : XT) (Wq Wk : WT) (b : Fin 8) (q k : Fin 2048) :
    val_main_v13 (F := Ideal) x Wq Wk (ix3 b q k) = rowMax (proj x Wq) (proj x Wk) b q := by
  rw [val_main_v13_apply, val_main_v12_apply]
  have ei : idx_main_v12 (idx_main_v13 (ix3 b q k)) = ix2 b q :=
    funext fun a => Fin.ext (by match a with | ⟨0, _⟩ => rfl | ⟨1, _⟩ => rfl)
  rw [ei, v11_eq]

/-! ## The weights, their sum, and the normalised weights -/

theorem v15_eq (x : XT) (Wq Wk : WT) (b : Fin 8) (q k : Fin 2048) :
    val_main_v15 (F := Ideal) x Wq Wk (ix3 b q k) = e (proj x Wq) (proj x Wk) b q k := by
  rw [val_main_v15_apply, val_main_v14_apply, v8_eq, v13_eq, Ideal.hostUnary_exp_def, Ideal.subf_def]
  rfl

theorem v16_eq (x : XT) (Wq Wk : WT) (b : Fin 8) (q : Fin 2048) :
    val_main_v16 (F := Ideal) x Wq Wk (ix2 b q) = rowSum (proj x Wq) (proj x Wk) b q := by
  rw [val_main_v16_apply, val_main_cst_3_apply, Ideal.ofBits_def, Ideal.ofBits_zero_f32, zero_add]
  unfold rowSum
  refine Finset.sum_congr rfl fun k _ => ?_
  have ei : idx_main_v16 (ix2 b q) k = ix3 b q k :=
    funext fun a => Fin.ext (by match a with | ⟨0, _⟩ => rfl | ⟨1, _⟩ => rfl | ⟨2, _⟩ => rfl)
  rw [ei, v15_eq]

theorem v18_eq (x : XT) (Wq Wk : WT) (b : Fin 8) (q k : Fin 2048) :
    val_main_v18 (F := Ideal) x Wq Wk (ix3 b q k) = rowSum (proj x Wq) (proj x Wk) b q := by
  rw [val_main_v18_apply, val_main_v17_apply]
  have ei : idx_main_v17 (idx_main_v18 (ix3 b q k)) = ix2 b q :=
    funext fun a => Fin.ext (by match a with | ⟨0, _⟩ => rfl | ⟨1, _⟩ => rfl)
  rw [ei, v16_eq]

theorem v19_eq (x : XT) (Wq Wk : WT) (b : Fin 8) (q k : Fin 2048) :
    val_main_v19 (F := Ideal) x Wq Wk (ix3 b q k)
      = Ideal.div (e (proj x Wq) (proj x Wk) b q k) (rowSum (proj x Wq) (proj x Wk) b q) := by
  rw [val_main_v19_apply, v15_eq, v18_eq, Ideal.hostDivf_def]

/-! ## The reference is the specification -/

theorem ref_eq (x : (⟨S8x2048x2048, .f32⟩ : BufTy).Contents (Elt Ideal))
    (Wq Wk Wv : (⟨S2048x128, .f32⟩ : BufTy).Contents (Elt Ideal)) :
    Cert.ReferenceIdeal.Read.val_main_v20 (F := Ideal) x Wq Wk Wv = Cert.Attn.G x Wq Wk Wv := by
  funext i
  obtain ⟨b, q, h, rfl⟩ : ∃ b q h, i = ix3 b q h := ⟨i 0, i 1, i 2, eq_ix3 i⟩
  rw [val_main_v20_apply]
  show _ = attn (proj x Wq) (proj x Wk) (proj x Wv) b q h
  unfold attn
  refine Finset.sum_congr rfl fun k _ => ?_
  have el : lidx_main_v20 (ix3 b q h) k = ix3 b q k :=
    funext fun a => Fin.ext (by match a with | ⟨0, _⟩ => rfl | ⟨1, _⟩ => rfl | ⟨2, _⟩ => rfl)
  have er : ridx_main_v20 (ix3 b q h) k = ix3 b k h :=
    funext fun a => Fin.ext (by match a with | ⟨0, _⟩ => rfl | ⟨1, _⟩ => rfl | ⟨2, _⟩ => rfl)
  rw [el, er, v19_eq, v2_eq]

end Cert.ReferenceIdeal.RefValue

end
-- ==== Proof.lean ====
/-
  Causal single-head attention: a Pallas kernel pair against its jnp reference, over the extended reals.

  The kernel program projects the activations x : [8, 2048, 2048] by the concatenated weights [Wq | Wk | Wv]
  in one tiled matrix product, then runs flash attention over (batch, query tile of 1024, key tile of 512):
  for each query tile it walks the key tiles not wholly in the tile's future, keeping per row a running
  maximum m, a running normaliser l = ∑ exp(z − m) and a running weighted sum acc = ∑ exp(z − m) · V, each old
  value rescaled by exp(m_old − m_new) when the maximum moves, and stores acc / l at the last tile needed.
  The reference projects three times, masks the whole 2048 x 2048 score matrix with −∞ above the diagonal,
  divides by the constant D = 11863283 / 2^20, soft-maxes every row at once and multiplies into V.

  At the ideal instance the two are one function `Cert.Attn.G` of the four arguments:
    * the fused product read at a column j < 128, 128 ≤ j < 256, 256 ≤ j is the projection by Wq, Wk, Wv;
    * the kernel's mask fill is NAMED −∞ and its scale is NAMED 1/D exactly (the f32 word of the reciprocal
      of the reference's own divisor), so its scaled masked score z is the reference's;
    * the running triple after n keys is (max, ∑ exp(z − max), ∑ exp(z − max) · V) over those n keys — a
      masked key adds exp(−∞) = 0 —, by exp(a − b) · exp(b − c) = exp(a − c) and distributivity over reals,
      which is where the inputs' finiteness is used; once every key up to the row's own position is in,
      the remaining keys are masked and change nothing;
    * (∑ e · V) / L = ∑ (e / L) · V for a real L ≥ 1.
  The three frames: each program runs to its end from any memory with zero counters, faults nowhere and
  leaves its arguments as launched; the kernel programs through the launch of a program of two regions,
  the reference through its generated run.
-/
import proofs.«423328_j88012469829751_3_alg».proof.Defs
import proofs.«423328_j88012469829751_3_alg».proof.Proof.Gen.Kernel
import proofs.«423328_j88012469829751_3_alg».proof.Proof.Gen.KernelIdeal
import proofs.«423328_j88012469829751_3_alg».proof.Proof.Gen.ReferenceIdeal
import proofs.«423328_j88012469829751_3_alg».proof.Proof.Gen.Pre_finite_inputs
import proofs.«423328_j88012469829751_3_alg».proof.Proof.Bits.Frame
import proofs.«423328_j88012469829751_3_alg».proof.Proof.Frame
import proofs.«423328_j88012469829751_3_alg».proof.Proof.Run
import proofs.«423328_j88012469829751_3_alg».proof.Proof.Bridge
import proofs.«423328_j88012469829751_3_alg».proof.Proof.RefValue
import Idealize.ShloMosaic.PureOps.IdealRules

noncomputable section

namespace Cert.Proof

open Idealize.ShloMosaic Idealize.ShloMosaic.TcCoe Idealize.SL.Sem

/-- The word-level kernel program runs, faults nowhere and leaves its arguments as launched. -/
theorem frame_p : Cert.frame_Kernel := fun m ρ _ => Cert.Kernel.Hand.frame_main m ρ

/-- So does its idealization. -/
theorem frame_pi : Cert.frame_KernelIdeal := fun m ρ _ => Cert.KernelIdeal.Hand.frame_main m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two named constants: the mask's fill denotes −∞ and the scale denotes 1048576 / 11863283, by the
    certificate's table. -/
theorem preserves : Cert.preserves_Kernel_KernelIdeal :=
  ⟨IdealRules.named_const.statement Cert.KernelIdeal.κ "neg_big" .f32 0xFF333332#32 ⊥ rfl,
   IdealRules.named_const.statement Cert.KernelIdeal.κ "inv_sqrt_h" .f32 0x3DB504F3#32 ((1048576 / 11863283 : ℝ) : EReal) rfl⟩

/-- From memories agreeing on the arguments both programs end with the result array at `Cert.Attn.G` of the
    arguments: the kernel's by its run and the reading of what the attention region leaves, the reference's by
    its generated run read back as that function. -/
theorem algebraic : Cert.algebraic_KernelIdeal_ReferenceIdeal := by
  intro m ρ m' ρ' hpre hagree
  refine ⟨fun c => Cert.KernelIdeal.Hand.attnOut (F := Ideal) m c, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2.1, (hagree c).2.2.1, (hagree c).2.2.2,
    Cert.ReferenceIdeal.RefValue.ref_eq]
  exact (Cert.KernelIdeal.Bridge.attnOut_eq m hpre c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
